-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S32000x2048 : Shape := ⟨2, ![32000, 2048]⟩
abbrev S32000 : Shape := ⟨1, ![32000]⟩
abbrev S4x1024 : Shape := ⟨2, ![4, 1024]⟩
abbrev S4 : Shape := ⟨1, ![4]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg3 : IVec S4x1024 32) (main_v33 : IVec S_ 1) : IVec S_ 1 :=
  let main_c_12 : IVec S_ 32 := constantI S_ 32 0#32
  let main_v34 : IVec S4x1024 32 := broadcastInDim S4x1024 ![] bcast_S_S4x1024 main_c_12
  let main_v35 : IVec S4x1024 1 := cmpi .sge main_arg3 main_v34
  let main_c_13 : IVec S_ 1 := constantI S_ 1 1#1
  let main_v36 : IVec S_ 1 := (fun x v => Host.reduce IntOp.andi x v reducesTo_S4x1024_S_d0_1 h_S_) main_v35 main_c_13
  let main_v37 : IVec S_ 1 := andi main_v33 main_v36
  let main_c_14 : IVec S_ 32 := constantI S_ 32 32000#32
  let main_v38 : IVec S4x1024 32 := broadcastInDim S4x1024 ![] bcast_S_S4x1024 main_c_14
  let main_v39 : IVec S4x1024 1 := cmpi .slt main_arg3 main_v38
  let main_c_15 : IVec S_ 1 := constantI S_ 1 1#1
  let main_v40 : IVec S_ 1 := (fun x v => Host.reduce IntOp.andi x v reducesTo_S4x1024_S_d0_1 h_S_) main_v39 main_c_15
  let main_v41 : IVec S_ 1 := andi main_v37 main_v40
  main_v41

def fn_part1 {F : FTy → Type} [FloatOps F] (main_arg3 : IVec S4x1024 32) (main_arg5 : FVec F S4 .f32) (main_arg6 : FVec F S4x1024 .f32) (main_arg7 : FVec F S4x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x1024 .f32 := Host.absf main_arg6
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg7
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg3 main_v33

def fn {F : FTy → Type} [FloatOps F] (main_arg0 : FVec F S4x1024x2048 .f32) (main_arg1 : FVec F S32000x2048 .f32) (main_arg2 : FVec F S32000 .f32) (main_arg3 : IVec S4x1024 32) (main_arg4 : FVec F S4x1024 .f32) (main_arg5 : FVec F S4 .f32) (main_arg6 : FVec F S4x1024 .f32) (main_arg7 : FVec F S4x1024 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S32000 .f32 := Host.absf main_arg2
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_v14 : FVec F S4x1024 .f32 := Host.absf main_arg4
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg3 main_arg5 main_arg6 main_arg7 main_v13 main_v16
-- ==== Kernel.lean ====
abbrev S4x1024x2048 : Shape := ⟨3, ![4, 1024, 2048]⟩
abbrev S32000x2048 : Shape := ⟨2, ![32000, 2048]⟩
abbrev S32000 : Shape := ⟨1, ![32000]⟩
abbrev S4x1024 : Shape := ⟨2, ![4, 1024]⟩
abbrev S4 : Shape := ⟨1, ![4]⟩
abbrev S4096x2048 : Shape := ⟨2, ![4096, 2048]⟩
abbrev S1x32000 : Shape := ⟨2, ![1, 32000]⟩
abbrev S4096x1 : Shape := ⟨2, ![4096, 1]⟩
abbrev S4x1 : Shape := ⟨2, ![4, 1]⟩
abbrev S1024x2048 : Shape := ⟨2, ![1024, 2048]⟩
abbrev S1280x2048 : Shape := ⟨2, ![1280, 2048]⟩
abbrev S1x1280 : Shape := ⟨2, ![1, 1280]⟩
abbrev S1024x1 : Shape := ⟨2, ![1024, 1]⟩
abbrev S1024x4 : Shape := ⟨2, ![1024, 4]⟩
abbrev S1024x1280 : Shape := ⟨2, ![1024, 1280]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 22
  | .vmem => 18
  | .smem => 0
  | _ => 0

abbrev bufTy : (tb : Table) → Fin (tcTables nBuf tb) → BufTy
  | .hbm, ⟨0, _⟩ => ⟨S4x1024x2048, .f32⟩
  | .hbm, ⟨1, _⟩ => ⟨S32000x2048, .f32⟩
  | .hbm, ⟨2, _⟩ => ⟨S32000, .f32⟩
  | .hbm, ⟨3, _⟩ => ⟨S4x1024, .i32⟩
  | .hbm, ⟨4, _⟩ => ⟨S4x1024, .f32⟩
  | .hbm, ⟨5, _⟩ => ⟨S4, .f32⟩
  | .hbm, ⟨6, _⟩ => ⟨S4x1024, .f32⟩
  | .hbm, ⟨7, _⟩ => ⟨S4x1024, .f32⟩
  | .hbm, ⟨8, _⟩ => ⟨S4096x2048, .f32⟩
  | .hbm, ⟨9, _⟩ => ⟨S4096x2048, .bf16⟩
  | .hbm, ⟨10, _⟩ => ⟨S32000x2048, .bf16⟩
  | .hbm, ⟨11, _⟩ => ⟨S1x32000, .f32⟩
  | .hbm, ⟨12, _⟩ => ⟨S4096x1, .i32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4x1, .f32⟩
  | .hbm, ⟨17, _⟩ => ⟨S4096x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1x1280, .f32⟩
  | .local _ .vmem, ⟨5, _⟩ => ⟨S1x1280, .f32⟩
  | .local _ .vmem, ⟨6, _⟩ => ⟨S1024x1, .i32⟩
  | .local _ .vmem, ⟨7, _⟩ => ⟨S1024x1, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S4x1, .f32⟩
  | .local _ .vmem, ⟨15, _⟩ => ⟨S1024x1, .f32⟩
  | .local _ .vmem, ⟨16, _⟩ => ⟨S1024x1, .f32⟩
  | .local _ .vmem, ⟨17, _⟩ => ⟨S1024x4, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v49 : BitVec 1 := Scalar.cmpi .eq arg1 c24_i32
  let v50 : BitVec 32 := Scalar.extui v49
  let c0_i32_22 : BitVec 32 := 0#32
  let v51 : BitVec 1 := Scalar.cmpi .ne v50 c0_i32_22
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S4x1024x2048_S4096x2048 : S4x1024x2048.ShapeCasts S4096x2048
  bitsLt_bf16_f32 : FTy.bits .bf16 < FTy.bits .f32
  shapeCasts_S32000_S1x32000 : S32000.ShapeCasts S1x32000
  shapeCasts_S4x1024_S4096x1 : S4x1024.ShapeCasts S4096x1
  shapeCasts_S4_S4x1 : S4.ShapeCasts S4x1
  inb_S1024x4_S1024x1_0_0 : ∀ a, (![0, 0] : Fin 2 → Nat) a + S1024x1.size a ≤ S1024x4.size a
  h_S1024x1 : 0 < S1024x1.numel
  shapeCasts_S1024x1_S1024x1 : S1024x1.ShapeCasts S1024x1
  inb_S1024x4_S1024x1_0_1 : ∀ a, (![0, 1] : Fin 2 → Nat) a + S1024x1.size a ≤ S1024x4.size a
  inb_S1024x4_S1024x1_0_2 : ∀ a, (![0, 2] : Fin 2 → Nat) a + S1024x1.size a ≤ S1024x4.size a
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x1_S1024x1_0_0 : ∀ a, (![0, 0] : Fin 2 → Nat) a + S1024x1.size a ≤ S1024x1.size a
  iota_S1024x1280_d1_w32 : S1024x1280.Iotas .tc 32 [1]
  broadcasts_S1024x1_S1024x1280 : S1024x1.Broadcasts S1024x1280
  reduces_S1024x1280_S1024 : S1024x1280.Reduces [1] S1024
  shapeCasts_S1024_S1024x1 : S1024.ShapeCasts S1024x1
  reduces_S1024x1_S1 : S1024x1.Reduces [0] S1
  shapeCasts_S1_S1x1 : S1.ShapeCasts S1x1
  inb_S4x1_S4x1_0_0 : ∀ a, (![0, 0] : Fin 2 → Nat) a + S4x1.size a ≤ S4x1.size a
  h_S4x1 : 0 < S4x1.numel
  shapeCasts_S4x1_S4x1 : S4x1.ShapeCasts S4x1
  iota_S4x1_d0_w32 : S4x1.Iotas .tc 32 [0]
  reduces_S4x1_S1 : S4x1.Reduces [0] S1
  broadcasts_S1x1_S1024x1 : S1x1.Broadcasts S1024x1
  shapeCasts_S1x1_S1x1 : S1x1.ShapeCasts S1x1
  reducesTo_S4096x1_S_d0_1 : S4096x1.ReducesTo [0, 1] S_
  h_S_ : 0 < S_.numel
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .i32 = 32 ∨ (Rect.block (s := S4096x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1.size a ≤ S4x1.size a
  hwx0_7 : ∀ i : grid0.Coords, EltTy.bits .f32 = 32 ∨ (Rect.block (s := S4x1) S4x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S4096x1.size a
  hwx0_8 : ∀ i : grid0.Coords, EltTy.bits .f32 = 32 ∨ (Rect.block (s := S4096x1) S1024x1.size (cc0_transform_8 i) (hinb0_8 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S4x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S32000x2048 : Shape := ⟨2, ![32000, 2048]⟩
abbrev S32000 : Shape := ⟨1, ![32000]⟩
abbrev S4x1024 : Shape := ⟨2, ![4, 1024]⟩
abbrev S4 : Shape := ⟨1, ![4]⟩
abbrev S4x1024x32000 : Shape := ⟨3, ![4, 1024, 32000]⟩
abbrev S1x1x32000 : Shape := ⟨3, ![1, 1, 32000]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4x1 : Shape := ⟨2, ![4, 1]⟩

abbrev nBuf : Space → Nat
  | .hbm => 103
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S32000x2048, .f32⟩
  | .hbm, ⟨2, _⟩ => ⟨S32000, .f32⟩
  | .hbm, ⟨3, _⟩ => ⟨S4x1024, .i32⟩
  | .hbm, ⟨4, _⟩ => ⟨S4x1024, .f32⟩
  | .hbm, ⟨5, _⟩ => ⟨S4, .f32⟩
  | .hbm, ⟨6, _⟩ => ⟨S4x1024, .f32⟩
  | .hbm, ⟨7, _⟩ => ⟨S4x1024, .f32⟩
  | .hbm, ⟨8, _⟩ => ⟨S4x1024x32000, .f32⟩
  | .hbm, ⟨9, _⟩ => ⟨S1x1x32000, .f32⟩
  | .hbm, ⟨10, _⟩ => ⟨S4x1024x32000, .f32⟩
  | .hbm, ⟨11, _⟩ => ⟨S4x1024x32000, .f32⟩
  | .hbm, ⟨12, _⟩ => ⟨S_, .f32⟩
  | .hbm, ⟨13, _⟩ => ⟨S4x1024x32000, .f32⟩
  | .hbm, ⟨14, _⟩ => ⟨S4x1024x32000, .f32⟩
  | .hbm, ⟨15, _⟩ => ⟨S_, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024x1, .f32⟩
  | .hbm, ⟨21, _⟩ => ⟨S4x1024x32000, .f32⟩
  | .hbm, ⟨22, _⟩ => ⟨S4x1024x32000, .f32⟩
  | .hbm, ⟨23, _⟩ => ⟨S4x1024x32000, .f32⟩
  | .hbm, ⟨24, _⟩ => ⟨S_, .f32⟩
  | .hbm, ⟨25, _⟩ => ⟨S4x1024, .f32⟩
  | .hbm, ⟨26, _⟩ => ⟨S4x1024x1, .f32⟩
  | .hbm, ⟨27, _⟩ => ⟨S4x1024x1, .f32⟩
  | .hbm, ⟨28, _⟩ => ⟨S4x1024x32000, .f32⟩
  | .hbm, ⟨29, _⟩ => ⟨S4x1024x32000, .f32⟩
  | .hbm, ⟨30, _⟩ => ⟨S4x1024x1, .i32⟩
  | .hbm, ⟨31, _⟩ => ⟨S_, .i32⟩
  | .hbm, ⟨32, _⟩ => ⟨S4x1024x1, .i32⟩
  | .hbm, ⟨33, _⟩ => ⟨S4x1024x1, .i1⟩
  | .hbm, ⟨34, _⟩ => ⟨S_, .i32⟩
  | .hbm, ⟨35, _⟩ => ⟨S4x1024x1, .i32⟩
  | .hbm, ⟨36, _⟩ => ⟨S4x1024x1, .i32⟩
  | .hbm, ⟨37, _⟩ => ⟨S4x1024x1, .i32⟩
  | .hbm, ⟨38, _⟩ => ⟨S4x1024x1x1, .i32⟩
  | .hbm, ⟨39, _⟩ => ⟨S1, .i32⟩
  | .hbm, ⟨40, _⟩ => ⟨S_, .i32⟩
  | .hbm, ⟨41, _⟩ => ⟨S4x1024x1x1, .i32⟩
  | .hbm, ⟨42, _⟩ => ⟨S4x1024x1x1, .i1⟩
  | .hbm, ⟨43, _⟩ => ⟨S1x1x1x1, .i32⟩
  | .hbm, ⟨44, _⟩ => ⟨S4x1024x1x1, .i32⟩
  | .hbm, ⟨45, _⟩ => ⟨S4x1024x1x1, .i1⟩
  | .hbm, ⟨46, _⟩ => ⟨S4x1024x1x1, .i1⟩
  | .hbm, ⟨47, _⟩ => ⟨S_, .i1⟩
  | .hbm, ⟨48, _⟩ => ⟨S4x1024x1, .i1⟩
  | .hbm, ⟨49, _⟩ => ⟨S4x1024x1, .f32⟩
  | .hbm, ⟨50, _⟩ => ⟨S_, .f32⟩
  | .hbm, ⟨51, _⟩ => ⟨S4x1024x1, .f32⟩
  | .hbm, ⟨52, _⟩ => ⟨S4x1024x1, .f32⟩
  | .hbm, ⟨53, _⟩ => ⟨S4x1024, .f32⟩
  | .hbm, ⟨54, _⟩ => ⟨S4x1024, .f32⟩
  | .hbm, ⟨55, _⟩ => ⟨S_, .f32⟩
  | .hbm, ⟨56, _⟩ => ⟨S4, .f32⟩
  | .hbm, ⟨57, _⟩ => ⟨S_, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S4x1024, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4x1, .f32⟩
  | .hbm, ⟨66, _⟩ => ⟨S4x1024, .f32⟩
  | .hbm, ⟨67, _⟩ => ⟨S4x1024, .f32⟩
  | .hbm, ⟨68, _⟩ => ⟨S4x1024, .f32⟩
  | .hbm, ⟨69, _⟩ => ⟨S4x1024, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4x1024, .f32⟩
  | .hbm, ⟨74, _⟩ => ⟨S4x1024, .f32⟩
  | .hbm, ⟨75, _⟩ => ⟨S_, .f32⟩
  | .hbm, ⟨76, _⟩ => ⟨S4x1024, .f32⟩
  | .hbm, ⟨77, _⟩ => ⟨S4x1024, .f32⟩
  | .hbm, ⟨78, _⟩ => ⟨S4x1, .f32⟩
  | .hbm, ⟨79, _⟩ => ⟨S4x1024, .f32⟩
  | .hbm, ⟨80, _⟩ => ⟨S4x1024, .f32⟩
  | .hbm, ⟨81, _⟩ => ⟨S4x1024, .f32⟩
  | .hbm, ⟨82, _⟩ => ⟨S4x1024, .f32⟩
  | .hbm, ⟨83, _⟩ => ⟨S4x1024, .f32⟩
  | .hbm, ⟨84, _⟩ => ⟨S4x1024, .f32⟩
  | .hbm, ⟨85, _⟩ => ⟨S4x1024, .f32⟩
  | .hbm, ⟨86, _⟩ => ⟨S4x1024, .f32⟩
  | .hbm, ⟨87, _⟩ => ⟨S4x1024, .f32⟩
  | .hbm, ⟨88, _⟩ => ⟨S_, .f32⟩
  | .hbm, ⟨89, _⟩ => ⟨S4x1024, .f32⟩
  | .hbm, ⟨90, _⟩ => ⟨S4x1024, .f32⟩
  | .hbm, ⟨91, _⟩ => ⟨S_, .f32⟩
  | .hbm, ⟨92, _⟩ => ⟨S4x1024, .f32⟩
  | .hbm, ⟨93, _⟩ => ⟨S4x1024, .f32⟩
  | .hbm, ⟨94, _⟩ => ⟨S4x1024, .f32⟩
  | .hbm, ⟨95, _⟩ => ⟨S4x1024, .f32⟩
  | .hbm, ⟨96, _⟩ => ⟨S_, .f32⟩
  | .hbm, ⟨97, _⟩ => ⟨S4, .f32⟩
  | .hbm, ⟨98, _⟩ => ⟨S4, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v6 : Ref sig .tc := ⟨.hbm, 29, rfl⟩
abbrev main_v7 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_0 : Ref sig .tc := ⟨.hbm, 55, rfl⟩
abbrev main_v11 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_v12 : Ref sig .tc := ⟨.hbm, 60, rfl⟩
abbrev main_v13 : Ref sig .tc := ⟨.hbm, 61, rfl⟩
abbrev main_cst_2 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_3 : Ref sig .tc := ⟨.hbm, 70, rfl⟩
abbrev main_cst_4 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_5 : Ref sig .tc := ⟨.hbm, 88, rfl⟩
abbrev main_v32 : Ref sig .tc := ⟨.hbm, 89, rfl⟩
abbrev main_v33 : Ref sig .tc := ⟨.hbm, 90, rfl⟩
abbrev main_cst_6 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_7 : Ref sig .tc := ⟨.hbm, 96, rfl⟩
abbrev main_v38 : Ref sig .tc := ⟨.hbm, 97, rfl⟩
abbrev main_v39 : Ref sig .tc := ⟨.hbm, 98, rfl⟩
abbrev main_cst_8 : Ref sig .tc := ⟨.hbm, 99, rfl⟩
abbrev main_v40 : Ref sig .tc := ⟨.hbm, 100, rfl⟩
abbrev main_cst_9 : Ref sig .tc := ⟨.hbm, 101, rfl⟩
abbrev main_v41 : Ref sig .tc := ⟨.hbm, 102, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S4x1024x32000_0_1_2 : S1x1x32000.BroadcastsInDim S4x1024x32000 (![0, 1, 2] : Fin 3 → Fin S4x1024x32000.rank)
  bcast_S_S4x1024x32000 : S_.BroadcastsInDim S4x1024x32000 (![] : Fin 0 → Fin S4x1024x32000.rank)
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  reducesTo_S4x1024_S4_d1 : S4x1024.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x1024_0_1 : S4x1.BroadcastsInDim S4x1024 (![0, 1] : Fin 2 → Fin S4x1024.rank)
  reducesTo_S4_S_d0 : S4.ReducesTo [0] S_
  dot_S4x1024x2048_S32000x2048_S4x1024x32000_2_1_01_0_n_n_wf : DotDims.WF S4x1024x2048 S32000x2048 S4x1024x32000 [2] [1] [0, 1] [0] [] []
  gather_S4x1024x32000_S4x1024x1x1_S4x1024x1_n_2_01_01_2_3_111_wf : GatherDims.WF S4x1024x32000 S4x1024x1x1 S4x1024x1 [] [2] [0, 1] [2] [0, 1] 3 ![1, 1, 1]

variable [Facts₀]

def dot_S4x1024x2048_S32000x2048_S4x1024x32000_2_1_01_0_n_n : DotDims S4x1024x2048 S32000x2048 S4x1024x32000 where
  lhsContracting := [2]
  rhsContracting := [1]
  lhsNonContracting := [0, 1]
  rhsNonContracting := [0]
  lhsBatch := []
  rhsBatch := []
  wf := dot_S4x1024x2048_S32000x2048_S4x1024x32000_2_1_01_0_n_n_wf
def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf

class Facts : Prop extends Facts₀ where

variable [Facts]
-- ==== Proof.LibStores.lean ====
/-
  What a buffer holds after a few stores into pairwise disjoint rectangles, read back one rectangle at a time.

  `View.writes f L` applies the stores `L` (last first) to contents `f`. Where the rectangles of the stores share no
  cell, a load through one store's own rectangle reads that store's payload: the later stores do not touch it, and
  the store itself covers it. The statements are over an arbitrary shape and arbitrary rectangles, so that using them
  at a kernel's literal extents unfolds nothing.
-/
import Idealize.ShloMosaic.Lib.Pipeline.FrameBody

noncomputable section

namespace Idealize.ShloMosaic.View

variable {sig : RefSig} {κ : Kind} {sp : Space} {s : Shape} {e : EltTy} {Val : EltTy → Type} [∀ e, Nonempty (Val e)]

/-- A rectangle's own index, placed in the shape, lies in the rectangle. -/
theorem _root_.Idealize.ShloMosaic.Rect.emb_mem (r : Rect s) (x : r.shape.Idx) : r.emb x ∈ r.set := r.idx_mem x

/-- After three stores into pairwise disjoint rectangles, a load through the LAST store's rectangle reads its payload. -/
theorem ld_writes_three_0 (v : View sig κ sp s e) (f : v.ty.Contents Val) (r0 r1 r2 : Rect s)
    (w0 : r0.shape.Idx → Val e) (w1 : r1.shape.Idx → Val e) (w2 : r2.shape.Idx → Val e) :
    View.ld (v.read Val (v.writes Val f [⟨r0, w0⟩, ⟨r1, w1⟩, ⟨r2, w2⟩])) r0 = w0 := by
  funext x
  show v.read Val _ (r0.emb x) = _
  rw [View.read_writes_apply_eq_canon v f (r0.emb x) _ ⟨⟨r0, w0⟩, List.mem_cons_self .., r0.emb_mem x⟩, View.canon_cons_emb]

/-- … through the MIDDLE store's rectangle, its payload, when the last store's rectangle is disjoint from it. -/
theorem ld_writes_three_1 (v : View sig κ sp s e) (f : v.ty.Contents Val) (r0 r1 r2 : Rect s)
    (w0 : r0.shape.Idx → Val e) (w1 : r1.shape.Idx → Val e) (w2 : r2.shape.Idx → Val e) (h01 : Disjoint r0.set r1.set) :
    View.ld (v.read Val (v.writes Val f [⟨r0, w0⟩, ⟨r1, w1⟩, ⟨r2, w2⟩])) r1 = w1 := by
  funext x
  show v.read Val _ (r1.emb x) = _
  rw [View.read_writes_apply_eq_canon v f (r1.emb x) _ ⟨⟨r1, w1⟩, List.mem_cons_of_mem _ (List.mem_cons_self ..), r1.emb_mem x⟩,
    View.canon_cons_of_not_mem (y := r1.emb x) _ _ (Finset.disjoint_right.mp h01 (r1.emb_mem x)), View.canon_cons_emb]

/-- … through the FIRST store's rectangle, its payload, when both later stores' rectangles are disjoint from it. -/
theorem ld_writes_three_2 (v : View sig κ sp s e) (f : v.ty.Contents Val) (r0 r1 r2 : Rect s)
    (w0 : r0.shape.Idx → Val e) (w1 : r1.shape.Idx → Val e) (w2 : r2.shape.Idx → Val e)
    (h02 : Disjoint r0.set r2.set) (h12 : Disjoint r1.set r2.set) :
    View.ld (v.read Val (v.writes Val f [⟨r0, w0⟩, ⟨r1, w1⟩, ⟨r2, w2⟩])) r2 = w2 := by
  funext x
  show v.read Val _ (r2.emb x) = _
  rw [View.read_writes_apply_eq_canon v f (r2.emb x) _ ⟨⟨r2, w2⟩, List.mem_cons_of_mem _ (List.mem_cons_of_mem _ (List.mem_cons_self ..)), r2.emb_mem x⟩,
    View.canon_cons_of_not_mem (y := r2.emb x) _ _ (Finset.disjoint_right.mp h02 (r2.emb_mem x)),
    View.canon_cons_of_not_mem (y := r2.emb x) _ _ (Finset.disjoint_right.mp h12 (r2.emb_mem x)), View.canon_cons_emb]

/-- After any stores, a load through a rectangle reads the payload of the LATEST store made through that very rectangle,
    provided every store after it went through a rectangle disjoint from it: in the list (last store first)
    `pre ++ ⟨r, w⟩ :: post` with each piece of `pre` off `r`, what `post` and the prior contents were does not matter. -/
theorem ld_writes_of_later_disjoint (v : View sig κ sp s e) (f : v.ty.Contents Val) (r : Rect s) (w : r.shape.Idx → Val e)
    (post : List (Piece Val s e)) :
    ∀ (pre : List (Piece Val s e)), (∀ p ∈ pre, Disjoint p.1.set r.set) →
      View.ld (v.read Val (v.writes Val f (pre ++ ⟨r, w⟩ :: post))) r = w := by
  intro pre hpre
  funext x
  show v.read Val _ (r.emb x) = _
  rw [View.read_writes_apply_eq_canon v f (r.emb x) _ ⟨⟨r, w⟩, List.mem_append_right _ (List.mem_cons_self ..), r.emb_mem x⟩]
  induction pre with
  | nil => exact View.canon_cons_emb r w post x
  | cons p pre ih =>
    rw [List.cons_append, View.canon_cons_of_not_mem (y := r.emb x) p _
      (Finset.disjoint_right.mp (hpre p (List.mem_cons_self ..)) (r.emb_mem x))]
    exact ih fun q hq => hpre q (List.mem_cons_of_mem _ hq)

end Idealize.ShloMosaic.View

end
-- ==== Proof.Carried.lean ====
/-
  The scratch the kernel carries from one vocabulary tile to the next, as values.

  The grid is 4 row tiles (one sequence each) by 25 vocabulary tiles of 1280 columns; point `t` is row tile `t / 25`,
  vocabulary tile `t % 25`. Columns 0, 1, 2 of the 1024 x 4 scratch hold, per token row, the running maximum of the
  logits seen so far, the running sum of `exp (logit - maximum)`, and the running sum of the logit at the selected
  token id. At a row tile's first vocabulary tile they are reset to `-inf, 0, 0` before the update; column 3 is never
  written. At a row tile's last vocabulary tile the body also stores the output block, from the three columns as that
  point's update leaves them.

  Everything here is stated over the body's own arithmetic (the payload terms of the program's skeleton) and is
  generic in the number instance, so that it serves the word-level program and the idealized one alike.
-/
import proofs.«404778_j58669253264202_3_alg».proof.Proof.Gen.KernelIdeal.Frame
import proofs.«404778_j58669253264202_3_alg».proof.Proof.Gen.KernelIdeal.Skeleton

set_option maxRecDepth 16384

noncomputable section

namespace Cert.KernelIdeal.Carried

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-! ## The input blocks at a point, at their literal types -/

/-- The hidden-state block of the point's row tile (bf16, 1024 x 2048). -/
abbrev xblk (c : Dev nD) (t : Fin cfg0.N) : Vec F S1024x2048 .bf16 := iblk m c 0 t
/-- The weight block of the point's vocabulary tile (bf16, 1280 x 2048). -/
abbrev wblk (c : Dev nD) (t : Fin cfg0.N) : Vec F S1280x2048 .bf16 := iblk m c 1 t
/-- The bias block of the point's vocabulary tile (1 x 1280). -/
abbrev bblk (c : Dev nD) (t : Fin cfg0.N) : Vec F S1x1280 .f32 := iblk m c 2 t
/-- The selected token ids of the point's row tile (1024 x 1). -/
abbrev idblk (c : Dev nD) (t : Fin cfg0.N) : Vec F S1024x1 .i32 := iblk m c 3 t
/-- The old per-token log-probabilities of the row tile. -/
abbrev oldblk (c : Dev nD) (t : Fin cfg0.N) : Vec F S1024x1 .f32 := iblk m c 4 t
/-- The reference per-token log-probabilities of the row tile. -/
abbrev refblk (c : Dev nD) (t : Fin cfg0.N) : Vec F S1024x1 .f32 := iblk m c 5 t
/-- The attention mask of the row tile. -/
abbrev maskblk (c : Dev nD) (t : Fin cfg0.N) : Vec F S1024x1 .f32 := iblk m c 6 t
/-- The advantages, all four sequences (4 x 1). -/
abbrev advblk (c : Dev nD) (t : Fin cfg0.N) : Vec F S4x1 .f32 := iblk m c 7 t

/-! ## The three columns -/

/-- Running maximum, running sum of exponentials, running selected logit: one column each. -/
abbrev Cols (F : FTy → Type) [FloatOps F] := FVec F S1024x1 .f32 × FVec F S1024x1 .f32 × FVec F S1024x1 .f32

/-- What a row tile's first vocabulary tile resets the columns to: `-inf, 0, 0`. -/
def reset : Cols F := (k0_pay9, k0_pay10, k0_pay11)

/-- One vocabulary tile's update of the columns `s` it starts from, at point `t`. -/
def update (c : Dev nD) (t : Fin cfg0.N) (s : Cols F) : Cols F :=
  (k0_pay2 (k0_pay14 (xblk m c t) (wblk m c t) (bblk m c t) s.1),
   k0_pay1 (k0_pay12 (xblk m c t) (wblk m c t) (bblk m c t)) (k0_pay14 (xblk m c t) (wblk m c t) (bblk m c t) s.1)
     (k0_pay15 (xblk m c t) (wblk m c t) (bblk m c t) s.1) s.2.1,
   k0_pay13 (grid0.coords t) (xblk m c t) (wblk m c t) (bblk m c t) (idblk m c t) s.2.2)

/-- The columns after point `n`: by recursion on the point, reset first where the vocabulary tile is the row tile's first. -/
def colsAt (c : Dev nD) : (n : ℕ) → n < cfg0.N → Cols F
  | 0, h => update m c ⟨0, h⟩ reset
  | n + 1, h =>
    if (n + 1) % 25 = 0 then update m c ⟨n + 1, h⟩ reset
    else update m c ⟨n + 1, h⟩ (colsAt c n (Nat.lt_of_succ_lt h))

/-- At a row tile's first vocabulary tile: the update of the reset columns. -/
theorem colsAt_first (c : Dev nD) (t : Fin cfg0.N) (h0 : t.val % 25 = 0) :
    colsAt m c t.val t.isLt = update m c t reset := by
  obtain ⟨n, hn⟩ := t
  cases n with
  | zero => rfl
  | succ n => exact if_pos h0

/-- At any other vocabulary tile: the update of what the point before left. -/
theorem colsAt_later (c : Dev nD) (t : Fin cfg0.N) (h0 : ¬t.val % 25 = 0) :
    colsAt m c t.val t.isLt = update m c t (colsAt m c (t.val - 1) (Nat.lt_of_le_of_lt (Nat.sub_le _ _) t.isLt)) := by
  obtain ⟨n, hn⟩ := t
  cases n with
  | zero => exact absurd (Nat.zero_mod _) h0
  | succ n => exact if_neg h0

/-! ## The output block -/

/-- The block a row tile's last vocabulary tile stores: the per-sequence loss term, the same in all 1024 rows, from the
    columns `s` as that point's update leaves them and the row tile's old / reference log-probabilities, mask and
    advantage. -/
def lossBlock (c : Dev nD) (t : Fin cfg0.N) (s : Cols F) : FVec F S1024x1 .f32 :=
  k0_pay3 (k0_pay4 s.1 s.2.1 s.2.2) (k0_pay5 (refblk m c t)) (k0_pay6 (maskblk m c t)) (k0_pay7 (maskblk m c t))
    (k0_pay8 (BitVec.ofNat 32 ((grid0.coords t) 0).val) s.1 s.2.1 s.2.2 (oldblk m c t) (maskblk m c t) (advblk m c t))
    (Scalar.ofBits .f32 0x00000000#32)

/-! ## Which point is which, decided over the grid -/

/-- The reset's condition holds exactly at a row tile's first vocabulary tile. -/
theorem first_iff : ∀ t : Fin cfg0.N,
    Scalar.cmpi .ne (Scalar.extui (Scalar.cmpi .eq (BitVec.ofNat 32 ((grid0.coords t) 1).val) 0#32)) 0#32 = 1#1 ↔ t.val % 25 = 0 :=
  (by decide +kernel : ∀ t : Fin grid0.N, _)

/-- The epilogue's condition holds exactly at a row tile's last vocabulary tile. -/
theorem last_iff : ∀ t : Fin cfg0.N, k0_cond2 (grid0.coords t) = 1#1 ↔ t.val % 25 = 24 :=
  (by decide +kernel : ∀ t : Fin grid0.N, _)

/-- Elsewhere the output window is idle … -/
theorem idle_out : ∀ t : Fin cfg0.N, ¬t.val % 25 = 24 → cfg0.idle 8 (cfg0.grid.coords t) = true :=
  (by decide +kernel : ∀ t : Fin grid0.N, _)

/-- … and not written back. -/
theorem noFlush_out : ∀ t : Fin cfg0.N, ¬t.val % 25 = 24 → (cfg0.win 8).flush t = false :=
  (by decide +kernel : ∀ t : Fin grid0.N, _)

/-- At a row tile's last vocabulary tile it is live. -/
theorem live_out : ∀ t : Fin cfg0.N, t.val % 25 = 24 → cfg0.idle 8 (cfg0.grid.coords t) = false :=
  (by decide +kernel : ∀ t : Fin grid0.N, _)

end Cert.KernelIdeal.Carried

end
-- ==== Proof.Columns.lean ====
/-
  The three columns of the 1024 x 4 scratch that the body uses, as rectangles, and what a load of one reads.
  Column 0 holds the running maximum, column 1 the running sum of exponentials, column 2 the running selected logit.
-/
import proofs.«404778_j58669253264202_3_alg».proof.Proof.Gen.KernelIdeal.Frame
import proofs.«404778_j58669253264202_3_alg».proof.Proof.Gen.KernelIdeal.Skeleton

set_option maxRecDepth 16384

noncomputable section

namespace Cert.KernelIdeal.Columns

open Idealize.ShloMosaic Idealize.ShloMosaic.TcCoe
open Idealize.SL Idealize.SL.Sem
open Cert.KernelIdeal Cert.KernelIdeal.Gen

variable {F : FTy → Type} [FloatOps F]

/-- Column `k` of the scratch: all 1024 rows, one column wide, starting at column `k`. -/
abbrev rect0 : Rect S1024x4 := Rect.unit (s := S1024x4) ![0, 0] S1024x1.size inb_S1024x4_S1024x1_0_0
abbrev rect1 : Rect S1024x4 := Rect.unit (s := S1024x4) ![0, 1] S1024x1.size inb_S1024x4_S1024x1_0_1
abbrev rect2 : Rect S1024x4 := Rect.unit (s := S1024x4) ![0, 2] S1024x1.size inb_S1024x4_S1024x1_0_2

/-- What a load of column `k` reads of a scratch whose contents are `X`. -/
abbrev col0 (X : Vec F S1024x4 .f32) : Vec F S1024x1 .f32 := View.ld X rect0
abbrev col1 (X : Vec F S1024x4 .f32) : Vec F S1024x1 .f32 := View.ld X rect1
abbrev col2 (X : Vec F S1024x4 .f32) : Vec F S1024x1 .f32 := View.ld X rect2

/-- The condition under which the body resets the columns, as it computes it from the vocabulary-tile coordinate. -/
abbrev firstCond (i : grid0.Coords) : Prop :=
  Scalar.cmpi .ne (Scalar.extui (Scalar.cmpi .eq (BitVec.ofNat 32 (i 1).val) 0#32)) 0#32 = 1#1

/-- One vocabulary tile's update of the three columns `(c0, c1, c2)`, over the point's input blocks: the new maximum,
    the rescaled sum plus the tile's exponentials, the selected logit added. -/
abbrev new0 (x : Vec F S1024x2048 .bf16) (w : Vec F S1280x2048 .bf16) (b : Vec F S1x1280 .f32) (c0 : Vec F S1024x1 .f32) : FVec F S1024x1 .f32 :=
  k0_pay2 (k0_pay14 x w b c0)
abbrev new1 (x : Vec F S1024x2048 .bf16) (w : Vec F S1280x2048 .bf16) (b : Vec F S1x1280 .f32) (c0 c1 : Vec F S1024x1 .f32) : FVec F S1024x1 .f32 :=
  k0_pay1 (k0_pay12 x w b) (k0_pay14 x w b c0) (k0_pay15 x w b c0) c1
abbrev new2 (i : grid0.Coords) (x : Vec F S1024x2048 .bf16) (w : Vec F S1280x2048 .bf16) (b : Vec F S1x1280 .f32) (ids : Vec F S1024x1 .i32)
    (c2 : Vec F S1024x1 .f32) : FVec F S1024x1 .f32 :=
  k0_pay13 i x w b ids c2

/-- The block a row tile's last vocabulary tile stores, from the three columns as that point's update leaves them and
    the row tile's old and reference log-probabilities, mask and advantages: the per-sequence loss term in every row. -/
abbrev lossOf (i : grid0.Coords) (c0 c1 c2 : Vec F S1024x1 .f32) (old rf mk : Vec F S1024x1 .f32) (adv : Vec F S4x1 .f32) : FVec F S1024x1 .f32 :=
  k0_pay3 (k0_pay4 c0 c1 c2) (k0_pay5 rf) (k0_pay6 mk) (k0_pay7 mk)
    (k0_pay8 (BitVec.ofNat 32 (i 0).val) c0 c1 c2 old mk adv) (Scalar.ofBits .f32 0x00000000#32)

end Cert.KernelIdeal.Columns

end
-- ==== Proof.RunMiddle.lean ====
/-
  The body at a vocabulary tile that is neither a row tile's first nor its last: no reset, no epilogue.
  It loads the row tile's hidden states, the tile's weights and bias and the token ids, forms the tile's logits,
  and updates the three scratch columns from what it finds in them; every input buffer, and the output buffer, which
  it does not touch, come back as they were.
-/
import proofs.«404778_j58669253264202_3_alg».proof.Proof.Columns
import Idealize.ShloMosaic.Lib.Pipeline.Value
import proofs.«404778_j58669253264202_3_alg».proof.Proof.LibStores

set_option maxRecDepth 16384

noncomputable section

namespace Cert.KernelIdeal.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Columns

variable {F : FTy → Type} [FloatOps F]

local notation "𝕄" => MT nD τ sig Unit (Elt F) ℕ (UR sig nD τ) ℕ

/-- The zero offsets of a rank-two load through a whole block, as the body spells them. -/
theorem zeros2 : (![0, 0] : Fin 2 → Nat) = fun _ => 0 := by
  funext a; fin_cases a <;> rfl

/-- Two of the scratch's columns share no cell. -/
theorem rect0_disj_rect1 : Disjoint (rect0).set (rect1).set := Rect.unit_disjoint (1 : Fin 2) (Or.inl (by decide))
theorem rect0_disj_rect2 : Disjoint (rect0).set (rect2).set := Rect.unit_disjoint (1 : Fin 2) (Or.inl (by decide))
theorem rect1_disj_rect2 : Disjoint (rect1).set (rect2).set := Rect.unit_disjoint (1 : Fin 2) (Or.inl (by decide))

set_option maxHeartbeats 4000000 in
/-- The body's run at such a point: from every buffer whole at its contents — the scratch at `fs` —, to the same
    buffers, the scratch at contents whose columns 0, 1, 2 are the update of `fs`'s. -/
theorem runMiddle (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S4x1 .f32) (harg9 : arg9.IsWhole)
    (arg10 : Memref sig .tc .vmem S1024x1 .f32) (harg10 : arg10.IsWhole) (arg11 : Memref sig .tc .vmem S1024x4 .f32) (harg11 : arg11.IsWhole)
    (hc0 : ¬firstCond i) (hc1 : ¬k0_cond2 i = 1#1)
    (x : Vec F S1024x2048 .bf16) (w : Vec F S1280x2048 .bf16) (b : Vec F S1x1280 .f32) (ids : Vec F S1024x1 .i32)
    (old : Vec F S1024x1 .f32) (rf : Vec F S1024x1 .f32) (mk : Vec F S1024x1 .f32) (adv : Vec F S4x1 .f32)
    (xo : Vec F S1024x1 .f32) (fs : Vec F S1024x4 .f32) (E : Set ℕ) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare ids ∗ owns (c : Thread nD τ) arg6 fullShare old ∗ owns (c : Thread nD τ) arg7 fullShare rf
        ∗ owns (c : Thread nD τ) arg8 fullShare mk ∗ owns (c : Thread nD τ) arg9 fullShare adv ∗ owns (c : Thread nD τ) arg10 fullShare xo
        ∗ owns (c : Thread nD τ) arg11 fullShare fs
        ∗ (iprop(owns (c : Thread nD τ) arg2 fullShare x ∗ owns (c : Thread nD τ) arg3 fullShare w ∗ owns (c : Thread nD τ) arg4 fullShare b
            ∗ owns (c : Thread nD τ) arg5 fullShare ids ∗ owns (c : Thread nD τ) arg6 fullShare old ∗ owns (c : Thread nD τ) arg7 fullShare rf
            ∗ owns (c : Thread nD τ) arg8 fullShare mk ∗ owns (c : Thread nD τ) arg9 fullShare adv ∗ owns (c : Thread nD τ) arg10 fullShare xo
            ∗ (∃ fs' : Vec F S1024x4 .f32, owns (c : Thread nD τ) arg11 fullShare fs'
                ∗ ⌜col0 fs' = new0 x w b (col0 fs) ∧ col1 fs' = new1 x w b (col0 fs) (col1 fs) ∧ col2 fs' = new2 i x w b ids (col2 fs)⌝)) -∗ K ⟨⟩))
      ⊢ wp frame (wpE (defs₀ (F := F)) Variants.none c none) E
          (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]; · iexists _; isplitr; · ipureintro; exact harg10.read_unread _
                   iexact H10
  iexists _
  isplitl [H11]
  · iexists _; isplitr
    swap; · iexact H11
    ipureintro; rfl
  ipureintro
  refine ⟨(View.ld_writes_three_0 arg11.view (harg11.unread fs) rect0 rect1 rect2 _ _ _).trans ?_,
    (View.ld_writes_three_1 arg11.view (harg11.unread fs) rect0 rect1 rect2 _ _ _ rect0_disj_rect1).trans ?_,
    (View.ld_writes_three_2 arg11.view (harg11.unread fs) rect0 rect1 rect2 _ _ _ rect0_disj_rect2 rect1_disj_rect2).trans ?_⟩
  all_goals sl_unfold_words
  all_goals simp only [View.readAt_eq_ld, harg2.read_unread, harg3.read_unread, harg4.read_unread, harg5.read_unread, harg11.read_unread,
    View.ld_unit_zero (S := S1024x2048) zeros2, View.ld_unit_zero (S := S1280x2048) zeros2, View.ld_unit_zero (S := S1x1280) zeros2,
    View.ld_unit_zero (S := S1024x1) zeros2]

end Cert.KernelIdeal.Runs

end
-- ==== Proof.RunFirst.lean ====
/-
  The body at a row tile's FIRST vocabulary tile: the reset of the three columns, then the update; no epilogue.
-/
import proofs.«404778_j58669253264202_3_alg».proof.Proof.Columns
import Idealize.ShloMosaic.Lib.Pipeline.Value
import proofs.«404778_j58669253264202_3_alg».proof.Proof.RunMiddle

set_option maxRecDepth 16384

noncomputable section

namespace Cert.KernelIdeal.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Columns

variable {F : FTy → Type} [FloatOps F]

local notation "𝕄" => MT nD τ sig Unit (Elt F) ℕ (UR sig nD τ) ℕ

/-- A load through the rectangle of the latest store reads that store's payload, whatever came before it. -/
theorem ld_after0 {sg : RefSig} {κ : Kind} {sp : Space} {s : Shape} {e : EltTy} {Val : EltTy → Type} [∀ e, Nonempty (Val e)]
    (v : View sg κ sp s e) (f : v.ty.Contents Val) (r : Rect s) (w : r.shape.Idx → Val e) (post : List (View.Piece Val s e)) :
    View.ld (v.read Val (v.writes Val f (⟨r, w⟩ :: post))) r = w :=
  View.ld_writes_of_later_disjoint v f r w post [] (fun _ h => absurd h List.not_mem_nil)

/-- … of the store before the latest, when the latest went through a rectangle disjoint from it. -/
theorem ld_after1 {sg : RefSig} {κ : Kind} {sp : Space} {s : Shape} {e : EltTy} {Val : EltTy → Type} [∀ e, Nonempty (Val e)]
    (v : View sg κ sp s e) (f : v.ty.Contents Val) (r0 r : Rect s) (w0 : r0.shape.Idx → Val e) (w : r.shape.Idx → Val e)
    (post : List (View.Piece Val s e)) (h0 : Disjoint r0.set r.set) :
    View.ld (v.read Val (v.writes Val f (⟨r0, w0⟩ :: ⟨r, w⟩ :: post))) r = w :=
  View.ld_writes_of_later_disjoint v f r w post [⟨r0, w0⟩] (by
    intro p hp
    rcases List.mem_cons.mp hp with rfl | hp
    · exact h0
    exact absurd hp List.not_mem_nil)

/-- … of the third store from the end, when the two after it went through rectangles disjoint from it. -/
theorem ld_after2 {sg : RefSig} {κ : Kind} {sp : Space} {s : Shape} {e : EltTy} {Val : EltTy → Type} [∀ e, Nonempty (Val e)]
    (v : View sg κ sp s e) (f : v.ty.Contents Val) (r0 r1 r : Rect s) (w0 : r0.shape.Idx → Val e) (w1 : r1.shape.Idx → Val e)
    (w : r.shape.Idx → Val e) (post : List (View.Piece Val s e)) (h0 : Disjoint r0.set r.set) (h1 : Disjoint r1.set r.set) :
    View.ld (v.read Val (v.writes Val f (⟨r0, w0⟩ :: ⟨r1, w1⟩ :: ⟨r, w⟩ :: post))) r = w :=
  View.ld_writes_of_later_disjoint v f r w post [⟨r0, w0⟩, ⟨r1, w1⟩] (by
    intro p hp
    rcases List.mem_cons.mp hp with rfl | hp
    · exact h0
    rcases List.mem_cons.mp hp with rfl | hp
    · exact h1
    exact absurd hp List.not_mem_nil)

/-- … of the fourth store from the end, when the three after it went through rectangles disjoint from it. -/
theorem ld_after3 {sg : RefSig} {κ : Kind} {sp : Space} {s : Shape} {e : EltTy} {Val : EltTy → Type} [∀ e, Nonempty (Val e)]
    (v : View sg κ sp s e) (f : v.ty.Contents Val) (r0 r1 r2 r : Rect s) (w0 : r0.shape.Idx → Val e) (w1 : r1.shape.Idx → Val e)
    (w2 : r2.shape.Idx → Val e) (w : r.shape.Idx → Val e) (post : List (View.Piece Val s e))
    (h0 : Disjoint r0.set r.set) (h1 : Disjoint r1.set r.set) (h2 : Disjoint r2.set r.set) :
    View.ld (v.read Val (v.writes Val f (⟨r0, w0⟩ :: ⟨r1, w1⟩ :: ⟨r2, w2⟩ :: ⟨r, w⟩ :: post))) r = w :=
  View.ld_writes_of_later_disjoint v f r w post [⟨r0, w0⟩, ⟨r1, w1⟩, ⟨r2, w2⟩] (by
    intro p hp
    rcases List.mem_cons.mp hp with rfl | hp
    · exact h0
    rcases List.mem_cons.mp hp with rfl | hp
    · exact h1
    rcases List.mem_cons.mp hp with rfl | hp
    · exact h2
    exact absurd hp List.not_mem_nil)

/-- A covered load through a store's rectangle reads that store's payload, when the two stores after it went through
    rectangles disjoint from it. -/
theorem cov_after2 {sg : RefSig} {κ : Kind} {sp : Space} {s : Shape} {e : EltTy} {Val : EltTy → Type} [∀ e, Nonempty (Val e)]
    (v : View sg κ sp s e) (r0 r1 r : Rect s) (w0 : r0.shape.Idx → Val e) (w1 : r1.shape.Idx → Val e)
    (w : r.shape.Idx → Val e) (post : List (View.Piece Val s e)) (h0 : Disjoint r0.set r.set) (h1 : Disjoint r1.set r.set) :
    v.readCov (⟨r0, w0⟩ :: ⟨r1, w1⟩ :: ⟨r, w⟩ :: post) r.toLoadRect = w :=
  ld_after2 v v.junk r0 r1 r w0 w1 w post h0 h1

/-- … when the three stores after it went through rectangles disjoint from it. -/
theorem cov_after3 {sg : RefSig} {κ : Kind} {sp : Space} {s : Shape} {e : EltTy} {Val : EltTy → Type} [∀ e, Nonempty (Val e)]
    (v : View sg κ sp s e) (r0 r1 r2 r : Rect s) (w0 : r0.shape.Idx → Val e) (w1 : r1.shape.Idx → Val e)
    (w2 : r2.shape.Idx → Val e) (w : r.shape.Idx → Val e) (post : List (View.Piece Val s e))
    (h0 : Disjoint r0.set r.set) (h1 : Disjoint r1.set r.set) (h2 : Disjoint r2.set r.set) :
    v.readCov (⟨r0, w0⟩ :: ⟨r1, w1⟩ :: ⟨r2, w2⟩ :: ⟨r, w⟩ :: post) r.toLoadRect = w :=
  ld_after3 v v.junk r0 r1 r2 r w0 w1 w2 w post h0 h1 h2

set_option maxHeartbeats 4000000 in
/-- The body's run at a row tile's first vocabulary tile: the three columns are first reset to `-inf, 0, 0`, then updated;
    what the scratch held before does not matter. -/
theorem runFirst (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S4x1 .f32) (harg9 : arg9.IsWhole)
    (arg10 : Memref sig .tc .vmem S1024x1 .f32) (harg10 : arg10.IsWhole) (arg11 : Memref sig .tc .vmem S1024x4 .f32) (harg11 : arg11.IsWhole)
    (hc0 : firstCond i) (hc1 : ¬k0_cond2 i = 1#1)
    (x : Vec F S1024x2048 .bf16) (w : Vec F S1280x2048 .bf16) (b : Vec F S1x1280 .f32) (ids : Vec F S1024x1 .i32)
    (old : Vec F S1024x1 .f32) (rf : Vec F S1024x1 .f32) (mk : Vec F S1024x1 .f32) (adv : Vec F S4x1 .f32)
    (xo : Vec F S1024x1 .f32) (fs : Vec F S1024x4 .f32) (E : Set ℕ) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare ids ∗ owns (c : Thread nD τ) arg6 fullShare old ∗ owns (c : Thread nD τ) arg7 fullShare rf
        ∗ owns (c : Thread nD τ) arg8 fullShare mk ∗ owns (c : Thread nD τ) arg9 fullShare adv ∗ owns (c : Thread nD τ) arg10 fullShare xo
        ∗ owns (c : Thread nD τ) arg11 fullShare fs
        ∗ (iprop(owns (c : Thread nD τ) arg2 fullShare x ∗ owns (c : Thread nD τ) arg3 fullShare w ∗ owns (c : Thread nD τ) arg4 fullShare b
            ∗ owns (c : Thread nD τ) arg5 fullShare ids ∗ owns (c : Thread nD τ) arg6 fullShare old ∗ owns (c : Thread nD τ) arg7 fullShare rf
            ∗ owns (c : Thread nD τ) arg8 fullShare mk ∗ owns (c : Thread nD τ) arg9 fullShare adv ∗ owns (c : Thread nD τ) arg10 fullShare xo
            ∗ (∃ fs' : Vec F S1024x4 .f32, owns (c : Thread nD τ) arg11 fullShare fs'
                ∗ ⌜col0 fs' = new0 x w b (k0_pay9 (F := F)) ∧ col1 fs' = new1 x w b (k0_pay9 (F := F)) (k0_pay10 (F := F)) ∧ col2 fs' = new2 i x w b ids (k0_pay11 (F := F))⌝)) -∗ K ⟨⟩))
      ⊢ wp frame (wpE (defs₀ (F := F)) Variants.none c none) E
          (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]; · iexists _; isplitr; · ipureintro; exact harg10.read_unread _
                   iexact H10
  iexists _
  isplitl [H11]
  · iexists _; isplitr
    swap; · iexact H11
    ipureintro; rfl
  ipureintro
  sl_unfold_words
  refine ⟨(ld_after0 arg11.view (harg11.unread fs) rect0 _ _).trans ?_,
    (ld_after1 arg11.view (harg11.unread fs) rect0 rect1 _ _ _ rect0_disj_rect1).trans ?_,
    (ld_after2 arg11.view (harg11.unread fs) rect0 rect1 rect2 _ _ _ _ rect0_disj_rect2 rect1_disj_rect2).trans ?_⟩
  all_goals simp only [View.readAt_eq_ld, harg2.read_unread, harg3.read_unread, harg4.read_unread, harg5.read_unread,
    View.ld_unit_zero (S := S1024x2048) zeros2, View.ld_unit_zero (S := S1280x2048) zeros2, View.ld_unit_zero (S := S1x1280) zeros2,
    View.ld_unit_zero (S := S1024x1) zeros2, View.readCov_cons_toLoadRect,
    cov_after2 arg11.view rect2 rect2 rect1 _ _ _ _ rect1_disj_rect2.symm rect1_disj_rect2.symm,
    cov_after3 arg11.view rect2 rect2 rect1 rect0 _ _ _ _ _ rect0_disj_rect2.symm rect0_disj_rect2.symm rect0_disj_rect1.symm]

end Cert.KernelIdeal.Runs

end
-- ==== Proof.RunLast.lean ====
/-
  The body at a row tile's LAST vocabulary tile: the update of the three columns, then the epilogue that stores the output block.
-/
import proofs.«404778_j58669253264202_3_alg».proof.Proof.Columns
import Idealize.ShloMosaic.Lib.Pipeline.Value
import proofs.«404778_j58669253264202_3_alg».proof.Proof.RunMiddle

set_option maxRecDepth 16384

noncomputable section

namespace Cert.KernelIdeal.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Columns

variable {F : FTy → Type} [FloatOps F]

local notation "𝕄" => MT nD τ sig Unit (Elt F) ℕ (UR sig nD τ) ℕ

/-- A covered load through a store's rectangle reads that store's payload, when the store after it went through a
    rectangle disjoint from it. -/
theorem covL_after1 {sg : RefSig} {κ : Kind} {sp : Space} {s : Shape} {e : EltTy} {Val : EltTy → Type} [∀ e, Nonempty (Val e)]
    (v : View sg κ sp s e) (r0 r : Rect s) (w0 : r0.shape.Idx → Val e) (w : r.shape.Idx → Val e)
    (post : List (View.Piece Val s e)) (h0 : Disjoint r0.set r.set) :
    v.readCov (⟨r0, w0⟩ :: ⟨r, w⟩ :: post) r.toLoadRect = w :=
  View.ld_writes_of_later_disjoint v v.junk r w post [⟨r0, w0⟩] (by
    intro p hp
    rcases List.mem_cons.mp hp with rfl | hp
    · exact h0
    exact absurd hp List.not_mem_nil)

/-- … when the two stores after it went through rectangles disjoint from it. -/
theorem covL_after2 {sg : RefSig} {κ : Kind} {sp : Space} {s : Shape} {e : EltTy} {Val : EltTy → Type} [∀ e, Nonempty (Val e)]
    (v : View sg κ sp s e) (r0 r1 r : Rect s) (w0 : r0.shape.Idx → Val e) (w1 : r1.shape.Idx → Val e)
    (w : r.shape.Idx → Val e) (post : List (View.Piece Val s e)) (h0 : Disjoint r0.set r.set) (h1 : Disjoint r1.set r.set) :
    v.readCov (⟨r0, w0⟩ :: ⟨r1, w1⟩ :: ⟨r, w⟩ :: post) r.toLoadRect = w :=
  View.ld_writes_of_later_disjoint v v.junk r w post [⟨r0, w0⟩, ⟨r1, w1⟩] (by
    intro p hp
    rcases List.mem_cons.mp hp with rfl | hp
    · exact h0
    rcases List.mem_cons.mp hp with rfl | hp
    · exact h1
    exact absurd hp List.not_mem_nil)

/-- A buffer after ONE store through its whole block (at zero offsets, however the zeros are spelt) reads as that
    store's payload, whatever it held before. -/
theorem read_whole_store {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

set_option maxHeartbeats 4000000 in
/-- The body's run at a row tile's last vocabulary tile: the update as elsewhere, then the epilogue, which reads the three
    columns back and stores the loss block into the output buffer, whatever that held. -/
theorem runLast (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S4x1 .f32) (harg9 : arg9.IsWhole)
    (arg10 : Memref sig .tc .vmem S1024x1 .f32) (harg10 : arg10.IsWhole) (arg11 : Memref sig .tc .vmem S1024x4 .f32) (harg11 : arg11.IsWhole)
    (hc0 : ¬firstCond i) (hc1 : k0_cond2 i = 1#1)
    (x : Vec F S1024x2048 .bf16) (w : Vec F S1280x2048 .bf16) (b : Vec F S1x1280 .f32) (ids : Vec F S1024x1 .i32)
    (old : Vec F S1024x1 .f32) (rf : Vec F S1024x1 .f32) (mk : Vec F S1024x1 .f32) (adv : Vec F S4x1 .f32)
    (xo : Vec F S1024x1 .f32) (fs : Vec F S1024x4 .f32) (E : Set ℕ) (K : PUnit → sProp 𝕄) :
    iprop(owns (c : Thread nD τ) arg2 fullShare x ∗ owns (c : Thread nD τ) arg3 fullShare w ∗ owns (c : Thread nD τ) arg4 fullShare b
        ∗ owns (c : Thread nD τ) arg5 fullShare ids ∗ owns (c : Thread nD τ) arg6 fullShare old ∗ owns (c : Thread nD τ) arg7 fullShare rf
        ∗ owns (c : Thread nD τ) arg8 fullShare mk ∗ owns (c : Thread nD τ) arg9 fullShare adv ∗ owns (c : Thread nD τ) arg10 fullShare xo
        ∗ owns (c : Thread nD τ) arg11 fullShare fs
        ∗ (iprop(owns (c : Thread nD τ) arg2 fullShare x ∗ owns (c : Thread nD τ) arg3 fullShare w ∗ owns (c : Thread nD τ) arg4 fullShare b
            ∗ owns (c : Thread nD τ) arg5 fullShare ids ∗ owns (c : Thread nD τ) arg6 fullShare old ∗ owns (c : Thread nD τ) arg7 fullShare rf
            ∗ owns (c : Thread nD τ) arg8 fullShare mk ∗ owns (c : Thread nD τ) arg9 fullShare adv ∗ owns (c : Thread nD τ) arg10 fullShare (lossOf i (new0 x w b (col0 fs)) (new1 x w b (col0 fs) (col1 fs)) (new2 i x w b ids (col2 fs)) old rf mk adv)
            ∗ (∃ fs' : Vec F S1024x4 .f32, owns (c : Thread nD τ) arg11 fullShare fs'
                ∗ ⌜col0 fs' = new0 x w b (col0 fs) ∧ col1 fs' = new1 x w b (col0 fs) (col1 fs) ∧ col2 fs' = new2 i x w b ids (col2 fs)⌝)) -∗ K ⟨⟩))
      ⊢ wp frame (wpE (defs₀ (F := F)) Variants.none c none) E
          (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]
  · iexists _; isplitr
    swap; · iexact H10
    ipureintro
    sl_unfold_words
    refine (read_whole_store arg10.view (harg10.unread xo) zeros2 _ _).trans ?_
    simp only [View.readAt_eq_ld, harg2.read_unread, harg3.read_unread, harg4.read_unread, harg5.read_unread,
      harg6.read_unread, harg7.read_unread, harg8.read_unread, harg9.read_unread, harg11.read_unread,
      View.ld_unit_zero (S := S1024x2048) zeros2, View.ld_unit_zero (S := S1280x2048) zeros2, View.ld_unit_zero (S := S1x1280) zeros2,
      View.ld_unit_zero (S := S1024x1) zeros2, View.ld_unit_zero (S := S4x1) zeros2, View.readCov_cons_toLoadRect,
      covL_after1 arg11.view rect0 rect1 _ _ _ rect0_disj_rect1,
      covL_after2 arg11.view rect0 rect1 rect2 _ _ _ _ rect0_disj_rect2 rect1_disj_rect2]
  iexists _
  isplitl [H11]
  · iexists _; isplitr
    swap; · iexact H11
    ipureintro; rfl
  ipureintro
  sl_unfold_words
  refine ⟨(View.ld_writes_three_0 arg11.view (harg11.unread fs) rect0 rect1 rect2 _ _ _).trans ?_,
    (View.ld_writes_three_1 arg11.view (harg11.unread fs) rect0 rect1 rect2 _ _ _ rect0_disj_rect1).trans ?_,
    (View.ld_writes_three_2 arg11.view (harg11.unread fs) rect0 rect1 rect2 _ _ _ rect0_disj_rect2 rect1_disj_rect2).trans ?_⟩
  all_goals simp only [View.readAt_eq_ld, harg2.read_unread, harg3.read_unread, harg4.read_unread, harg5.read_unread, harg11.read_unread,
    View.ld_unit_zero (S := S1024x2048) zeros2, View.ld_unit_zero (S := S1280x2048) zeros2, View.ld_unit_zero (S := S1x1280) zeros2,
    View.ld_unit_zero (S := S1024x1) zeros2]

end Cert.KernelIdeal.Runs

end
-- ==== Proof.Tracked.lean ====
/-
  The proof data of the one pipeline and the invariant it tracks.

  Before the first grid point the scratch holds anything. After point `n` it holds some contents whose columns 0, 1, 2
  are the running maximum, running sum of exponentials and running selected logit as point `n` leaves them
  (`Carried.colsAt`); column 3, which the body never writes, is whatever it was. Each input window's staging buffer
  holds its block at every point. The output window is idle except at a row tile's last vocabulary tile, where the
  body leaves the loss block in it, and that is also exactly where the pipeline writes it back.
-/
import proofs.«404778_j58669253264202_3_alg».proof.Proof.Carried
import proofs.«404778_j58669253264202_3_alg».proof.Proof.RunMiddle
import proofs.«404778_j58669253264202_3_alg».proof.Proof.RunFirst
import proofs.«404778_j58669253264202_3_alg».proof.Proof.RunLast

set_option maxRecDepth 16384

noncomputable section

namespace Cert.KernelIdeal.Tracked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Columns Cert.KernelIdeal.Carried Cert.KernelIdeal.Runs

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, at their literal types -/

abbrev ms0 (t : Fin cfg0.N) : Memref sig .tc .vmem S1024x2048 .bf16 := win0_0.stage (cfg0.slots t 0)
theorem hs0 (t : Fin cfg0.N) : (ms0 t).IsWhole := hstage0_0 ((cfg0.slots t 0).cast nbuf0_0)
abbrev ms1 (t : Fin cfg0.N) : Memref sig .tc .vmem S1280x2048 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S1x1280 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
theorem hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S4x1 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S1024x1 .f32 := win0_8.stage (cfg0.slots t 8)
theorem hs8 (t : Fin cfg0.N) : (ms8 t).IsWhole := hstage0_8 ((cfg0.slots t 8).cast nbuf0_8)

/-- The scratch, whole. -/
abbrev scM : Memref sig .tc .vmem S1024x4 .f32 := Memref.whole cc0_scratch0

/-! ## The invariant -/

/-- Contents `X` of the scratch have the three columns `s`. -/
def HasCols (X : Vec F S1024x4 .f32) (s : Cols F) : Prop := col0 X = s.1 ∧ col1 X = s.2.1 ∧ col2 X = s.2.2

/-- What the launch hands the region, opened onto the scratch: it holds something; the generator register is at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before position `n`: at the start what the launch hands over; after point `n` the scratch at some contents
    with that point's three columns. -/
def PhiS (c : Dev nD) : (n : ℕ) → n ≤ cfg0.N → sProp 𝕄
  | 0, _ => Pipeline.ΦA spec0 c
  | n + 1, hn => iprop(iprop(∃ X : Vec F S1024x4 .f32, owns (c : Thread nD τ) scM fullShare X ∗ ⌜HasCols X (colsAt m c n hn)⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ X : Vec F S1024x4 .f32, owns (c : Thread nD τ) scM fullShare X ∗ ⌜HasCols X (colsAt m c n hn)⌝) ∗ (∃ r, prngReg c r)) := rfl

theorem PhiS_pos (c : Dev nD) (n : ℕ) (h : n ≤ cfg0.N) (hz : n ≠ 0) :
    PhiS m c n h = iprop(iprop(∃ X : Vec F S1024x4 .f32, owns (c : Thread nD τ) scM fullShare X ∗ ⌜HasCols X (colsAt m c (n - 1) (by omega))⌝) ∗ (∃ r, prngReg c r)) := by
  cases n with
  | zero => exact absurd rfl hz
  | succ n => rfl

/-! ## The proof data -/

/-- The arrays as the region finds them; after the body each input's buffer at its block; the output's at the loss
    block of the point's columns (read only where the body stores it: a row tile's last vocabulary tile); the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => lossBlock m c t (colsAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = lossBlock m c t (colsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## No input window is ever idle -/

theorem live0 : ∀ t : Fin cfg0.N, cfg0.idle 0 (cfg0.grid.coords t) = false := (by decide +kernel : ∀ t : Fin grid0.N, _)
theorem live1 : ∀ t : Fin cfg0.N, cfg0.idle 1 (cfg0.grid.coords t) = false := (by decide +kernel : ∀ t : Fin grid0.N, _)
theorem live2 : ∀ t : Fin cfg0.N, cfg0.idle 2 (cfg0.grid.coords t) = false := (by decide +kernel : ∀ t : Fin grid0.N, _)
theorem live3 : ∀ t : Fin cfg0.N, cfg0.idle 3 (cfg0.grid.coords t) = false := (by decide +kernel : ∀ t : Fin grid0.N, _)
theorem live4 : ∀ t : Fin cfg0.N, cfg0.idle 4 (cfg0.grid.coords t) = false := (by decide +kernel : ∀ t : Fin grid0.N, _)
theorem live5 : ∀ t : Fin cfg0.N, cfg0.idle 5 (cfg0.grid.coords t) = false := (by decide +kernel : ∀ t : Fin grid0.N, _)
theorem live6 : ∀ t : Fin cfg0.N, cfg0.idle 6 (cfg0.grid.coords t) = false := (by decide +kernel : ∀ t : Fin grid0.N, _)
theorem live7 : ∀ t : Fin cfg0.N, cfg0.idle 7 (cfg0.grid.coords t) = false := (by decide +kernel : ∀ t : Fin grid0.N, _)

/-! ## The body obligation, at a generic point -/

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4 (c : Dev nD) (t : Fin cfg0.N) :
    (dats m 0 c).leavesExact 4 t = owns (c : Thread nD τ) (ms4 t) fullShare (iblk m c 4 t) := by
  unfold Dat.leavesExact; rw [live4 t, after4]
theorem leaves5 (c : Dev nD) (t : Fin cfg0.N) :
    (dats m 0 c).leavesExact 5 t = owns (c : Thread nD τ) (ms5 t) fullShare (iblk m c 5 t) := by
  unfold Dat.leavesExact; rw [live5 t, after5]
theorem leaves6 (c : Dev nD) (t : Fin cfg0.N) :
    (dats m 0 c).leavesExact 6 t = owns (c : Thread nD τ) (ms6 t) fullShare (iblk m c 6 t) := by
  unfold Dat.leavesExact; rw [live6 t, after6]
theorem leaves7 (c : Dev nD) (t : Fin cfg0.N) :
    (dats m 0 c).leavesExact 7 t = owns (c : Thread nD τ) (ms7 t) fullShare (iblk m c 7 t) := by
  unfold Dat.leavesExact; rw [live7 t, after7]

/-- What the body is called with at point `t`: the invariant, nothing owed, every window's current buffer at what it
    then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Before any point the invariant yields the scratch at SOME contents: all that a row tile's first vocabulary tile,
    which resets the columns, needs of it. -/
theorem Phi_any (c : Dev nD) (t : Fin cfg0.N) :
    (dats m 0 c).Φ t.castSucc ⊢ iprop(iprop(∃ X : Vec F S1024x4 .f32, owns (c : Thread nD τ) scM fullShare X) ∗ (∃ r, prngReg c r)) := by
  rw [PhiS_castSucc m c t]
  by_cases hz : t.val = 0
  · rw [PhiS_zero m c _ _ hz, PhiA_eq]
    all_goals (try exact Idealize.SL.BI.Entails.refl _)
  · rw [PhiS_pos m c _ _ hz]
    iintro ⟨⟨%X, HS, %hX⟩, Hg⟩
    isplitl [HS]; · iexists X; iexact HS
    iexact Hg

set_option maxHeartbeats 4000000 in
/-- The body at any point. Which case the point is in is decided by its vocabulary-tile coordinate; the inputs'
    buffers hold their blocks; the scratch's three columns are what the point before left (or anything, where the
    columns are reset); the case's run applies, and what it leaves is this point's columns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7]
  by_cases h0 : t.val % 25 = 0
  · -- a row tile's first vocabulary tile
    have hl : ¬t.val % 25 = 24 := by omega
    have hc0 : firstCond (grid0.coords t) := (first_iff t).mpr h0
    have hc1 : ¬k0_cond2 (grid0.coords t) = 1#1 := fun h => hl ((last_iff t).mp h)
    rw [Dat.leavesExact_idle (dats m 0 c) 8 t (idle_out t hl) (noFlush_out t hl), colsAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := Phi_any m c t $$ HΦ
    icases HΦ' with ⟨⟨%X, HS⟩, Hg⟩
    iapply (runFirst c (grid0.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) scM (Memref.isWhole_whole _) hc0 hc1
      (xblk m c t) (wblk m c t) (bblk m c t) (idblk m c t) (oldblk m c t) (refblk m c t) (maskblk m c t) (advblk m c t)
      ((dats m 0 c).before 8 t d8) X Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, ⟨%X', HS', %hX'⟩⟩
    isplitl [HS' Hg]
    · isplitl [HS']
      · iexists X'; isplitl [HS']; · iexact HS'
        ipureintro; exact hX'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun h => h0 (by rw [h])
    rw [PhiS_castSucc m c t, PhiS_pos m c _ _ hz, colsAt_later m c t h0]
    by_cases hl : t.val % 25 = 24
    · -- a row tile's last vocabulary tile
      have hc0 : ¬firstCond (grid0.coords t) := fun h => h0 ((first_iff t).mp h)
      have hc1 : k0_cond2 (grid0.coords t) = 1#1 := (last_iff t).mpr hl
      rw [show (dats m 0 c).leavesExact 8 t = owns (c : Thread nD τ) (ms8 t) fullShare ((dats m 0 c).after 8 t) from by
        unfold Dat.leavesExact; rw [live_out t hl], after8, colsAt_later m c t h0]
      iintro ⟨⟨⟨%X, HS, %hX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨hX0, hX1, hX2⟩ := hX
      iapply (runLast c (grid0.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) scM (Memref.isWhole_whole _) hc0 hc1
      (xblk m c t) (wblk m c t) (bblk m c t) (idblk m c t) (oldblk m c t) (refblk m c t) (maskblk m c t) (advblk m c t)
      ((dats m 0 c).before 8 t d8) X Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%X', HS', %hX'⟩⟩
      isplitl [HS' Hg]
      · isplitl [HS']
        · iexists X'; isplitl [HS']; · iexact HS'
          ipureintro; unfold HasCols update; rw [← hX0, ← hX1, ← hX2]; exact hX'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold lossBlock update; rw [← hX0, ← hX1, ← hX2]; iexact H8
    · -- neither
      have hc0 : ¬firstCond (grid0.coords t) := fun h => h0 ((first_iff t).mp h)
      have hc1 : ¬k0_cond2 (grid0.coords t) = 1#1 := fun h => hl ((last_iff t).mp h)
      rw [Dat.leavesExact_idle (dats m 0 c) 8 t (idle_out t hl) (noFlush_out t hl)]
      iintro ⟨⟨⟨%X, HS, %hX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨hX0, hX1, hX2⟩ := hX
      iapply (runMiddle c (grid0.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) scM (Memref.isWhole_whole _) hc0 hc1
      (xblk m c t) (wblk m c t) (bblk m c t) (idblk m c t) (oldblk m c t) (refblk m c t) (maskblk m c t) (advblk m c t)
      ((dats m 0 c).before 8 t d8) X Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%X', HS', %hX'⟩⟩
      isplitl [HS' Hg]
      · isplitl [HS']
        · iexists X'; isplitl [HS']; · iexact HS'
          ipureintro; unfold HasCols update; rw [← hX0, ← hX1, ← hX2]; exact hX'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  all_goals (try exact Idealize.SL.BI.Entails.refl _)

/-- After any point the invariant gives the launch's back: which columns the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%X, HS, %hX⟩, Hg⟩
  isplitl [HS]; · iexists X; iexact HS
  iexact Hg

theorem hout (c : Dev nD) : (dats m 0 c).Φ (Fin.last cfg0.N) ⊢ Pipeline.ΦA spec0 c :=
  Phi_out m c _ (by rw [Fin.val_last]; have : cfg0.N = 100 := N_0; omega)

/-! ## The run and the frame -/

set_option backward.isDefEq.respectTransparency.types false in
/-- From any memory with zero counters, every weakly fair execution of @main terminates, and every final state has
    each array of the pipeline at what the proof data says and every other unscoped buffer as the host operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its eight argument arrays unchanged: at any number instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Tracked

end
-- ==== Proof.Loss.lean ====
/-
  The loss as ONE function of the argument arrays, over the extended reals.

  Per sequence `b` and token `s`: the logits over the vocabulary are `x[b,s,·] · W[v,·] + bias[v]` (divided by the
  temperature, which is 1); their log-softmax is `(logit - M) - log Σ exp (logit - M)` with `M` the row's maximum; the
  token's log-probability is that at the selected id. The sequence's importance weight is the exponential of the
  masked mean of `logp - old` (to which `logp - logp`, zero, is added); it is clipped to `[0.8, 1.2]`; the
  per-token loss is minus the smaller of `weight * advantage` and `clipped * advantage`, plus `0.04` times the
  k3 penalty `exp d - d - 1` at `d = ref - logp`; the sequence's loss is its masked mean; the result is the mean over
  the four sequences. The float constants are kept as the words the programs carry.
-/
import Idealize.ShloMosaic.PureOps.Ideal
import Mathlib.Algebra.BigOperators.Group.Finset.Basic
import Mathlib.Data.Finset.Lattice.Fold

noncomputable section

namespace Cert.Loss

open Idealize.ShloMosaic

/-- The argument arrays as functions of plain indices; the selected id as an index of the vocabulary. -/
structure In where
  x : Fin 4 → Fin 1024 → Fin 2048 → EReal
  w : Fin 32000 → Fin 2048 → EReal
  bias : Fin 32000 → EReal
  tok : Fin 4 → Fin 1024 → Fin 32000
  mask : Fin 4 → Fin 1024 → EReal
  adv : Fin 4 → EReal
  ref : Fin 4 → Fin 1024 → EReal
  old : Fin 4 → Fin 1024 → EReal

variable (I : In)

/-- The words of the constants. -/
abbrev one : EReal := Ideal.ofBits .f32 0x3F800000#32
abbrev c08 : EReal := Ideal.ofBits .f32 0x3F4CCCCD#32
abbrev c12 : EReal := Ideal.ofBits .f32 0x3F99999A#32
abbrev beta : EReal := Ideal.ofBits .f32 0x3D23D70A#32
abbrev four : EReal := Ideal.ofBits .f32 0x40800000#32

/-- The logit of vocabulary entry `v` at token `(b, s)`. -/
def logit (b : Fin 4) (s : Fin 1024) (v : Fin 32000) : EReal :=
  Ideal.div ((∑ h : Fin 2048, I.x b s h * I.w v h) + I.bias v) one

/-- The row's maximum (over `-inf` and every logit). -/
def rowMax (b : Fin 4) (s : Fin 1024) : EReal := Finset.univ.sup fun v => logit I b s v

/-- The logit less the row's maximum. -/
def shifted (b : Fin 4) (s : Fin 1024) (v : Fin 32000) : EReal := logit I b s v - rowMax I b s

/-- The log of the sum of the exponentials of the shifted logits. -/
def logSumExp (b : Fin 4) (s : Fin 1024) : EReal := Ideal.log (∑ v : Fin 32000, Ideal.exp (shifted I b s v))

/-- The token's log-probability: the log-softmax at the selected id. -/
def logp (b : Fin 4) (s : Fin 1024) : EReal := shifted I b s (I.tok b s) - logSumExp I b s

/-- The sequence's length, at least one. -/
def seqLen (b : Fin 4) : EReal := max one (∑ s : Fin 1024, I.mask b s)

/-- The sequence's log importance weight: the masked mean of `logp - old`. -/
def seqWeight (b : Fin 4) : EReal := Ideal.div (∑ s : Fin 1024, (logp I b s - I.old b s) * I.mask b s) (seqLen I b)

/-- The importance weight at a token (the same along the sequence). -/
def coef (b : Fin 4) (s : Fin 1024) : EReal := Ideal.exp ((logp I b s - logp I b s) + seqWeight I b)

/-- The weight clipped to `[0.8, 1.2]`. -/
def coefClipped (b : Fin 4) (s : Fin 1024) : EReal := min c12 (max c08 (coef I b s))

/-- The k3 penalty at a token. -/
def penalty (b : Fin 4) (s : Fin 1024) : EReal :=
  (Ideal.exp (I.ref b s - logp I b s) - (I.ref b s - logp I b s)) - one

/-- The per-token loss. -/
def tokenLoss (b : Fin 4) (s : Fin 1024) : EReal :=
  -(min (coef I b s * I.adv b) (coefClipped I b s * I.adv b)) + beta * penalty I b s

/-- The sequence's loss: the masked mean of its tokens' losses. -/
def seqLoss (b : Fin 4) : EReal := Ideal.div (∑ s : Fin 1024, tokenLoss I b s * I.mask b s) (seqLen I b)

/-- The loss: the mean over the four sequences. -/
def G : EReal := Ideal.div (∑ b : Fin 4, seqLoss I b) four

end Cert.Loss

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.Domain.lean ====
/-
  What the precondition says of the eight argument arrays, read back from its printed form: every entry of the seven
  float arrays is a real number, and every selected token id lies in the vocabulary, `0 ≤ id < 32000`.

  The printed predicate is a chain of conjunctions of nine reductions to a scalar: for each float array, "every
  |entry| is below +inf"; for the ids, "every entry is ≥ 0 (signed)" and "every entry is < 32000 (signed)".
-/
import proofs.«404778_j58669253264202_3_alg».proof.Pre_finite_inputs
import proofs.«404778_j58669253264202_3_alg».proof.Proof.Gen.Pre_finite_inputs
import proofs.«404778_j58669253264202_3_alg».proof.Proof.LibReal
import Idealize.ShloMosaic.Lib.StableHlo.Predicate

noncomputable section

namespace Cert.Domain

open Idealize.ShloMosaic Cert.LibReal Cert.Pre_finite_inputs

/-- The domain the precondition states. -/
structure Good (a0 : FVec Ideal S4x1024x2048 .f32) (a1 : FVec Ideal S32000x2048 .f32) (a2 : FVec Ideal S32000 .f32)
    (a3 : IVec S4x1024 32) (a4 : FVec Ideal S4x1024 .f32) (a5 : FVec Ideal S4 .f32) (a6 a7 : FVec Ideal S4x1024 .f32) : Prop where
  /-- the hidden states are reals -/
  x_real : ∀ i, IsReal (a0 i)
  /-- the weights are reals -/
  w_real : ∀ i, IsReal (a1 i)
  /-- the bias is real -/
  bias_real : ∀ i, IsReal (a2 i)
  /-- the attention mask is real -/
  mask_real : ∀ i, IsReal (a4 i)
  /-- the advantages are reals -/
  adv_real : ∀ i, IsReal (a5 i)
  /-- the reference log-probabilities are reals -/
  ref_real : ∀ i, IsReal (a6 i)
  /-- the old log-probabilities are reals -/
  old_real : ∀ i, IsReal (a7 i)
  /-- every selected token id is non-negative as a signed word -/
  id_nonneg : ∀ i, 0 ≤ (a3 i).toInt
  /-- and below the vocabulary size -/
  id_lt : ∀ i, (a3 i).toInt < 32000

/-- A conjunction of two condition words is 1 at an index exactly when both are. -/
theorem andi_split {s : Shape} (x y : IVec s 1) (i : s.Idx) (h : andi x y i = 1#1) : x i = 1#1 ∧ y i = 1#1 :=
  IntOp.andi_eq_one.1 (show IntOp.andi (x i) (y i) = 1#1 from h)

/-- One conjunct over the ids: an and-reduce to a scalar of the elementwise signed test "x ≥ c" that is 1 puts every
    entry of x at or above c, read signed. -/
theorem sge_of_all {s : Shape} {axes : List (Fin s.rank)} (x : IVec s 32) (c : BitVec 32)
    (hb : (⟨0, ![]⟩ : Shape).BroadcastsInDim s ![]) (hr : s.ReducesTo axes ⟨0, ![]⟩) (hu : 0 < (⟨0, ![]⟩ : Shape).numel)
    (e : Host.reduce IntOp.andi (cmpi .sge x (broadcastInDim s ![] hb (constantI ⟨0, ![]⟩ 32 c)))
      (constantI ⟨0, ![]⟩ 1 1#1) hr hu ValueIdx.ix0 = 1#1) (i : s.Idx) : c.toInt ≤ (x i).toInt := by
  have h1 := Host.reduce_andi_all _ _ hr hu ValueIdx.ix0 e i
  have h2 : IntOp.cmpi .sge (x i) c = 1#1 := h1
  exact IntOp.cmpi_sge.1 h2

/-- The other conjunct over the ids: an and-reduce to a scalar of the elementwise signed test "x < c" that is 1 puts
    every entry of x below c, read signed. -/
theorem slt_of_all {s : Shape} {axes : List (Fin s.rank)} (x : IVec s 32) (c : BitVec 32)
    (hb : (⟨0, ![]⟩ : Shape).BroadcastsInDim s ![]) (hr : s.ReducesTo axes ⟨0, ![]⟩) (hu : 0 < (⟨0, ![]⟩ : Shape).numel)
    (e : Host.reduce IntOp.andi (cmpi .slt x (broadcastInDim s ![] hb (constantI ⟨0, ![]⟩ 32 c)))
      (constantI ⟨0, ![]⟩ 1 1#1) hr hu ValueIdx.ix0 = 1#1) (i : s.Idx) : (x i).toInt < c.toInt := by
  have h1 := Host.reduce_andi_all _ _ hr hu ValueIdx.ix0 e i
  have h2 : IntOp.cmpi .slt (x i) c = 1#1 := h1
  exact IntOp.cmpi_slt.1 h2

/-- The printed precondition, all ones, gives the domain. -/
theorem good_of_pre [Cert.Pre_finite_inputs.Facts] (a0 : FVec Ideal S4x1024x2048 .f32) (a1 : FVec Ideal S32000x2048 .f32) (a2 : FVec Ideal S32000 .f32)
    (a3 : IVec S4x1024 32) (a4 : FVec Ideal S4x1024 .f32) (a5 : FVec Ideal S4 .f32) (a6 a7 : FVec Ideal S4x1024 .f32)
    (h : Cert.Pre_finite_inputs.fn (F := Ideal) a0 a1 a2 a3 a4 a5 a6 a7 = fun _ => 1#1) : Good a0 a1 a2 a3 a4 a5 a6 a7 := by
  have h0 := congrFun h ValueIdx.ix0
  dsimp only [fn, fn_part1, fn_part2] at h0
  -- eight conjunctions, nine leaves: the ids' two tests are outermost, the hidden states' innermost
  obtain ⟨h0, hlt⟩ := andi_split _ _ _ h0
  obtain ⟨h0, hge⟩ := andi_split _ _ _ h0
  obtain ⟨h0, h7⟩ := andi_split _ _ _ h0
  obtain ⟨h0, h6⟩ := andi_split _ _ _ h0
  obtain ⟨h0, h5⟩ := andi_split _ _ _ h0
  obtain ⟨h0, h4⟩ := andi_split _ _ _ h0
  obtain ⟨h0, h2⟩ := andi_split _ _ _ h0
  obtain ⟨h0, h1⟩ := andi_split _ _ _ h0
  have z0 : (0#32 : BitVec 32).toInt = 0 := by decide
  have zV : (32000#32 : BitVec 32).toInt = 32000 := by decide
  refine ⟨isReal_of_all a0 _ _ _ h0, isReal_of_all a1 _ _ _ h1, isReal_of_all a2 _ _ _ h2, isReal_of_all a4 _ _ _ h4,
    isReal_of_all a5 _ _ _ h5, isReal_of_all a6 _ _ _ h6, isReal_of_all a7 _ _ _ h7, fun i => ?_, fun i => ?_⟩
  · have hi := sge_of_all a3 (0#32) _ _ _ hge i
    rwa [z0] at hi
  · have hi := slt_of_all a3 (32000#32) _ _ _ hlt i
    rwa [zV] at hi

end Cert.Domain

end
-- ==== Proof.Inputs.lean ====
/-
  The eight argument arrays as the loss's inputs: each read at plain indices, and each selected token id, which the
  precondition puts in `[0, 32000)`, as an index of the vocabulary. Both programs' results are stated over this one record.
-/
import proofs.«404778_j58669253264202_3_alg».proof.Proof.Loss
import proofs.«404778_j58669253264202_3_alg».proof.Proof.Domain
import Idealize.ShloMosaic.Lib.ValueIdx

noncomputable section

namespace Cert.Inputs

open Idealize.ShloMosaic Idealize.ShloMosaic.ValueIdx Cert.Domain Cert.Pre_finite_inputs

/-- A selected token id, non-negative and below the vocabulary size as a signed word, as an index of the vocabulary. -/
def tokOf (a3 : IVec S4x1024 32) (h0 : ∀ i, 0 ≤ (a3 i).toInt) (h1 : ∀ i, (a3 i).toInt < 32000) (b : Fin 4) (s : Fin 1024) : Fin 32000 :=
  ⟨((a3 (ix2 b s)).toInt).toNat, by have := h0 (ix2 b s); have := h1 (ix2 b s); omega⟩

/-- The loss's inputs, from the argument arrays under the precondition's domain. -/
def inOf (a0 : FVec Ideal S4x1024x2048 .f32) (a1 : FVec Ideal S32000x2048 .f32) (a2 : FVec Ideal S32000 .f32)
    (a3 : IVec S4x1024 32) (a4 : FVec Ideal S4x1024 .f32) (a5 : FVec Ideal S4 .f32) (a6 a7 : FVec Ideal S4x1024 .f32)
    (hg : Good a0 a1 a2 a3 a4 a5 a6 a7) : Cert.Loss.In where
  x b s h := a0 (ix3 b s h)
  w v h := a1 (ix2 v h)
  bias v := a2 (ix1 v)
  tok := tokOf a3 hg.id_nonneg hg.id_lt
  mask b s := a4 (ix2 b s)
  adv b := a5 (ix1 b)
  ref b s := a6 (ix2 b s)
  old b s := a7 (ix2 b s)

end Cert.Inputs

end
-- ==== Proof.KIn.lean ====
/-
  The idealized kernel's argument arrays on a core, and the loss's inputs read off them under the precondition.
-/
import proofs.«404778_j58669253264202_3_alg».proof.Defs
import proofs.«404778_j58669253264202_3_alg».proof.Proof.Gen.KernelIdeal
import proofs.«404778_j58669253264202_3_alg».proof.Proof.Gen.Pre_finite_inputs
import proofs.«404778_j58669253264202_3_alg».proof.Proof.Inputs

noncomputable section

namespace Cert.KernelIdeal.KIn

open Idealize.ShloMosaic Idealize.SL.Sem Cert.KernelIdeal

variable (m : (ℓ : Loc nD τ sig) → Buf (Elt Ideal) ℓ) (c : Dev nD)

/-- The eight argument arrays as launched, on core `c`. -/
abbrev a0 : FVec Ideal Cert.Pre_finite_inputs.S4x1024x2048 .f32 := m ((c.tc : Thread nD τ).loc main_arg0)
abbrev a1 : FVec Ideal Cert.Pre_finite_inputs.S32000x2048 .f32 := m ((c.tc : Thread nD τ).loc main_arg1)
abbrev a2 : FVec Ideal Cert.Pre_finite_inputs.S32000 .f32 := m ((c.tc : Thread nD τ).loc main_arg2)
abbrev a3 : IVec Cert.Pre_finite_inputs.S4x1024 32 := m ((c.tc : Thread nD τ).loc main_arg3)
abbrev a4 : FVec Ideal Cert.Pre_finite_inputs.S4x1024 .f32 := m ((c.tc : Thread nD τ).loc main_arg4)
abbrev a5 : FVec Ideal Cert.Pre_finite_inputs.S4 .f32 := m ((c.tc : Thread nD τ).loc main_arg5)
abbrev a6 : FVec Ideal Cert.Pre_finite_inputs.S4x1024 .f32 := m ((c.tc : Thread nD τ).loc main_arg6)
abbrev a7 : FVec Ideal Cert.Pre_finite_inputs.S4x1024 .f32 := m ((c.tc : Thread nD τ).loc main_arg7)

/-- Under the precondition they lie in its domain. -/
theorem good [Cert.Pre_finite_inputs.Facts] (hpre : Cert.Pre_KernelIdeal m) :
    Cert.Domain.Good (a0 m c) (a1 m c) (a2 m c) (a3 m c) (a4 m c) (a5 m c) (a6 m c) (a7 m c) :=
  Cert.Domain.good_of_pre _ _ _ _ _ _ _ _ (hpre c)

/-- The loss's inputs. -/
def I [Cert.Pre_finite_inputs.Facts] (hpre : Cert.Pre_KernelIdeal m) : Cert.Loss.In :=
  Cert.Inputs.inOf (a0 m c) (a1 m c) (a2 m c) (a3 m c) (a4 m c) (a5 m c) (a6 m c) (a7 m c) (good m c hpre)

end Cert.KernelIdeal.KIn

end
-- ==== Proof.Blocks.lean ====
/-
  The input blocks at a grid point, read as the argument arrays.

  Point `pt b j` is row tile `b` (one sequence), vocabulary tile `j`. The pipeline stages, at that point, rows
  `1024 b … 1024 b + 1023` of the reshaped hidden states, old and reference log-probabilities, mask and ids; rows
  `1280 j … 1280 j + 1279` of the weights and the matching columns of the bias; and all four advantages. The host
  operations before the region only reshape the arrays and change the float format of two of them, which over the
  extended reals is the identity: so each block entry is an entry of an argument array.
-/
import proofs.«404778_j58669253264202_3_alg».proof.Proof.Carried
import proofs.«404778_j58669253264202_3_alg».proof.Proof.Columns
import proofs.«404778_j58669253264202_3_alg».proof.Proof.KIn
import Idealize.ShloMosaic.Lib.ValueIdx
import Idealize.ShloMosaic.Lib.Pipeline.Value
import Idealize.ShloMosaic.PureOps.Ideal.Laws

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen Cert.KernelIdeal.Columns Cert.KernelIdeal.Carried Cert.KernelIdeal.KIn

variable [Cert.Pre_finite_inputs.Facts]
variable (m : (ℓ : Loc nD τ sig) → Buf (Elt Ideal) ℓ) (c : Dev nD)

/-- The grid point of row tile `b`, vocabulary tile `j`. -/
def pt (b : Fin 4) (j : Fin 25) : Fin cfg0.N := ⟨25 * b.val + j.val, by have h : cfg0.N = 100 := N_0; omega⟩

theorem pt_val (b : Fin 4) (j : Fin 25) : (pt b j).val = 25 * b.val + j.val := rfl

/-- The grid's coordinates at every point: row tile `t / 25`, vocabulary tile `t % 25`. -/
theorem coords_all : ∀ t : Fin cfg0.N, ((grid0.coords t) 0).val = t.val / 25 ∧ ((grid0.coords t) 1).val = t.val % 25 :=
  (by decide +kernel : ∀ t : Fin grid0.N, _)

/-- Its coordinates. -/
theorem coords_pt (b : Fin 4) (j : Fin 25) :
    ((grid0.coords (pt b j)) 0).val = b.val ∧ ((grid0.coords (pt b j)) 1).val = j.val := by
  obtain ⟨h0, h1⟩ := coords_all (pt b j)
  rw [pt_val] at h0 h1
  have hj := j.isLt
  constructor <;> omega

/-- A column of vocabulary tile `j` as a column of the vocabulary. -/
def vcol (j : Fin 25) (u : Fin 1280) : Fin 32000 := ⟨1280 * j.val + u.val, by omega⟩

/-! ## The windows' index maps, decided over the grid -/

theorem idx_x : ∀ t : Fin cfg0.N, win0_0.index t (0 : Fin 2) = t.val / 25 ∧ win0_0.index t (1 : Fin 2) = 0 :=
  (by decide +kernel : ∀ t : Fin grid0.N, _)
theorem idx_w : ∀ t : Fin cfg0.N, win0_1.index t (0 : Fin 2) = t.val % 25 ∧ win0_1.index t (1 : Fin 2) = 0 :=
  (by decide +kernel : ∀ t : Fin grid0.N, _)
theorem idx_b : ∀ t : Fin cfg0.N, win0_2.index t (0 : Fin 2) = 0 ∧ win0_2.index t (1 : Fin 2) = t.val % 25 :=
  (by decide +kernel : ∀ t : Fin grid0.N, _)
theorem idx_id : ∀ t : Fin cfg0.N, win0_3.index t (0 : Fin 2) = t.val / 25 ∧ win0_3.index t (1 : Fin 2) = 0 :=
  (by decide +kernel : ∀ t : Fin grid0.N, _)
theorem idx_old : ∀ t : Fin cfg0.N, win0_4.index t (0 : Fin 2) = t.val / 25 ∧ win0_4.index t (1 : Fin 2) = 0 :=
  (by decide +kernel : ∀ t : Fin grid0.N, _)
theorem idx_ref : ∀ t : Fin cfg0.N, win0_5.index t (0 : Fin 2) = t.val / 25 ∧ win0_5.index t (1 : Fin 2) = 0 :=
  (by decide +kernel : ∀ t : Fin grid0.N, _)
theorem idx_mask : ∀ t : Fin cfg0.N, win0_6.index t (0 : Fin 2) = t.val / 25 ∧ win0_6.index t (1 : Fin 2) = 0 :=
  (by decide +kernel : ∀ t : Fin grid0.N, _)
theorem idx_adv : ∀ t : Fin cfg0.N, win0_7.index t (0 : Fin 2) = 0 ∧ win0_7.index t (1 : Fin 2) = 0 :=
  (by decide +kernel : ∀ t : Fin grid0.N, _)

/-! ## The windows' arrays as the region finds them: the host operations' terms over the argument arrays -/

theorem arr_id : (V m c main_v4 : S4096x1.Idx → Elt Ideal .i32) = fun i => shapeCast S4096x1 (a3 m c) shapeCasts_S4x1024_S4096x1 i := by
  show StableHlo.after hostOps0 (fun b => m (c, b)) (Proc.devRef .tc main_v4) = _
  after_results
  rfl

theorem arr_adv : (V m c main_v8 : S4x1.Idx → Elt Ideal .f32) = fun i => shapeCast S4x1 (a5 m c) shapeCasts_S4_S4x1 i := by
  show StableHlo.after hostOps0 (fun b => m (c, b)) (Proc.devRef .tc main_v8) = _
  after_results
  rfl

theorem arr_old : (V m c main_v5 : S4096x1.Idx → Elt Ideal .f32) = fun i => shapeCast S4096x1 (a7 m c) shapeCasts_S4x1024_S4096x1 i := by
  show StableHlo.after hostOps0 (fun b => m (c, b)) (Proc.devRef .tc main_v5) = _
  after_results
  rfl

theorem arr_ref : (V m c main_v6 : S4096x1.Idx → Elt Ideal .f32) = fun i => shapeCast S4096x1 (a6 m c) shapeCasts_S4x1024_S4096x1 i := by
  show StableHlo.after hostOps0 (fun b => m (c, b)) (Proc.devRef .tc main_v6) = _
  after_results
  rfl

theorem arr_mask : (V m c main_v7 : S4096x1.Idx → Elt Ideal .f32) = fun i => shapeCast S4096x1 (a4 m c) shapeCasts_S4x1024_S4096x1 i := by
  show StableHlo.after hostOps0 (fun b => m (c, b)) (Proc.devRef .tc main_v7) = _
  after_results
  rfl

theorem arr_b : (V m c main_v3 : S1x32000.Idx → Elt Ideal .f32) = fun i => shapeCast S1x32000 (a2 m c) shapeCasts_S32000_S1x32000 i := by
  show StableHlo.after hostOps0 (fun b => m (c, b)) (Proc.devRef .tc main_v3) = _
  after_results
  rfl

/-- The hidden states are reshaped, then narrowed to bf16, which over the ideal numbers changes nothing. -/
theorem arr_x (i : S4096x2048.Idx) :
    (V m c main_v1 : S4096x2048.Idx → Elt Ideal .bf16) i = shapeCast S4096x2048 (a0 m c) shapeCasts_S4x1024x2048_S4096x2048 i := by
  have e : (V m c main_v1 : S4096x2048.Idx → Elt Ideal .bf16)
      = truncf .bf16 (fun i => shapeCast S4096x2048 (a0 m c) shapeCasts_S4x1024x2048_S4096x2048 i) bitsLt_bf16_f32 := by
    show StableHlo.after hostOps0 (fun b => m (c, b)) (Proc.devRef .tc main_v1) = _
    after_results
    rfl
  rw [e]; rfl

/-- The weights are only narrowed to bf16. -/
theorem arr_w (i : S32000x2048.Idx) : (V m c main_v2 : S32000x2048.Idx → Elt Ideal .bf16) i = a1 m c i := by
  have e : (V m c main_v2 : S32000x2048.Idx → Elt Ideal .bf16) = truncf .bf16 (a1 m c) bitsLt_bf16_f32 := by
    show StableHlo.after hostOps0 (fun b => m (c, b)) (Proc.devRef .tc main_v2) = _
    after_results
  rw [e]; rfl

theorem xblk_apply (b : Fin 4) (j : Fin 25) (r : Fin 1024) (h : Fin 2048) :
    xblk m c (pt b j) (ix2 r h) = a0 m c (ix3 b r h) := by
  obtain ⟨e0, e1⟩ := idx_x (pt b j)
  rw [pt_val] at e0
  have hj := j.isLt
  show V m c main_v1 (((cfg0.win 0).blk (pt b j)).view.emb (ix2 r h)) = _
  refine (arr_x m c _).trans ?_
  refine shapeCast_apply (a0 m c) shapeCasts_S4x1024x2048_S4096x2048 _ (ix3 b r h) ?_
  rw [Shape.rowMajor_val_three, Shape.rowMajor_val_two]
  show (b.val * 1024 + r.val) * 2048 + h.val
    = (win0_0.index (pt b j) (0 : Fin 2) * 1024 + 1 * r.val) * 2048 + (win0_0.index (pt b j) (1 : Fin 2) * 2048 + 1 * h.val)
  omega

theorem wblk_apply (b : Fin 4) (j : Fin 25) (u : Fin 1280) (h : Fin 2048) :
    wblk m c (pt b j) (ix2 u h) = a1 m c (ix2 (vcol j u) h) := by
  obtain ⟨e0, e1⟩ := idx_w (pt b j)
  rw [pt_val] at e0
  have hj := j.isLt
  show V m c main_v2 (((cfg0.win 1).blk (pt b j)).view.emb (ix2 u h)) = _
  refine (arr_w m c _).trans ?_
  refine congrArg (a1 m c) ?_
  funext a; apply Fin.ext
  match a with
  | ⟨0, _⟩ => show win0_1.index (pt b j) (0 : Fin 2) * 1280 + 1 * u.val = 1280 * j.val + u.val; omega
  | ⟨1, _⟩ => show win0_1.index (pt b j) (1 : Fin 2) * 2048 + 1 * h.val = h.val; omega

theorem bblk_apply (b : Fin 4) (j : Fin 25) (u : Fin 1280) :
    bblk m c (pt b j) (ix2 (0 : Fin 1) u) = a2 m c (ix1 (vcol j u)) := by
  obtain ⟨e0, e1⟩ := idx_b (pt b j)
  rw [pt_val] at e1
  have hj := j.isLt
  show V m c main_v3 (((cfg0.win 2).blk (pt b j)).view.emb (ix2 (0 : Fin 1) u)) = _
  rw [arr_b m c]
  refine shapeCast_apply (a2 m c) shapeCasts_S32000_S1x32000 _ (ix1 (vcol j u)) ?_
  rw [Shape.rowMajor_val_one, Shape.rowMajor_val_two]
  show 1280 * j.val + u.val
    = (win0_2.index (pt b j) (0 : Fin 2) * 1 + 1 * 0) * 32000 + (win0_2.index (pt b j) (1 : Fin 2) * 1280 + 1 * u.val)
  omega

theorem idblk_apply (b : Fin 4) (j : Fin 25) (r : Fin 1024) :
    idblk m c (pt b j) (ix2 r (0 : Fin 1)) = a3 m c (ix2 b r) := by
  obtain ⟨e0, e1⟩ := idx_id (pt b j)
  rw [pt_val] at e0
  have hj := j.isLt
  show V m c main_v4 (((cfg0.win 3).blk (pt b j)).view.emb (ix2 r (0 : Fin 1))) = _
  rw [arr_id m c]
  refine shapeCast_apply (a3 m c) shapeCasts_S4x1024_S4096x1 _ (ix2 b r) ?_
  rw [Shape.rowMajor_val_two, Shape.rowMajor_val_two]
  show b.val * 1024 + r.val = (win0_3.index (pt b j) (0 : Fin 2) * 1024 + 1 * r.val) * 1 + (win0_3.index (pt b j) (1 : Fin 2) * 1 + 1 * 0)
  omega

theorem oldblk_apply (b : Fin 4) (j : Fin 25) (r : Fin 1024) :
    oldblk m c (pt b j) (ix2 r (0 : Fin 1)) = a7 m c (ix2 b r) := by
  obtain ⟨e0, e1⟩ := idx_old (pt b j)
  rw [pt_val] at e0
  have hj := j.isLt
  show V m c main_v5 (((cfg0.win 4).blk (pt b j)).view.emb (ix2 r (0 : Fin 1))) = _
  rw [arr_old m c]
  refine shapeCast_apply (a7 m c) shapeCasts_S4x1024_S4096x1 _ (ix2 b r) ?_
  rw [Shape.rowMajor_val_two, Shape.rowMajor_val_two]
  show b.val * 1024 + r.val = (win0_4.index (pt b j) (0 : Fin 2) * 1024 + 1 * r.val) * 1 + (win0_4.index (pt b j) (1 : Fin 2) * 1 + 1 * 0)
  omega

theorem refblk_apply (b : Fin 4) (j : Fin 25) (r : Fin 1024) :
    refblk m c (pt b j) (ix2 r (0 : Fin 1)) = a6 m c (ix2 b r) := by
  obtain ⟨e0, e1⟩ := idx_ref (pt b j)
  rw [pt_val] at e0
  have hj := j.isLt
  show V m c main_v6 (((cfg0.win 5).blk (pt b j)).view.emb (ix2 r (0 : Fin 1))) = _
  rw [arr_ref m c]
  refine shapeCast_apply (a6 m c) shapeCasts_S4x1024_S4096x1 _ (ix2 b r) ?_
  rw [Shape.rowMajor_val_two, Shape.rowMajor_val_two]
  show b.val * 1024 + r.val = (win0_5.index (pt b j) (0 : Fin 2) * 1024 + 1 * r.val) * 1 + (win0_5.index (pt b j) (1 : Fin 2) * 1 + 1 * 0)
  omega

theorem maskblk_apply (b : Fin 4) (j : Fin 25) (r : Fin 1024) :
    maskblk m c (pt b j) (ix2 r (0 : Fin 1)) = a4 m c (ix2 b r) := by
  obtain ⟨e0, e1⟩ := idx_mask (pt b j)
  rw [pt_val] at e0
  have hj := j.isLt
  show V m c main_v7 (((cfg0.win 6).blk (pt b j)).view.emb (ix2 r (0 : Fin 1))) = _
  rw [arr_mask m c]
  refine shapeCast_apply (a4 m c) shapeCasts_S4x1024_S4096x1 _ (ix2 b r) ?_
  rw [Shape.rowMajor_val_two, Shape.rowMajor_val_two]
  show b.val * 1024 + r.val = (win0_6.index (pt b j) (0 : Fin 2) * 1024 + 1 * r.val) * 1 + (win0_6.index (pt b j) (1 : Fin 2) * 1 + 1 * 0)
  omega

theorem advblk_apply (b : Fin 4) (j : Fin 25) (b' : Fin 4) :
    advblk m c (pt b j) (ix2 b' (0 : Fin 1)) = a5 m c (ix1 b') := by
  obtain ⟨e0, e1⟩ := idx_adv (pt b j)
  show V m c main_v8 (((cfg0.win 7).blk (pt b j)).view.emb (ix2 b' (0 : Fin 1))) = _
  rw [arr_adv m c]
  refine shapeCast_apply (a5 m c) shapeCasts_S4_S4x1 _ (ix1 b') ?_
  rw [Shape.rowMajor_val_one, Shape.rowMajor_val_two]
  show b'.val = (win0_7.index (pt b j) (0 : Fin 2) * 4 + 1 * b'.val) * 1 + (win0_7.index (pt b j) (1 : Fin 2) * 1 + 1 * 0)
  omega

end Cert.KernelIdeal.Blocks

end
-- ==== Proof.OnlineSoftmax.lean ====
/-
  Online softmax over the reals.

  A row's logits `L` are met one tile of columns at a time. Carrying the maximum `M` of the columns seen so far and the
  sum `S = Σ exp (L v - M)` over them, a new tile `T` updates the pair to
  `M' = max M (max over T)` and `S' = exp (M - M') * S + Σ_{v ∈ T} exp (L v - M')`.
  The pair so carried is, at every stage, the maximum over all columns seen and the sum of `exp (L v - maximum)` over
  them: `exp (M - M') * exp (L v - M) = exp (L v - M')`, summed. Hence after the last tile `M + log S` is the
  log-sum-exp of the whole row, and `L i - (M + log S)` is the log-softmax at `i` as one computes it directly,
  `(L i - M) - log S`.
-/
import Mathlib.Analysis.SpecialFunctions.Exp
import Mathlib.Analysis.SpecialFunctions.Log.Basic
import Mathlib.Algebra.BigOperators.Group.Finset.Basic
import Mathlib.Order.CompleteLattice.Finset
import Mathlib.Data.Finset.Lattice.Fold

namespace OnlineSoftmax

open Finset

variable {ι : Type} [DecidableEq ι]

/-- The maximum over the columns seen and a new tile is the larger of the two maxima. -/
theorem max_step (A T : Finset ι) (hA : A.Nonempty) (hT : T.Nonempty) (L : ι → ℝ) :
    (A ∪ T).sup' (hA.mono subset_union_left) L = max (A.sup' hA L) (T.sup' hT L) :=
  Finset.sup'_union hA hT L

/-- Rescaling the carried sum from the old maximum `M` to any other value `M'`. -/
theorem rescale (A : Finset ι) (L : ι → ℝ) (M M' : ℝ) :
    Real.exp (M - M') * ∑ v ∈ A, Real.exp (L v - M) = ∑ v ∈ A, Real.exp (L v - M') := by
  rw [Finset.mul_sum]
  refine Finset.sum_congr rfl fun v _ => ?_
  rw [← Real.exp_add]
  congr 1
  ring

/-- One tile's update of the carried sum: the sum of `exp (L v - M')` over the columns seen and the new tile is the
    carried sum rescaled from `M` to `M'`, plus the tile's own terms. -/
theorem sum_step (A T : Finset ι) (hd : Disjoint A T) (L : ι → ℝ) (M M' : ℝ) :
    ∑ v ∈ A ∪ T, Real.exp (L v - M') = Real.exp (M - M') * (∑ v ∈ A, Real.exp (L v - M)) + ∑ v ∈ T, Real.exp (L v - M') := by
  rw [Finset.sum_union hd, rescale]

/-- The sum of exponentials shifted by the maximum is positive: its logarithm is an ordinary real. -/
theorem sum_pos (A : Finset ι) (hA : A.Nonempty) (L : ι → ℝ) (M : ℝ) : 0 < ∑ v ∈ A, Real.exp (L v - M) :=
  Finset.sum_pos (fun v _ => Real.exp_pos _) hA

/-- The two spellings of the log-softmax at a column agree. -/
theorem logsoftmax_two_ways (Li M S : ℝ) : (Li - M) - Real.log S = Li - (M + Real.log S) := by
  ring

end OnlineSoftmax
-- ==== Proof.SoftmaxStep.lean ====
/-
  One step of the online softmax, over the extended reals, for a row of REAL logits `lam`.

  Carry, for the columns `A` seen so far (possibly none), the maximum `A.sup lam` (which is `-inf` when `A` is empty),
  the shifted sum `Σ_{v ∈ A} exp (lam v - maximum)` and the selected logit `Σ_{v ∈ A} [v = tok] lam v` (both `0` when
  `A` is empty: exactly the reset values). A new tile `T`, disjoint from `A` and not empty, updates the maximum to
  `max (old maximum) (T.sup lam)`, the sum to `exp (old - new) * old sum + Σ_{v ∈ T} exp (lam v - new)`, the selected logit by
  the tile's own term. The results are the same three quantities for `A ∪ T`. With no column seen the factor is
  `exp (-inf) = 0`; otherwise every quantity is the cast of a real and the identity is the reals' `OnlineSoftmax.sum_step`.
-/
import proofs.«404778_j58669253264202_3_alg».proof.Proof.OnlineSoftmax
import proofs.«404778_j58669253264202_3_alg».proof.Proof.LibReal
import Idealize.ShloMosaic.PureOps.Ideal
import Mathlib.Data.EReal.Basic
import Mathlib.Data.EReal.Operations

noncomputable section

namespace Cert.SoftmaxStep

open Idealize.ShloMosaic Finset

variable {ι : Type} [DecidableEq ι]

/-- The supremum, in the extended reals, of the casts of reals over a set that is not empty is the cast of their maximum. -/
theorem sup_coe (A : Finset ι) (hA : A.Nonempty) (lam : ι → ℝ) :
    (A.sup fun v => ((lam v : ℝ) : EReal)) = ((A.sup' hA lam : ℝ) : EReal) := by
  rw [← Finset.sup'_eq_sup hA]
  exact (Finset.comp_sup'_eq_sup'_comp hA (fun x : ℝ => (x : EReal)) (fun a b => EReal.coe_strictMono.monotone.map_sup a b)).symm

/-- The maximum after the tile. -/
theorem max_step (lam : ι → ℝ) (A T : Finset ι) :
    max (A.sup fun v => ((lam v : ℝ) : EReal)) (T.sup fun v => ((lam v : ℝ) : EReal)) = (A ∪ T).sup fun v => ((lam v : ℝ) : EReal) :=
  (Finset.sup_union).symm

/-- The shifted sum after the tile. -/
theorem sum_step (lam : ι → ℝ) (A T : Finset ι) (hd : Disjoint A T) (hT : T.Nonempty) :
    Ideal.exp ((A.sup fun v => ((lam v : ℝ) : EReal)) - (A ∪ T).sup fun v => ((lam v : ℝ) : EReal))
        * (∑ v ∈ A, Ideal.exp (((lam v : ℝ) : EReal) - A.sup fun v => ((lam v : ℝ) : EReal)))
      + ∑ v ∈ T, Ideal.exp (((lam v : ℝ) : EReal) - (A ∪ T).sup fun v => ((lam v : ℝ) : EReal))
      = ∑ v ∈ A ∪ T, Ideal.exp (((lam v : ℝ) : EReal) - (A ∪ T).sup fun v => ((lam v : ℝ) : EReal)) := by
  have hU : (A ∪ T).Nonempty := hT.mono subset_union_right
  rw [sup_coe (A ∪ T) hU lam]
  rcases A.eq_empty_or_nonempty with rfl | hA
  · simp only [Finset.sup_empty, Finset.sum_empty, Finset.empty_union, mul_zero, zero_add]
  · rw [sup_coe A hA lam]
    simp only [← EReal.coe_sub, Ideal.exp_coe, ← Cert.LibReal.coe_sum, ← EReal.coe_mul, ← EReal.coe_add]
    exact congrArg _ (OnlineSoftmax.sum_step A T hd lam _ _).symm

/-- The selected logit after the tile. -/
theorem sel_step (g : ι → EReal) (A T : Finset ι) (hd : Disjoint A T) :
    (∑ v ∈ A, g v) + ∑ v ∈ T, g v = ∑ v ∈ A ∪ T, g v :=
  (Finset.sum_union hd).symm

end Cert.SoftmaxStep

end
-- ==== Proof.RealOps.lean ====
/-
  Extended reals that are real numbers are closed under the operations the loss is built from: sums, differences,
  products, negation, minima and maxima, finite sums, the exponential, the logarithm of a positive real, and the
  division by a real that is not zero. For a real `x`, `x - x = 0`.
-/
import proofs.«404778_j58669253264202_3_alg».proof.Proof.LibReal
import Idealize.ShloMosaic.PureOps.Ideal
import Mathlib.Data.EReal.Basic
import Mathlib.Data.EReal.Operations
import Mathlib.Analysis.SpecialFunctions.Log.Basic

noncomputable section

namespace Cert.RealOps

open Idealize.ShloMosaic Cert.LibReal

theorem coe (r : ℝ) : IsReal (r : EReal) := ⟨r, rfl⟩
theorem zero : IsReal (0 : EReal) := ⟨0, rfl⟩
theorem one : IsReal (1 : EReal) := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max' {x y : EReal} (hx : IsReal x) (hy : IsReal y) : IsReal (max x y) := by
  rcases max_choice x y with h | h <;> rw [h] <;> assumption

theorem min' {x y : EReal} (hx : IsReal x) (hy : IsReal y) : IsReal (min x y) := by
  rcases min_choice x y with h | h <;> rw [h] <;> assumption

theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

theorem exp {x : EReal} (hx : IsReal x) : IsReal (Ideal.exp x) := by
  obtain ⟨a, rfl⟩ := hx; exact ⟨Real.exp a, rfl⟩

/-- The exponential of a real is positive. -/
theorem exp_pos {x : EReal} (hx : IsReal x) : (0 : EReal) < Ideal.exp x := by
  obtain ⟨a, rfl⟩ := hx
  show (0 : EReal) < ((Real.exp a : ℝ) : EReal)
  exact_mod_cast Real.exp_pos a

theorem log_of_pos {x : EReal} (hx : IsReal x) (hp : (0 : EReal) < x) : IsReal (Ideal.log x) := by
  obtain ⟨a, rfl⟩ := hx
  have ha : 0 < a := by exact_mod_cast hp
  rw [Ideal.log_coe, if_neg (not_le.mpr ha)]
  exact ⟨Real.log a, rfl⟩

theorem div_of_ne {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact mul (coe a) (coe _)

/-- A real less itself is zero. -/
theorem sub_self' {x : EReal} (hx : IsReal x) : x - x = 0 := by
  obtain ⟨a, rfl⟩ := hx
  rw [← EReal.coe_sub, sub_self]; rfl

/-- The words of the loss's constants are reals. -/
theorem ofBits_one : Ideal.ofBits .f32 0x3F800000#32 = (1 : EReal) := by
  simp [Ideal.ofBits, Ideal.ieee, -EReal.coe_mul]; norm_num
theorem ofBits_zero : Ideal.ofBits .f32 0x00000000#32 = (0 : EReal) := by
  simp [Ideal.ofBits, Ideal.ieee]
theorem isReal_c08 : IsReal (Ideal.ofBits .f32 0x3F4CCCCD#32) := by simp [Ideal.ofBits, Ideal.ieee]; exact ⟨_, rfl⟩
theorem isReal_c12 : IsReal (Ideal.ofBits .f32 0x3F99999A#32) := by simp [Ideal.ofBits, Ideal.ieee]; exact ⟨_, rfl⟩
theorem isReal_beta : IsReal (Ideal.ofBits .f32 0x3D23D70A#32) := by simp [Ideal.ofBits, Ideal.ieee]; exact ⟨_, rfl⟩

end Cert.RealOps

end
-- ==== Proof.PayUpdate.lean ====
/-
  One vocabulary tile's arithmetic, read at an index over the extended reals.

  With `x` the row tile's hidden states (1024 x 2048), `w` the tile's weights (1280 x 2048), `bb` its bias (1 x 1280):
  the tile's logits are `Σ_h x[r,h] * w[u,h] + bb[u]`; the new maximum is the larger of the carried one and the
  tile's row maximum; the rescaling factor is `exp (carried maximum - new maximum)`; the new sum is the factor times the
  carried sum plus the tile's `Σ_u exp (logit - new maximum)`; the selected logit gains the tile's logit at the column
  whose number is the token id less the tile's first column. The reset values are `-inf, 0, 0`.
-/
import proofs.«404778_j58669253264202_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayUpdate

open Idealize.ShloMosaic Idealize.ShloMosaic.TcCoe Idealize.ShloMosaic.ValueIdx
open Cert.KernelIdeal Cert.KernelIdeal.Gen

variable [Cert.KernelIdeal.Facts]

variable (x : Vec Ideal S1024x2048 .bf16) (w : Vec Ideal S1280x2048 .bf16) (bb : Vec Ideal S1x1280 .f32)
  (ids : Vec Ideal S1024x1 .i32) (c0 c1 c2 : Vec Ideal S1024x1 .f32)

/-! ## Small readings the theorems share -/

/-- The exponential of a vector, read at an index. -/
theorem exp_at {s : Shape} {φ : FTy} (a : FVec Ideal s φ) (i : s.Idx) : exp a i = Ideal.exp (a i) := rfl

/-- The bit pattern of f32's negative infinity denotes the bottom of the extended reals. -/
theorem ofBits_negInf_f32 : Ideal.ofBits .f32 0xFF800000#32 = (⊥ : EReal) := by
  simp [Ideal.ofBits, Ideal.ieee]

/-- A select on the equality of two words is the `if` on that equality. -/
theorem select_cmpi_eq {α : Type} (a b : BitVec 32) (p z : α) :
    Scalar.select (IntOp.cmpi .eq a b) p z = if a = b then p else z := by
  unfold Scalar.select IntOp.cmpi
  by_cases h : a = b
  · subst h
    rw [if_pos rfl, show (a == a) = true from beq_self_eq_true a]
    rfl
  · rw [if_neg h, show (a == b) = false from beq_eq_false_iff_ne.mpr h]
    rfl

/-! ## The keepdims column forms of the layout operations, read at an index -/

/-- An `[a]` array cast to the column `[a, 1]` reads, at `(i, z)`, the operand at `i`, whatever the unit coordinate `z`. -/
theorem shapeCast_a_a1_apply {α : Type} {a : ℕ} (v : (⟨1, ![a]⟩ : Shape).Idx → α)
    (h : (⟨1, ![a]⟩ : Shape).ShapeCasts ⟨2, ![a, 1]⟩) (i : Fin a) (z : Fin 1) :
    shapeCast ⟨2, ![a, 1]⟩ v h (ix2 i z) = v (ix1 i) :=
  shapeCast_apply v h _ _ (by
    have hz : z.val = 0 := by omega
    rw [Shape.rowMajor_val_two, Shape.rowMajor_val_one]
    show i.val = i.val * 1 + z.val
    rw [hz, Nat.mul_one, Nat.add_zero])

/-- A column `[a, 1]` broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the columns, read at a row -/

/-- The index over row `r` with column `u` put back. -/
theorem lift_row {a b : ℕ} (h : (⟨2, ![a, b]⟩ : Shape).Reduces [1] ⟨1, ![a]⟩) (r : Fin a) (u : Fin b) :
    h.lift (ix1 r) u = ix2 r u :=
  funext fun c => match c with
    | ⟨0, _⟩ => Fin.ext rfl
    | ⟨1, _⟩ => Fin.ext rfl

/-- A lane sum along the columns, read at row `r`, is the sum over the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ u : Fin b, src (ix2 r u) :=
  (Ideal.multiReduction_add_single src 0x00000000#32 h hφ hacc (ix1 r)).trans
    (Finset.sum_congr rfl fun u _ => congrArg src (lift_row h r u))

/-- A lane maximum along the columns from negative infinity, read at row `r`, is the supremum of the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r)
      = Finset.univ.sup fun u : Fin b => src (ix2 r u) := by
  refine (Ideal.multiReduction_maximumf_single src 0xFF800000#32 h hφ hacc (ix1 r)).trans ?_
  have hl : (src ∘ h.lift (ix1 r)) = fun u : Fin b => src (ix2 r u) := funext fun u => congrArg src (lift_row h r u)
  rw [hl]
  show Finset.fold max (Ideal.ofBits .f32 0xFF800000#32) (fun u : Fin b => src (ix2 r u)) Finset.univ = _
  rw [ofBits_negInf_f32]
  rfl

/-! ## The tile's matrix product: the operand indices axis by axis, then the product at an index -/

theorem lhs_tile_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch from List.not_mem_nil),
    dif_pos (show (0 : Fin S1024x2048.rank) ∈ dot_S1024x2048_S1280x2048_S1024x1280_1_1_0_0_n_n.lhsNonContracting from List.mem_singleton.mpr rfl)]
  rfl
theorem lhs_tile_1 (i : S1024x1280.Idx) (q : dot_S1024x2048_S1280x2048_S1024x1280_1_1_0_0_n_n.contr.Idx) :
    (dot_S1024x2048_S1280x2048_S1024x1280_1_1_0_0_n_n.lhsIdx i q 1).val = (q ⟨0, Nat.one_pos⟩).val :=
  dot_S1024x2048_S1280x2048_S1024x1280_1_1_0_0_n_n.lhsIdx_val_of_single rfl i q
theorem rhs_tile_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch from List.not_mem_nil),
    dif_pos (show (0 : Fin S1280x2048.rank) ∈ dot_S1024x2048_S1280x2048_S1024x1280_1_1_0_0_n_n.rhsNonContracting from List.mem_singleton.mpr rfl)]
  rfl
theorem rhs_tile_1 (i : S1024x1280.Idx) (q : dot_S1024x2048_S1280x2048_S1024x1280_1_1_0_0_n_n.contr.Idx) :
    (dot_S1024x2048_S1280x2048_S1024x1280_1_1_0_0_n_n.rhsIdx i q 1).val = (q ⟨0, Nat.one_pos⟩).val :=
  dot_S1024x2048_S1280x2048_S1024x1280_1_1_0_0_n_n.rhsIdx_val_of_single rfl i q

/-- The product into the zero splat, at `(r, u)`: the sum over the hidden axis of the two rows' products. -/
theorem matmul_tile_apply (X : FVec Ideal S1024x2048 .bf16) (W : FVec Ideal S1280x2048 .bf16) (r : Fin 1024) (u : Fin 1280) :
    matmul dot_S1024x2048_S1280x2048_S1024x1280_1_1_0_0_n_n none X W (constant (F := Ideal) S1024x1280 .f32 0x00000000#32) (ix2 r u)
      = ∑ h : Fin 2048, X (ix2 r h) * W (ix2 u h) := by
  simp only [matmul]
  rw [Ideal.matmul_constant_zero_apply, ← Equiv.sum_comp (contrEquiv1 dot_S1024x2048_S1280x2048_S1024x1280_1_1_0_0_n_n 2048 rfl rfl).symm]
  refine Finset.sum_congr rfl fun k _ => ?_
  have hk := contrEquiv1_symm_val dot_S1024x2048_S1280x2048_S1024x1280_1_1_0_0_n_n 2048 rfl rfl k
  have el : dot_S1024x2048_S1280x2048_S1024x1280_1_1_0_0_n_n.lhsIdx (ix2 r u) ((contrEquiv1 dot_S1024x2048_S1280x2048_S1024x1280_1_1_0_0_n_n 2048 rfl rfl).symm k) = ix2 r k :=
    funext fun a => Fin.ext (by
      match a with
      | ⟨0, _⟩ => exact lhs_tile_0 _ _
      | ⟨1, _⟩ => exact (lhs_tile_1 _ _).trans hk)
  have er : dot_S1024x2048_S1280x2048_S1024x1280_1_1_0_0_n_n.rhsIdx (ix2 r u) ((contrEquiv1 dot_S1024x2048_S1280x2048_S1024x1280_1_1_0_0_n_n 2048 rfl rfl).symm k) = ix2 u k :=
    funext fun a => Fin.ext (by
      match a with
      | ⟨0, _⟩ => exact rhs_tile_0 _ _
      | ⟨1, _⟩ => exact (rhs_tile_1 _ _).trans hk)
  rw [el, er]

/-- The tile's logits. -/
theorem tile_apply (r : Fin 1024) (u : Fin 1280) :
    k0_pay12 (F := Ideal) x w bb (ix2 r u) = (∑ h : Fin 2048, x (ix2 r h) * w (ix2 u h)) + bb (ix2 (0 : Fin 1) u) := by
  unfold k0_pay12
  rw [addf_apply, shapeCast_self, shapeCast_self, shapeCast_self, broadcastTo_1b_ab_apply]
  exact congrArg (· + bb (ix2 (0 : Fin 1) u)) (matmul_tile_apply x w r u)

/-- The new maximum. -/
theorem newMax_apply (r : Fin 1024) :
    k0_pay14 (F := Ideal) x w bb c0 (ix2 r (0 : Fin 1))
      = max (c0 (ix2 r (0 : Fin 1))) (Finset.univ.sup fun u : Fin 1280 => k0_pay12 (F := Ideal) x w bb (ix2 r u)) := by
  unfold k0_pay14
  rw [maximumf_apply, shapeCast_a_a1_apply, rowMax_apply]

/-- The rescaling factor. -/
theorem scale_apply (r : Fin 1024) :
    k0_pay15 (F := Ideal) x w bb c0 (ix2 r (0 : Fin 1))
      = Ideal.exp (c0 (ix2 r (0 : Fin 1)) - k0_pay14 (F := Ideal) x w bb c0 (ix2 r (0 : Fin 1))) := by
  unfold k0_pay15
  rfl

/-- The new sum, from a tile `L`, the new maximum `mn`, the factor `al` and the carried sum. -/
theorem newSum_apply (L : FVec Ideal S1024x1280 .f32) (mn al : FVec Ideal S1024x1 .f32) (r : Fin 1024) :
    k0_pay1 (F := Ideal) L mn al c1 (ix2 r (0 : Fin 1))
      = al (ix2 r (0 : Fin 1)) * c1 (ix2 r (0 : Fin 1)) + ∑ u : Fin 1280, Ideal.exp (L (ix2 r u) - mn (ix2 r (0 : Fin 1))) := by
  unfold k0_pay1
  rw [shapeCast_self, addf_apply, mulf_apply, shapeCast_a_a1_apply, rowSum_apply]
  refine congrArg (al (ix2 r (0 : Fin 1)) * c1 (ix2 r (0 : Fin 1)) + ·) (Finset.sum_congr rfl fun u _ => ?_)
  rw [exp_at, subf_apply, broadcastTo_a1_ab_apply]

/-- The value stored into column 0 is the new maximum itself. -/
theorem store0_apply (v : FVec Ideal S1024x1 .f32) : k0_pay2 (F := Ideal) v = v := by
  unfold k0_pay2
  exact shapeCast_self v _

/-- The selected logit: the carried one plus the tile's logit at the column that the id names, if it names one of
    this tile's (the comparison is of 32-bit words: the id less the tile's first column against the column number). -/
theorem newSel_apply (i : grid0.Coords) (r : Fin 1024) :
    k0_pay13 (F := Ideal) i x w bb ids c2 (ix2 r (0 : Fin 1))
      = c2 (ix2 r (0 : Fin 1)) + ∑ u : Fin 1280,
          if ids (ix2 r (0 : Fin 1)) - BitVec.ofNat 32 (i 1).val * 1280#32 = BitVec.ofNat 32 u.val
          then k0_pay12 (F := Ideal) x w bb (ix2 r u) else 0 := by
  unfold k0_pay13
  rw [shapeCast_self, addf_apply, shapeCast_a_a1_apply, rowSum_apply]
  refine congrArg (c2 (ix2 r (0 : Fin 1)) + ·) (Finset.sum_congr rfl fun u _ => ?_)
  rw [select_apply, broadcast_apply]
  show Scalar.select (IntOp.cmpi .eq _ _) _ _ = _
  rw [select_cmpi_eq, broadcastTo_a1_ab_apply, iota_single_apply, shapeCast_self]
  show (if ids (ix2 r (0 : Fin 1)) - BitVec.ofNat 32 (i 1).val * 1280#32 = BitVec.ofNat 32 u.val
      then k0_pay12 (F := Ideal) x w bb (ix2 r u) else Ideal.ofBits .f32 0x00000000#32) = _
  rw [Ideal.ofBits_zero_f32]

/-- The reset values. -/
theorem reset0_apply (r : Fin 1024) : k0_pay9 (F := Ideal) (ix2 r (0 : Fin 1)) = (⊥ : EReal) := by
  unfold k0_pay9
  rw [shapeCast_self]
  exact ofBits_negInf_f32
theorem reset1_apply (r : Fin 1024) : k0_pay10 (F := Ideal) (ix2 r (0 : Fin 1)) = (0 : EReal) := by
  unfold k0_pay10
  rw [shapeCast_self]
  exact Ideal.ofBits_zero_f32
theorem reset2_apply (r : Fin 1024) : k0_pay11 (F := Ideal) (ix2 r (0 : Fin 1)) = (0 : EReal) := by
  unfold k0_pay11
  rw [shapeCast_self]
  exact Ideal.ofBits_zero_f32

end Cert.KernelIdeal.PayUpdate

end
-- ==== Proof.Softmax.lean ====
/-
  The three carried columns, as values: after vocabulary tile `j` of row tile `b`, at token row `r`, column 0 is the
  maximum of the row's logits over the columns seen so far, column 1 the sum over them of `exp (logit - that maximum)`,
  column 2 the logit at the selected id if it has been seen (the sum of the logits at the columns equal to the id).
  The update of one tile is the online-softmax step; that the carried pair is the maximum and the shifted sum over all
  columns seen is the law of `OnlineSoftmax`, used over the reals, which the logits are under the precondition.
-/
import proofs.«404778_j58669253264202_3_alg».proof.Proof.Blocks
import proofs.«404778_j58669253264202_3_alg».proof.Proof.OnlineSoftmax
import proofs.«404778_j58669253264202_3_alg».proof.Proof.LibReal
import proofs.«404778_j58669253264202_3_alg».proof.Proof.SoftmaxStep
import proofs.«404778_j58669253264202_3_alg».proof.Proof.RealOps
import proofs.«404778_j58669253264202_3_alg».proof.Proof.PayUpdate
import Idealize.ShloMosaic.Lib.ValueIdx
import Idealize.ShloMosaic.Lib.Pipeline.Value
import Idealize.ShloMosaic.PureOps.Ideal.Laws

set_option maxRecDepth 16384

noncomputable section

namespace Cert.KernelIdeal.Softmax

open Idealize.ShloMosaic Idealize.ShloMosaic.TcCoe Idealize.ShloMosaic.ValueIdx
open Idealize.SL Idealize.SL.Sem
open Cert.KernelIdeal Cert.KernelIdeal.Gen Cert.KernelIdeal.Columns Cert.KernelIdeal.Carried Cert.KernelIdeal.KIn Cert.KernelIdeal.Blocks

variable [Cert.Pre_finite_inputs.Facts]
variable (m : (ℓ : Loc nD τ sig) → Buf (Elt Ideal) ℓ) (c : Dev nD)

/-! ## The logits are real numbers -/

section Real

variable (hpre : Cert.Pre_KernelIdeal m)

/-- The word of one is one. -/
theorem one_eq : Cert.Loss.one = (1 : EReal) := Cert.RealOps.ofBits_one

/-- Dividing by one changes nothing. -/
theorem div_one' (x : EReal) : Ideal.div x Cert.Loss.one = x := by
  rw [one_eq, Ideal.div, if_neg one_ne_zero, inv_one, mul_one]

/-- Under the precondition every logit is a real number. -/
theorem logit_real (b : Fin 4) (r : Fin 1024) (v : Fin 32000) :
    ∃ l : ℝ, Cert.Loss.logit (I m c hpre) b r v = (l : EReal) := by
  have hg := good m c hpre
  choose xr hx using fun h : Fin 2048 => hg.x_real (ix3 b r h)
  choose wr hw using fun h : Fin 2048 => hg.w_real (ix2 v h)
  obtain ⟨br, hb⟩ := hg.bias_real (ix1 v)
  refine ⟨(∑ h : Fin 2048, xr h * wr h) + br, ?_⟩
  unfold Cert.Loss.logit
  rw [div_one']
  show (∑ h : Fin 2048, a0 m c (ix3 b r h) * a1 m c (ix2 v h)) + a2 m c (ix1 v) = _
  rw [hb, EReal.coe_add, Cert.LibReal.coe_sum]
  refine congrArg (· + (br : EReal)) ?_
  exact Finset.sum_congr rfl fun h _ => by rw [hx h, hw h, EReal.coe_mul]

/-- The logits of a row, as reals. -/
def lam (b : Fin 4) (r : Fin 1024) (v : Fin 32000) : ℝ := Classical.choose (logit_real m c hpre b r v)

theorem logit_eq (b : Fin 4) (r : Fin 1024) (v : Fin 32000) :
    Cert.Loss.logit (I m c hpre) b r v = ((lam m c hpre b r v : ℝ) : EReal) :=
  Classical.choose_spec (logit_real m c hpre b r v)

end Real

/-! ## The columns before a tile, and a tile's own -/

/-- The vocabulary columns before tile `n`. -/
def below (n : ℕ) : Finset (Fin 32000) := Finset.univ.filter fun v => v.val < 1280 * n

/-- The columns of tile `j`. -/
def tileCols (j : Fin 25) : Finset (Fin 32000) := Finset.univ.image (vcol j)

theorem below_zero : below 0 = ∅ := by
  unfold below; simp

theorem vcol_injective (j : Fin 25) : Function.Injective (vcol j) := by
  intro u u' h
  have := congrArg Fin.val h
  simp only [vcol] at this
  exact Fin.ext (by omega)

theorem mem_tileCols (j : Fin 25) (v : Fin 32000) : v ∈ tileCols j ↔ 1280 * j.val ≤ v.val ∧ v.val < 1280 * (j.val + 1) := by
  unfold tileCols
  constructor
  · intro h
    obtain ⟨u, -, rfl⟩ := Finset.mem_image.mp h
    simp only [vcol]; omega
  · intro ⟨h1, h2⟩
    exact Finset.mem_image.mpr ⟨⟨v.val - 1280 * j.val, by omega⟩, Finset.mem_univ _, Fin.ext (by simp only [vcol]; omega)⟩

theorem below_succ (j : Fin 25) : below (j.val + 1) = below j.val ∪ tileCols j := by
  ext v
  simp only [below, Finset.mem_filter, Finset.mem_univ, true_and, Finset.mem_union, mem_tileCols]
  omega

theorem below_disjoint (j : Fin 25) : Disjoint (below j.val) (tileCols j) := by
  rw [Finset.disjoint_left]
  intro v hv hv'
  simp only [below, Finset.mem_filter, Finset.mem_univ, true_and] at hv
  have := (mem_tileCols j v).mp hv'
  omega

theorem tileCols_nonempty (j : Fin 25) : (tileCols j).Nonempty :=
  ⟨vcol j ⟨0, by omega⟩, Finset.mem_image.mpr ⟨_, Finset.mem_univ _, rfl⟩⟩

/-- A sum over a tile's columns is the sum over its 1280 local columns. -/
theorem sum_tileCols (j : Fin 25) (g : Fin 32000 → EReal) : ∑ v ∈ tileCols j, g v = ∑ u : Fin 1280, g (vcol j u) :=
  Finset.sum_image fun u _ u' _ h => vcol_injective j h

/-- The supremum over a tile's columns is the supremum over its 1280 local columns. -/
theorem sup_tileCols (j : Fin 25) (g : Fin 32000 → EReal) : (tileCols j).sup g = Finset.univ.sup fun u : Fin 1280 => g (vcol j u) :=
  Finset.sup_image _ _ _

/-- The vocabulary columns seen once tile `j` is done. -/
def seen (j : Fin 25) : Finset (Fin 32000) := Finset.univ.filter fun v => v.val < 1280 * (j.val + 1)

theorem seen_eq_below (j : Fin 25) : seen j = below (j.val + 1) := rfl

theorem seen_last : seen (24 : Fin 25) = Finset.univ := by
  ext v
  simp only [seen, Finset.mem_filter, Finset.mem_univ, true_and, iff_true]
  have := v.isLt
  show v.val < 1280 * (24 + 1)
  omega

variable (hpre : Cert.Pre_KernelIdeal m)

/-! ## One tile's update at a row -/

/-- The selected id as a 32-bit word, less the tile's first column, is the local column `u` exactly when the id is
    column `u` of tile `j`: no subtraction here wraps, the id being non-negative and below 32000. -/
theorem word_iff (w : BitVec 32) (h0 : 0 ≤ w.toInt) (h1 : w.toInt < 32000) (j : Fin 25) (u : Fin 1280) :
    w - BitVec.ofNat 32 j.val * 1280#32 = BitVec.ofNat 32 u.val ↔ w.toInt.toNat = 1280 * j.val + u.val := by
  have hj := j.isLt
  have hu := u.isLt
  have hw : w.toInt = (w.toNat : ℤ) := by
    rw [BitVec.toInt_eq_toNat_cond] at h0 h1 ⊢
    split at h0 <;> omega
  have hwn : w.toNat < 32000 := by omega
  constructor
  · intro h
    have := congrArg BitVec.toNat h
    simp only [BitVec.toNat_sub, BitVec.toNat_mul, BitVec.toNat_ofNat] at this
    omega
  · intro h
    apply BitVec.eq_of_toNat_eq
    simp only [BitVec.toNat_sub, BitVec.toNat_mul, BitVec.toNat_ofNat]
    omega

/-- Each logit of the tile the body forms is the row's logit at that vocabulary column. -/
theorem tile_logit (b : Fin 4) (j : Fin 25) (r : Fin 1024) (u : Fin 1280) :
    k0_pay12 (F := Ideal) (xblk m c (pt b j)) (wblk m c (pt b j)) (bblk m c (pt b j)) (ix2 r u)
      = ((lam m c hpre b r (vcol j u) : ℝ) : EReal) := by
  rw [Cert.KernelIdeal.PayUpdate.tile_apply, ← logit_eq m c hpre b r (vcol j u)]
  unfold Cert.Loss.logit
  rw [div_one']
  simp only [xblk_apply, wblk_apply, bblk_apply]
  rfl

/-- One tile at a row: from the three quantities over the columns before tile `j` to the same over the columns before
    tile `j + 1`. -/
theorem update_row (b : Fin 4) (j : Fin 25) (r : Fin 1024) (s : Cols Ideal)
    (h0 : s.1 (ix2 r (0 : Fin 1)) = (below j.val).sup fun v => ((lam m c hpre b r v : ℝ) : EReal))
    (h1 : s.2.1 (ix2 r (0 : Fin 1)) = ∑ v ∈ below j.val, Ideal.exp (((lam m c hpre b r v : ℝ) : EReal) - (below j.val).sup fun v => ((lam m c hpre b r v : ℝ) : EReal)))
    (h2 : s.2.2 (ix2 r (0 : Fin 1)) = ∑ v ∈ below j.val, if (I m c hpre).tok b r = v then ((lam m c hpre b r v : ℝ) : EReal) else 0) :
    (update (F := Ideal) m c (pt b j) s).1 (ix2 r (0 : Fin 1)) = (below (j.val + 1)).sup (fun v => ((lam m c hpre b r v : ℝ) : EReal))
    ∧ (update (F := Ideal) m c (pt b j) s).2.1 (ix2 r (0 : Fin 1))
        = ∑ v ∈ below (j.val + 1), Ideal.exp (((lam m c hpre b r v : ℝ) : EReal) - (below (j.val + 1)).sup fun v => ((lam m c hpre b r v : ℝ) : EReal))
    ∧ (update (F := Ideal) m c (pt b j) s).2.2 (ix2 r (0 : Fin 1))
        = ∑ v ∈ below (j.val + 1), if (I m c hpre).tok b r = v then ((lam m c hpre b r v : ℝ) : EReal) else 0 := by
  -- the new maximum
  have hmax : k0_pay14 (F := Ideal) (xblk m c (pt b j)) (wblk m c (pt b j)) (bblk m c (pt b j)) s.1 (ix2 r (0 : Fin 1))
      = (below (j.val + 1)).sup fun v => ((lam m c hpre b r v : ℝ) : EReal) := by
    rw [Cert.KernelIdeal.PayUpdate.newMax_apply, h0]
    simp only [tile_logit m c hpre b j r]
    rw [← sup_tileCols j (fun v => ((lam m c hpre b r v : ℝ) : EReal)), Cert.SoftmaxStep.max_step, ← below_succ]
  refine ⟨?_, ?_, ?_⟩
  · show k0_pay2 (F := Ideal) (k0_pay14 (F := Ideal) (xblk m c (pt b j)) (wblk m c (pt b j)) (bblk m c (pt b j)) s.1) (ix2 r (0 : Fin 1)) = _
    rw [Cert.KernelIdeal.PayUpdate.store0_apply, hmax]
  · show k0_pay1 (F := Ideal) (k0_pay12 (F := Ideal) (xblk m c (pt b j)) (wblk m c (pt b j)) (bblk m c (pt b j)))
        (k0_pay14 (F := Ideal) (xblk m c (pt b j)) (wblk m c (pt b j)) (bblk m c (pt b j)) s.1)
        (k0_pay15 (F := Ideal) (xblk m c (pt b j)) (wblk m c (pt b j)) (bblk m c (pt b j)) s.1) s.2.1 (ix2 r (0 : Fin 1)) = _
    rw [Cert.KernelIdeal.PayUpdate.newSum_apply, Cert.KernelIdeal.PayUpdate.scale_apply, hmax, h0, h1]
    simp only [tile_logit m c hpre b j r]
    rw [← sum_tileCols j (fun v => Ideal.exp (((lam m c hpre b r v : ℝ) : EReal) - (below (j.val + 1)).sup fun v => ((lam m c hpre b r v : ℝ) : EReal))),
      below_succ, Cert.SoftmaxStep.sum_step _ _ _ (below_disjoint j) (tileCols_nonempty j)]
  · show k0_pay13 (F := Ideal) (grid0.coords (pt b j)) (xblk m c (pt b j)) (wblk m c (pt b j)) (bblk m c (pt b j)) (idblk m c (pt b j)) s.2.2 (ix2 r (0 : Fin 1)) = _
    rw [Cert.KernelIdeal.PayUpdate.newSel_apply, h2, idblk_apply, (coords_pt b j).2]
    have hg := good m c hpre
    have hsel : ∀ u : Fin 1280,
        (if a3 m c (ix2 b r) - BitVec.ofNat 32 j.val * 1280#32 = BitVec.ofNat 32 u.val
          then k0_pay12 (F := Ideal) (xblk m c (pt b j)) (wblk m c (pt b j)) (bblk m c (pt b j)) (ix2 r u) else 0)
        = (fun v => if (I m c hpre).tok b r = v then ((lam m c hpre b r v : ℝ) : EReal) else 0) (vcol j u) := by
      intro u
      have hiff : (a3 m c (ix2 b r) - BitVec.ofNat 32 j.val * 1280#32 = BitVec.ofNat 32 u.val) ↔ (I m c hpre).tok b r = vcol j u := by
        rw [word_iff _ (hg.id_nonneg (ix2 b r)) (hg.id_lt (ix2 b r)) j u, Fin.ext_iff]
        rfl
      simp only [tile_logit m c hpre b j r u]
      by_cases hc : (I m c hpre).tok b r = vcol j u
      · rw [if_pos (hiff.mpr hc), if_pos hc]
      · rw [if_neg (fun h => hc (hiff.mp h)), if_neg hc]
    simp only [hsel]
    rw [← sum_tileCols j (fun v => if (I m c hpre).tok b r = v then ((lam m c hpre b r v : ℝ) : EReal) else 0), below_succ,
      Cert.SoftmaxStep.sel_step _ _ _ (below_disjoint j)]

/-! ## Along a row tile -/

/-- What tile `n` of row tile `b` starts from: the reset values for its first tile, else what the point before left. -/
def carried (b : Fin 4) : (n : ℕ) → n ≤ 25 → Cols Ideal
  | 0, _ => reset
  | n + 1, h => colsAt (F := Ideal) m c (pt b ⟨n, by omega⟩).val (pt b ⟨n, by omega⟩).isLt

theorem colsAt_congr {k k' : ℕ} (h : k = k') (hk : k < cfg0.N) (hk' : k' < cfg0.N) :
    colsAt (F := Ideal) m c k hk = colsAt (F := Ideal) m c k' hk' := by
  subst h; rfl

/-- A point's columns are the update of what its tile starts from. -/
theorem colsAt_step (b : Fin 4) (j : Fin 25) :
    colsAt (F := Ideal) m c (pt b j).val (pt b j).isLt = update (F := Ideal) m c (pt b j) (carried m c b j.val (le_of_lt j.isLt)) := by
  obtain ⟨n, hn⟩ := j
  cases n with
  | zero =>
    rw [colsAt_first m c (pt b ⟨0, hn⟩) (by rw [pt_val]; show (25 * b.val + 0) % 25 = 0; omega)]
    all_goals (try rfl)
  | succ n =>
    rw [colsAt_later m c (pt b ⟨n + 1, hn⟩) (by rw [pt_val]; show ¬(25 * b.val + (n + 1)) % 25 = 0; omega)]
    congr 1
    all_goals (first | rfl | exact colsAt_congr m c (by rw [pt_val, pt_val]; show 25 * b.val + (n + 1) - 1 = 25 * b.val + n; omega) _ _)

/-- The three carried quantities, at every tile of a row tile. -/
theorem carried_eq (b : Fin 4) (r : Fin 1024) : ∀ (n : ℕ) (hn : n ≤ 25),
    (carried m c b n hn).1 (ix2 r (0 : Fin 1)) = (below n).sup (fun v => ((lam m c hpre b r v : ℝ) : EReal))
    ∧ (carried m c b n hn).2.1 (ix2 r (0 : Fin 1))
        = ∑ v ∈ below n, Ideal.exp (((lam m c hpre b r v : ℝ) : EReal) - (below n).sup fun v => ((lam m c hpre b r v : ℝ) : EReal))
    ∧ (carried m c b n hn).2.2 (ix2 r (0 : Fin 1))
        = ∑ v ∈ below n, if (I m c hpre).tok b r = v then ((lam m c hpre b r v : ℝ) : EReal) else 0 := by
  intro n
  induction n with
  | zero =>
    intro hn
    rw [below_zero]
    refine ⟨?_, ?_, ?_⟩
    · show k0_pay9 (F := Ideal) (ix2 r (0 : Fin 1)) = _
      rw [Cert.KernelIdeal.PayUpdate.reset0_apply, Finset.sup_empty]
    · show k0_pay10 (F := Ideal) (ix2 r (0 : Fin 1)) = _
      rw [Cert.KernelIdeal.PayUpdate.reset1_apply, Finset.sum_empty]
    · show k0_pay11 (F := Ideal) (ix2 r (0 : Fin 1)) = _
      rw [Cert.KernelIdeal.PayUpdate.reset2_apply, Finset.sum_empty]
  | succ n ih =>
    intro hn
    obtain ⟨i0, i1, i2⟩ := ih (by omega)
    have hstep : carried m c b (n + 1) hn = update (F := Ideal) m c (pt b ⟨n, by omega⟩) (carried m c b n (by omega)) :=
      colsAt_step m c b ⟨n, by omega⟩
    rw [hstep]
    exact update_row m c hpre b ⟨n, by omega⟩ r _ i0 i1 i2

/-! ## The three columns after a tile -/

/-- Column 0: the running maximum. -/
theorem col0_eq (b : Fin 4) (j : Fin 25) (r : Fin 1024) :
    (colsAt (F := Ideal) m c (pt b j).val (pt b j).isLt).1 (ix2 r (0 : Fin 1))
      = (seen j).sup fun v => Cert.Loss.logit (I m c hpre) b r v := by
  have h := (carried_eq m c hpre b r (j.val + 1) (by have := j.isLt; omega)).1
  simp only [logit_eq m c hpre b r]
  exact h

/-- Column 1: the running sum of exponentials, shifted by the running maximum. -/
theorem col1_eq (b : Fin 4) (j : Fin 25) (r : Fin 1024) :
    (colsAt (F := Ideal) m c (pt b j).val (pt b j).isLt).2.1 (ix2 r (0 : Fin 1))
      = ∑ v ∈ seen j, Ideal.exp (Cert.Loss.logit (I m c hpre) b r v - (seen j).sup fun v => Cert.Loss.logit (I m c hpre) b r v) := by
  have h := (carried_eq m c hpre b r (j.val + 1) (by have := j.isLt; omega)).2.1
  simp only [logit_eq m c hpre b r]
  exact h

/-- Column 2: the logit at the selected id, once its tile has been seen. -/
theorem col2_eq (b : Fin 4) (j : Fin 25) (r : Fin 1024) :
    (colsAt (F := Ideal) m c (pt b j).val (pt b j).isLt).2.2 (ix2 r (0 : Fin 1))
      = ∑ v ∈ seen j, if (I m c hpre).tok b r = v then Cert.Loss.logit (I m c hpre) b r v else 0 := by
  have h := (carried_eq m c hpre b r (j.val + 1) (by have := j.isLt; omega)).2.2
  simp only [logit_eq m c hpre b r]
  exact h

end Cert.KernelIdeal.Softmax

end
-- ==== Proof.PayEpilogue.lean ====
/-
  The epilogue's arithmetic, read at an index over the extended reals.

  From the three columns as the last vocabulary tile leaves them (`c0` the row maximum, `c1` the shifted sum, `c2` the
  selected logit): the token's log-probability is `c2 - (c0 + log c1)`; the sequence's length is the larger of one
  and the mask's sum; the importance weight is the exponential of the masked mean of `logp - old`; the advantage of
  this sequence is picked out of the four by its number; the base loss is the smaller of `weight * advantage` and
  `clipped weight * advantage`; the output block is, in every row, the masked mean of `-base + 0.04 * (exp d - d - 1)`
  at `d = ref - logp`. The float constants are kept as the words the program carries.
-/
import proofs.«404778_j58669253264202_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayEpilogue

open Idealize.ShloMosaic Idealize.ShloMosaic.TcCoe Idealize.ShloMosaic.ValueIdx
open Cert.KernelIdeal Cert.KernelIdeal.Gen

variable [Cert.KernelIdeal.Facts]

variable (c0 c1 c2 old rf mk : Vec Ideal S1024x1 .f32) (adv : Vec Ideal S4x1 .f32)

/-- A sum down the rows of an `[n, 1]` column, read at the one index of its `[1]` result: the sum of the column's entries. -/
theorem colSum_apply {n : Nat} (x : FVec Ideal ⟨2, ![n, 1]⟩ .f32) (h : Shape.Reduces ⟨2, ![n, 1]⟩ [0] ⟨1, ![1]⟩)
    (hφ : FKind.Formats .f32) (hacc : (0x00000000#32 : BitVec 32) = 0x00000000#32) (u : Fin 1) :
    multiReduction .add [0] ⟨1, ![1]⟩ x 0x00000000#32 h hφ hacc (ix1 u) = ∑ r : Fin n, x (ix2 r (0 : Fin 1)) := by
  refine (Ideal.multiReduction_add_single x 0x00000000#32 h hφ hacc (ix1 u)).trans ?_
  show ∑ r : Fin n, x (h.lift (ix1 u) r) = _
  refine Finset.sum_congr rfl fun r _ => congrArg x ?_
  funext c
  refine Fin.ext ?_
  match c with
  | ⟨0, _⟩ => rfl
  | ⟨1, _⟩ =>
    show u.val = 0
    omega

/-- A select on the bit of a word equality is the `if` on that equality. -/
theorem select_cmpi_eq {α : Type} {w : Nat} (x y : BitVec w) (a b : α) :
    Scalar.select (IntOp.cmpi .eq x y) a b = if x = y then a else b := by
  have hc : IntOp.cmpi .eq x y = 1 ↔ x = y := IntOp.cmpi_eq
  unfold Scalar.select
  by_cases h : x = y
  · rw [if_pos h, if_pos (hc.2 h)]
  · rw [if_neg h, if_neg fun h1 => h (hc.1 h1)]

/-- An exponential at an index is the exponential of the element … -/
theorem exp_apply {s : Shape} {φ : FTy} (a : FVec Ideal s φ) (i : s.Idx) :
    Idealize.ShloMosaic.exp a i = Ideal.exp (a i) := rfl
/-- … and a word comparison at an index compares the elements. -/
theorem cmpi_apply {s : Shape} {w : Nat} (p : CmpIPredicate) (x y : IVec s w) (i : s.Idx) :
    cmpi p x y i = IntOp.cmpi p (x i) (y i) := rfl

/-- A keepdims sum: the sum down the rows of an `[n, 1]` column, cast to `[1, 1]`, is at its one index the sum of the
    column's entries. -/
theorem keepSum_apply {n : Nat} (x : FVec Ideal ⟨2, ![n, 1]⟩ .f32) (h : Shape.Reduces ⟨2, ![n, 1]⟩ [0] ⟨1, ![1]⟩)
    (hφ : FKind.Formats .f32) (hacc : (0x00000000#32 : BitVec 32) = 0x00000000#32)
    (hc : (⟨1, ![1]⟩ : Shape).ShapeCasts ⟨2, ![1, 1]⟩) (u v : Fin 1) :
    shapeCast ⟨2, ![1, 1]⟩ (multiReduction .add [0] ⟨1, ![1]⟩ x 0x00000000#32 h hφ hacc) hc (ix2 u v)
      = ∑ r : Fin n, x (ix2 r (0 : Fin 1)) :=
  (shapeCast_a_1a_apply _ hc u v).trans (colSum_apply x h hφ hacc v)

/-- The token's log-probability. -/
theorem logp_apply (r : Fin 1024) :
    k0_pay4 (F := Ideal) c0 c1 c2 (ix2 r (0 : Fin 1))
      = c2 (ix2 r (0 : Fin 1)) - (c0 (ix2 r (0 : Fin 1)) + Ideal.log (c1 (ix2 r (0 : Fin 1)))) := rfl

/-- The reference log-probabilities and the mask pass through unchanged. -/
theorem ref_apply : k0_pay5 (F := Ideal) rf = rf :=
  shapeCast_self rf shapeCasts_S1024x1_S1024x1
theorem mask_apply : k0_pay6 (F := Ideal) mk = mk :=
  shapeCast_self mk shapeCasts_S1024x1_S1024x1

/-- The sequence's length, at least one. -/
theorem seqLen_apply :
    k0_pay7 (F := Ideal) mk (ix2 (0 : Fin 1) (0 : Fin 1))
      = max (Ideal.ofBits .f32 0x3F800000#32) (∑ r : Fin 1024, mk (ix2 r (0 : Fin 1))) := by
  show max (Ideal.ofBits .f32 0x3F800000#32)
      (shapeCast S1x1 (multiReduction .add [0] S1 (k0_pay6 (F := Ideal) mk) 0x00000000#32 reduces_S1024x1_S1 (.inl rfl) rfl)
        shapeCasts_S1_S1x1 (ix2 (0 : Fin 1) (0 : Fin 1))) = _
  refine congrArg (max (Ideal.ofBits .f32 0x3F800000#32)) ?_
  refine (keepSum_apply _ reduces_S1024x1_S1 (.inl rfl) rfl shapeCasts_S1_S1x1 0 0).trans ?_
  rw [mask_apply]

/-- The base loss before its sign: the smaller of `weight * advantage` and `clipped weight * advantage`, with the weight
    the exponential of the masked mean of `logp - old` and the advantage that of sequence `n`. -/
theorem base_apply (n : Nat) :
    k0_pay8 (F := Ideal) (BitVec.ofNat 32 n) c0 c1 c2 old mk adv (ix2 (0 : Fin 1) (0 : Fin 1))
      = (let wgt : EReal := Ideal.exp (Ideal.div
            (∑ r : Fin 1024, (k0_pay4 (F := Ideal) c0 c1 c2 (ix2 r (0 : Fin 1)) - old (ix2 r (0 : Fin 1))) * mk (ix2 r (0 : Fin 1)))
            (k0_pay7 (F := Ideal) mk (ix2 (0 : Fin 1) (0 : Fin 1))))
         let advn : EReal := ∑ b' : Fin 4, if BitVec.ofNat 32 b'.val = BitVec.ofNat 32 n then adv (ix2 b' (0 : Fin 1)) else 0
         min (wgt * advn)
           (min (Ideal.ofBits .f32 0x3F99999A#32) (max (Ideal.ofBits .f32 0x3F4CCCCD#32) wgt) * advn)) := by
  have hi : ∀ b' : Fin 4, iota .tc S4x1 32 [0] iota_S4x1_d0_w32 (ix2 b' (0 : Fin 1)) = BitVec.ofNat 32 b'.val :=
    fun b' => iota_single_apply .tc S4x1 32 0 iota_S4x1_d0_w32 (ix2 b' (0 : Fin 1))
  unfold k0_pay8
  dsimp only
  simp only [minimumf_apply, mulf_apply, maximumf_apply, exp_apply, divf_apply, broadcast_apply, Ideal.ofBits_def]
  rw [keepSum_apply, keepSum_apply]
  simp only [mulf_apply, subf_apply, broadcast_apply, select_apply, cmpi_apply, hi, select_cmpi_eq,
    shapeCast_self, mask_apply, Ideal.ofBits_def, Ideal.ofBits_zero_f32]

/-- The output block, the same in every row. -/
theorem out_apply (v57 v61 v63 : FVec Ideal S1024x1 .f32) (v68 v89 : FVec Ideal S1x1 .f32) (r : Fin 1024) :
    k0_pay3 (F := Ideal) v57 v61 v63 v68 v89 (Scalar.ofBits .f32 0x00000000#32) (ix2 r (0 : Fin 1))
      = Ideal.div
          (∑ r' : Fin 1024,
            ((Ideal.ofBits .f32 0x00000000#32 - v89 (ix2 (0 : Fin 1) (0 : Fin 1)))
              + Ideal.ofBits .f32 0x3D23D70A#32 *
                ((Ideal.exp (v61 (ix2 r' (0 : Fin 1)) - v57 (ix2 r' (0 : Fin 1))) - (v61 (ix2 r' (0 : Fin 1)) - v57 (ix2 r' (0 : Fin 1))))
                  - Ideal.ofBits .f32 0x3F800000#32))
            * v63 (ix2 r' (0 : Fin 1)))
          (v68 (ix2 (0 : Fin 1) (0 : Fin 1))) := by
  unfold k0_pay3
  dsimp only
  simp only [broadcastTo_1b_ab_apply, shapeCast_self, divf_apply, Ideal.ofBits_def]
  rw [keepSum_apply]
  simp only [broadcastTo_1b_ab_apply, mulf_apply, addf_apply, subf_apply, exp_apply, broadcast_apply]

end Cert.KernelIdeal.PayEpilogue

end
-- ==== Proof.LossReal.lean ====
/-
  Under the precondition's domain every quantity the loss is built from is a real number: the logits (finite sums of
  products of reals), the row maxima, the shifted logits, the logarithm of the sum of their exponentials (that sum is
  positive), the tokens' log-probabilities, the sequence lengths (at least one, hence not zero), the importance
  weights and their clipped forms, the penalties, the token losses and the sequence losses.
-/
import proofs.«404778_j58669253264202_3_alg».proof.Proof.Loss
import proofs.«404778_j58669253264202_3_alg».proof.Proof.Inputs
import proofs.«404778_j58669253264202_3_alg».proof.Proof.RealOps

noncomputable section

namespace Cert.LossReal

open Idealize.ShloMosaic Idealize.ShloMosaic.ValueIdx Cert.LibReal Cert.Inputs Cert.Domain Cert.Pre_finite_inputs

variable (a0 : FVec Ideal S4x1024x2048 .f32) (a1 : FVec Ideal S32000x2048 .f32) (a2 : FVec Ideal S32000 .f32)
  (a3 : IVec S4x1024 32) (a4 : FVec Ideal S4x1024 .f32) (a5 : FVec Ideal S4 .f32) (a6 a7 : FVec Ideal S4x1024 .f32)
  (hg : Good a0 a1 a2 a3 a4 a5 a6 a7)

/-! ## What the theorems share -/

/-- The word of the constant one is the real one. -/
theorem one_eq : Cert.Loss.one = (1 : EReal) := Cert.RealOps.ofBits_one

theorem isReal_one : IsReal Cert.Loss.one := by
  rw [one_eq]; exact Cert.RealOps.one

theorem one_pos : (0 : EReal) < Cert.Loss.one := by
  rw [one_eq]; exact zero_lt_one

/-- The supremum of reals over a set that is not empty is a real: one of them. -/
theorem sup_isReal {ι : Type*} (A : Finset ι) (hA : A.Nonempty) (f : ι → EReal) (h : ∀ i ∈ A, IsReal (f i)) :
    IsReal (A.sup f) := by
  induction hA using Finset.Nonempty.cons_induction with
  | singleton a => rw [Finset.sup_singleton]; exact h a (Finset.mem_singleton_self a)
  | cons a s ha hs ih =>
    rw [Finset.sup_cons]
    exact Cert.RealOps.max' (h a (Finset.mem_cons_self a s)) (ih fun i hi => h i (Finset.mem_cons.mpr (Or.inr hi)))

/-- A sum of positive reals over an index type that is not empty is positive: it is the cast of the reals' sum. -/
theorem sum_pos_of_isReal {ι : Type*} [Fintype ι] [Nonempty ι] (f : ι → EReal) (hr : ∀ i, IsReal (f i))
    (hp : ∀ i, (0 : EReal) < f i) : (0 : EReal) < ∑ i, f i := by
  have hr' : ∀ i, ∃ r : ℝ, f i = (r : EReal) := hr
  choose g hgf using hr'
  have hf : f = fun i => ((g i : ℝ) : EReal) := funext hgf
  have hpos : ∀ i, 0 < g i := fun i => by
    have h := hp i
    rw [hgf i] at h
    exact EReal.coe_pos.mp h
  rw [hf, ← Cert.LibReal.coe_sum]
  exact EReal.coe_pos.mpr (Finset.sum_pos (fun i _ => hpos i) Finset.univ_nonempty)

/-- Each logit is a real: a finite sum of products of reals plus a real, over one. -/
theorem logit_isReal (b : Fin 4) (s : Fin 1024) (v : Fin 32000) :
    IsReal (Cert.Loss.logit (inOf a0 a1 a2 a3 a4 a5 a6 a7 hg) b s v) := by
  unfold Cert.Loss.logit
  refine Cert.RealOps.div_of_ne (Cert.RealOps.add (Cert.RealOps.sum _ _ fun h _ => Cert.RealOps.mul ?_ ?_) ?_) isReal_one ?_
  · exact hg.x_real (ix3 b s h)
  · exact hg.w_real (ix2 v h)
  · exact hg.bias_real (ix1 v)
  · rw [one_eq]; exact one_ne_zero

/-- The row's maximum is a real: the largest of 32000 reals. -/
theorem rowMax_isReal (b : Fin 4) (s : Fin 1024) :
    IsReal (Cert.Loss.rowMax (inOf a0 a1 a2 a3 a4 a5 a6 a7 hg) b s) := by
  unfold Cert.Loss.rowMax
  exact sup_isReal Finset.univ Finset.univ_nonempty _ fun v _ => logit_isReal a0 a1 a2 a3 a4 a5 a6 a7 hg b s v

theorem shifted_isReal (b : Fin 4) (s : Fin 1024) (v : Fin 32000) :
    IsReal (Cert.Loss.shifted (inOf a0 a1 a2 a3 a4 a5 a6 a7 hg) b s v) := by
  unfold Cert.Loss.shifted
  exact Cert.RealOps.sub (logit_isReal a0 a1 a2 a3 a4 a5 a6 a7 hg b s v) (rowMax_isReal a0 a1 a2 a3 a4 a5 a6 a7 hg b s)

/-- The sum of the exponentials is positive, so its logarithm is a real. -/
theorem sumExp_pos (b : Fin 4) (s : Fin 1024) :
    (0 : EReal) < ∑ v : Fin 32000, Ideal.exp (Cert.Loss.shifted (inOf a0 a1 a2 a3 a4 a5 a6 a7 hg) b s v) := by
  exact sum_pos_of_isReal _ (fun v => Cert.RealOps.exp (shifted_isReal a0 a1 a2 a3 a4 a5 a6 a7 hg b s v))
    (fun v => Cert.RealOps.exp_pos (shifted_isReal a0 a1 a2 a3 a4 a5 a6 a7 hg b s v))

theorem logSumExp_isReal (b : Fin 4) (s : Fin 1024) :
    IsReal (Cert.Loss.logSumExp (inOf a0 a1 a2 a3 a4 a5 a6 a7 hg) b s) := by
  unfold Cert.Loss.logSumExp
  exact Cert.RealOps.log_of_pos (Cert.RealOps.sum _ _ fun v _ => Cert.RealOps.exp (shifted_isReal a0 a1 a2 a3 a4 a5 a6 a7 hg b s v))
    (sumExp_pos a0 a1 a2 a3 a4 a5 a6 a7 hg b s)

theorem logp_isReal (b : Fin 4) (s : Fin 1024) :
    IsReal (Cert.Loss.logp (inOf a0 a1 a2 a3 a4 a5 a6 a7 hg) b s) := by
  unfold Cert.Loss.logp
  exact Cert.RealOps.sub (shifted_isReal a0 a1 a2 a3 a4 a5 a6 a7 hg b s _) (logSumExp_isReal a0 a1 a2 a3 a4 a5 a6 a7 hg b s)

theorem seqLen_isReal (b : Fin 4) :
    IsReal (Cert.Loss.seqLen (inOf a0 a1 a2 a3 a4 a5 a6 a7 hg) b) := by
  unfold Cert.Loss.seqLen
  exact Cert.RealOps.max' isReal_one (Cert.RealOps.sum _ _ fun s _ => hg.mask_real (ix2 b s))

/-- The length is at least one, so not zero. -/
theorem seqLen_ne_zero (b : Fin 4) :
    Cert.Loss.seqLen (inOf a0 a1 a2 a3 a4 a5 a6 a7 hg) b ≠ 0 := by
  have h2 : Cert.Loss.one ≤ Cert.Loss.seqLen (inOf a0 a1 a2 a3 a4 a5 a6 a7 hg) b := by
    unfold Cert.Loss.seqLen
    exact le_max_left _ _
  exact (lt_of_lt_of_le one_pos h2).ne'

theorem seqWeight_isReal (b : Fin 4) :
    IsReal (Cert.Loss.seqWeight (inOf a0 a1 a2 a3 a4 a5 a6 a7 hg) b) := by
  unfold Cert.Loss.seqWeight
  refine Cert.RealOps.div_of_ne (Cert.RealOps.sum _ _ fun s _ => Cert.RealOps.mul (Cert.RealOps.sub (logp_isReal a0 a1 a2 a3 a4 a5 a6 a7 hg b s) ?_) ?_)
    (seqLen_isReal a0 a1 a2 a3 a4 a5 a6 a7 hg b) (seqLen_ne_zero a0 a1 a2 a3 a4 a5 a6 a7 hg b)
  · exact hg.old_real (ix2 b s)
  · exact hg.mask_real (ix2 b s)

theorem coef_isReal (b : Fin 4) (s : Fin 1024) :
    IsReal (Cert.Loss.coef (inOf a0 a1 a2 a3 a4 a5 a6 a7 hg) b s) := by
  unfold Cert.Loss.coef
  exact Cert.RealOps.exp (Cert.RealOps.add (Cert.RealOps.sub (logp_isReal a0 a1 a2 a3 a4 a5 a6 a7 hg b s) (logp_isReal a0 a1 a2 a3 a4 a5 a6 a7 hg b s))
    (seqWeight_isReal a0 a1 a2 a3 a4 a5 a6 a7 hg b))

theorem coefClipped_isReal (b : Fin 4) (s : Fin 1024) :
    IsReal (Cert.Loss.coefClipped (inOf a0 a1 a2 a3 a4 a5 a6 a7 hg) b s) := by
  unfold Cert.Loss.coefClipped
  exact Cert.RealOps.min' Cert.RealOps.isReal_c12 (Cert.RealOps.max' Cert.RealOps.isReal_c08 (coef_isReal a0 a1 a2 a3 a4 a5 a6 a7 hg b s))

theorem penalty_isReal (b : Fin 4) (s : Fin 1024) :
    IsReal (Cert.Loss.penalty (inOf a0 a1 a2 a3 a4 a5 a6 a7 hg) b s) := by
  have hd : IsReal ((inOf a0 a1 a2 a3 a4 a5 a6 a7 hg).ref b s - Cert.Loss.logp (inOf a0 a1 a2 a3 a4 a5 a6 a7 hg) b s) :=
    Cert.RealOps.sub (hg.ref_real (ix2 b s)) (logp_isReal a0 a1 a2 a3 a4 a5 a6 a7 hg b s)
  unfold Cert.Loss.penalty
  exact Cert.RealOps.sub (Cert.RealOps.sub (Cert.RealOps.exp hd) hd) isReal_one

theorem tokenLoss_isReal (b : Fin 4) (s : Fin 1024) :
    IsReal (Cert.Loss.tokenLoss (inOf a0 a1 a2 a3 a4 a5 a6 a7 hg) b s) := by
  have hadv : IsReal ((inOf a0 a1 a2 a3 a4 a5 a6 a7 hg).adv b) := hg.adv_real (ix1 b)
  unfold Cert.Loss.tokenLoss
  exact Cert.RealOps.add
    (Cert.RealOps.neg (Cert.RealOps.min' (Cert.RealOps.mul (coef_isReal a0 a1 a2 a3 a4 a5 a6 a7 hg b s) hadv)
      (Cert.RealOps.mul (coefClipped_isReal a0 a1 a2 a3 a4 a5 a6 a7 hg b s) hadv)))
    (Cert.RealOps.mul Cert.RealOps.isReal_beta (penalty_isReal a0 a1 a2 a3 a4 a5 a6 a7 hg b s))

/-- The sequence's loss is a real. -/
theorem seqLoss_isReal (b : Fin 4) :
    IsReal (Cert.Loss.seqLoss (inOf a0 a1 a2 a3 a4 a5 a6 a7 hg) b) := by
  unfold Cert.Loss.seqLoss
  refine Cert.RealOps.div_of_ne (Cert.RealOps.sum _ _ fun s _ => Cert.RealOps.mul (tokenLoss_isReal a0 a1 a2 a3 a4 a5 a6 a7 hg b s) ?_)
    (seqLen_isReal a0 a1 a2 a3 a4 a5 a6 a7 hg b) (seqLen_ne_zero a0 a1 a2 a3 a4 a5 a6 a7 hg b)
  exact hg.mask_real (ix2 b s)

end Cert.LossReal

end
-- ==== Proof.Epilogue.lean ====
/-
  The block a row tile's last vocabulary tile stores is the sequence's loss, in every row: the epilogue's arithmetic over
  the three columns as they then stand (the row's maximum, the shifted sum over the whole vocabulary, the logit at the
  selected id) is the loss's own, `logit - (M + log S)` being the log-softmax `(logit - M) - log S` over the reals.
-/
import proofs.«404778_j58669253264202_3_alg».proof.Proof.Softmax
import proofs.«404778_j58669253264202_3_alg».proof.Proof.PayEpilogue
import proofs.«404778_j58669253264202_3_alg».proof.Proof.LossReal
import Idealize.ShloMosaic.Lib.ValueIdx
import Idealize.ShloMosaic.Lib.Pipeline.Value
import Idealize.ShloMosaic.PureOps.Ideal.Laws

set_option maxRecDepth 16384

noncomputable section

namespace Cert.KernelIdeal.Epilogue

open Idealize.ShloMosaic Idealize.ShloMosaic.TcCoe Idealize.ShloMosaic.ValueIdx
open Idealize.SL Idealize.SL.Sem
open Cert.KernelIdeal Cert.KernelIdeal.Gen Cert.KernelIdeal.Columns Cert.KernelIdeal.Carried Cert.KernelIdeal.KIn Cert.KernelIdeal.Blocks Cert.KernelIdeal.Softmax

variable [Cert.Pre_finite_inputs.Facts]
variable (m : (ℓ : Loc nD τ sig) → Buf (Elt Ideal) ℓ) (c : Dev nD)

variable (hpre : Cert.Pre_KernelIdeal m)

open Cert.KernelIdeal.PayEpilogue Cert.LibReal

/-- The columns at a row tile's last point. -/
abbrev lastCols (b : Fin 4) : Cols Ideal := colsAt (F := Ideal) m c (pt b (24 : Fin 25)).val (pt b (24 : Fin 25)).isLt

/-- Column 0 is then the row's maximum over the whole vocabulary. -/
theorem last0 (b : Fin 4) (r : Fin 1024) : (lastCols m c b).1 (ix2 r (0 : Fin 1)) = Cert.Loss.rowMax (I m c hpre) b r := by
  show (colsAt (F := Ideal) m c (pt b (24 : Fin 25)).val (pt b (24 : Fin 25)).isLt).1 (ix2 r (0 : Fin 1)) = _
  rw [col0_eq m c hpre b 24 r, seen_last]; rfl

/-- Column 1 is the sum of the exponentials of the shifted logits. -/
theorem last1 (b : Fin 4) (r : Fin 1024) :
    (lastCols m c b).2.1 (ix2 r (0 : Fin 1)) = ∑ v : Fin 32000, Ideal.exp (Cert.Loss.shifted (I m c hpre) b r v) := by
  show (colsAt (F := Ideal) m c (pt b (24 : Fin 25)).val (pt b (24 : Fin 25)).isLt).2.1 (ix2 r (0 : Fin 1)) = _
  rw [col1_eq m c hpre b 24 r, seen_last]; rfl

/-- Column 2 is the logit at the selected id. -/
theorem last2 (b : Fin 4) (r : Fin 1024) :
    (lastCols m c b).2.2 (ix2 r (0 : Fin 1)) = Cert.Loss.logit (I m c hpre) b r ((I m c hpre).tok b r) := by
  show (colsAt (F := Ideal) m c (pt b (24 : Fin 25)).val (pt b (24 : Fin 25)).isLt).2.2 (ix2 r (0 : Fin 1)) = _
  rw [col2_eq m c hpre b 24 r, seen_last, Finset.sum_ite_eq Finset.univ ((I m c hpre).tok b r), if_pos (Finset.mem_univ _)]

/-- The token's log-probability as the epilogue computes it, `logit - (M + log S)`, is the log-softmax
    `(logit - M) - log S`: the three are reals. -/
theorem logp_row (b : Fin 4) (r : Fin 1024) :
    k0_pay4 (F := Ideal) (lastCols m c b).1 (lastCols m c b).2.1 (lastCols m c b).2.2 (ix2 r (0 : Fin 1)) = Cert.Loss.logp (I m c hpre) b r := by
  rw [logp_apply, last0 m c hpre, last1 m c hpre, last2 m c hpre]
  have hg := good m c hpre
  obtain ⟨l, hl⟩ := Cert.LossReal.logit_isReal _ _ _ _ _ _ _ _ hg b r ((I m c hpre).tok b r)
  obtain ⟨M, hM⟩ := Cert.LossReal.rowMax_isReal _ _ _ _ _ _ _ _ hg b r
  obtain ⟨S, hS⟩ := Cert.LossReal.logSumExp_isReal _ _ _ _ _ _ _ _ hg b r
  have hS' : Ideal.log (∑ v : Fin 32000, Ideal.exp (Cert.Loss.shifted (I m c hpre) b r v)) = (S : EReal) := hS
  unfold Cert.Loss.logp
  rw [hS', show Cert.Loss.logSumExp (I m c hpre) b r = (S : EReal) from hS]
  unfold Cert.Loss.shifted
  rw [show Cert.Loss.logit (I m c hpre) b r ((I m c hpre).tok b r) = (l : EReal) from hl,
    show Cert.Loss.rowMax (I m c hpre) b r = (M : EReal) from hM]
  rw [← EReal.coe_add, ← EReal.coe_sub, ← EReal.coe_sub, ← EReal.coe_sub]
  exact congrArg _ (by ring)

/-- The advantage of sequence `b`, picked out of the four by its number. -/
theorem adv_pick (b : Fin 4) (f : Fin 4 → EReal) :
    (∑ b' : Fin 4, if BitVec.ofNat 32 b'.val = BitVec.ofNat 32 b.val then f b' else 0) = f b := by
  have hiff : ∀ (b b' : Fin 4), (BitVec.ofNat 32 b'.val = BitVec.ofNat 32 b.val) ↔ b' = b := by decide
  simp only [hiff b]
  rw [Finset.sum_ite_eq' Finset.univ b, if_pos (Finset.mem_univ _)]

theorem lossBlock_eq (b : Fin 4) (r : Fin 1024) :
    lossBlock (F := Ideal) m c (pt b (24 : Fin 25)) (colsAt (F := Ideal) m c (pt b (24 : Fin 25)).val (pt b (24 : Fin 25)).isLt) (ix2 r (0 : Fin 1))
      = Cert.Loss.seqLoss (I m c hpre) b := by
  have hg := good m c hpre
  show k0_pay3 (F := Ideal) (k0_pay4 (F := Ideal) (lastCols m c b).1 (lastCols m c b).2.1 (lastCols m c b).2.2)
      (k0_pay5 (F := Ideal) (refblk m c (pt b 24))) (k0_pay6 (F := Ideal) (maskblk m c (pt b 24))) (k0_pay7 (F := Ideal) (maskblk m c (pt b 24)))
      (k0_pay8 (F := Ideal) (BitVec.ofNat 32 ((grid0.coords (pt b 24)) 0).val) (lastCols m c b).1 (lastCols m c b).2.1 (lastCols m c b).2.2
        (oldblk m c (pt b 24)) (maskblk m c (pt b 24)) (advblk m c (pt b 24)))
      (Scalar.ofBits .f32 0x00000000#32) (ix2 r (0 : Fin 1)) = _
  rw [out_apply, base_apply, (coords_pt b 24).1, seqLen_apply, ref_apply, mask_apply]
  simp only [logp_row m c hpre b, refblk_apply, maskblk_apply, oldblk_apply, advblk_apply]
  rw [adv_pick b (fun b' => a5 m c (ix1 b'))]
  -- the importance weight: the loss adds `logp - logp`, which is zero, to the sequence's weight
  have hcoef : ∀ s : Fin 1024, Cert.Loss.coef (I m c hpre) b s = Ideal.exp (Cert.Loss.seqWeight (I m c hpre) b) := fun s => by
    unfold Cert.Loss.coef
    rw [show Cert.Loss.logp (I m c hpre) b s - Cert.Loss.logp (I m c hpre) b s = 0 from
      Cert.RealOps.sub_self' (Cert.LossReal.logp_isReal _ _ _ _ _ _ _ _ hg b s), zero_add]
  unfold Cert.Loss.seqLoss Cert.Loss.tokenLoss Cert.Loss.penalty Cert.Loss.coefClipped
  simp only [hcoef]
  unfold Cert.Loss.seqWeight Cert.Loss.seqLen
  rw [Cert.RealOps.ofBits_zero]
  simp only [zero_sub]
  rfl

/-- The sequence's loss is a real number: every quantity it is built from is, under the precondition, and its one
    division is by a length that is at least one. -/
theorem seqLoss_isReal (b : Fin 4) : Cert.LibReal.IsReal (Cert.Loss.seqLoss (I m c hpre) b) :=
  Cert.LossReal.seqLoss_isReal _ _ _ _ _ _ _ _ (good m c hpre) b

end Cert.KernelIdeal.Epilogue

end
-- ==== Proof.Final.lean ====
/-
  The idealized kernel's run with its result named: every weakly fair execution terminates with the result buffer at
  the loss `G` of the argument arrays and the arguments unchanged.

  Each row tile's last vocabulary tile flushes its output block, which holds the sequence's loss in every row; those
  four blocks tile the 4096 x 1 output array, so it ends holding, at row `r`, the loss of sequence `r / 1024`. The host
  operations after the region sum the 4096 entries and divide by 4096: the sum of the four losses, each counted 1024
  times, over 4096, which over the reals is their sum over 4.
-/
import proofs.«404778_j58669253264202_3_alg».proof.Proof.Tracked
import proofs.«404778_j58669253264202_3_alg».proof.Proof.Epilogue
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Run

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen Cert.KernelIdeal.Columns Cert.KernelIdeal.Carried Cert.KernelIdeal.KIn Cert.KernelIdeal.Blocks Cert.KernelIdeal.Softmax Cert.KernelIdeal.Epilogue Cert.KernelIdeal.Tracked

variable [Cert.Pre_finite_inputs.Facts]
variable (m : (ℓ : Loc nD τ sig) → Buf (Elt Ideal) ℓ) (c : Dev nD)

variable (ρ : Dev nD → PrngReg) (hpre : Cert.Pre_KernelIdeal m)

/-! ## The arithmetic of the mean -/

/-- The f32 pattern of 4096, the host's divisor. -/
theorem ofBits_4096 : Ideal.ofBits .f32 0x45800000#32 = ((4096 : ℝ) : EReal) := by
  simp [Ideal.ofBits, Ideal.ieee, -EReal.coe_mul]; norm_num

/-- The f32 pattern of 4, the loss's divisor. -/
theorem ofBits_four : Ideal.ofBits .f32 0x40800000#32 = ((4 : ℝ) : EReal) := by
  simp [Ideal.ofBits, Ideal.ieee, -EReal.coe_mul]; norm_num

/-- Four reals, each counted along its 1024 rows, sum over the 4096 rows to 1024 times their sum. -/
theorem sum_rows_real (s : Fin 4 → ℝ) (g : Fin 4096 → ℝ) (hg : ∀ (b : Fin 4) (r : Fin 1024) (a : Fin 4096), a.val = r.val + 1024 * b.val → g a = s b) :
    ∑ a : Fin 4096, g a = 1024 * ∑ b : Fin 4, s b := by
  have e := (Equiv.sum_comp (finProdFinEquiv (m := 4) (n := 1024)) g).symm
  refine e.trans ?_
  rw [Fintype.sum_prod_type]
  have h : ∀ (b : Fin 4) (r : Fin 1024), g (finProdFinEquiv (b, r)) = s b := fun b r => hg b r _ rfl
  simp only [h, Finset.sum_const, Finset.card_univ, Fintype.card_fin, nsmul_eq_mul, ← Finset.mul_sum]
  norm_num

/-- The sequence a row of the 4096 x 1 output belongs to. -/
def seqOf (y : S4096x1.Idx) : Fin 4 := ⟨(y 0).val / 1024, by have h := idx2_lt0 y; omega⟩

/-- With each of four extended reals a real: the sum over the 4096 rows of the one its row belongs to, over 4096, is the
    sum of the four over 4. -/
theorem mean_rows (L : Fin 4 → EReal) (hL : ∀ b, Cert.LibReal.IsReal (L b)) :
    Ideal.div (Ideal.ofBits .f32 0x00000000#32 + ∑ i : S4096x1.Idx, L (seqOf i)) (Ideal.ofBits .f32 0x45800000#32)
      = Ideal.div (∑ b : Fin 4, L b) (Ideal.ofBits .f32 0x40800000#32) := by
  choose s hs using hL
  have hsum : ∑ i : S4096x1.Idx, L (seqOf i) = ((1024 * ∑ b : Fin 4, s b : ℝ) : EReal) := by
    rw [sum_idx2]
    simp only [Fin.sum_univ_one, hs]
    rw [← Cert.LibReal.coe_sum]
    exact congrArg Real.toEReal (sum_rows_real s _ fun b r a ha =>
      congrArg s (Fin.ext (by show a.val / 1024 = b.val; have := r.isLt; omega)))
  have hL' : ∑ b : Fin 4, L b = ((∑ b : Fin 4, s b : ℝ) : EReal) := by
    rw [Cert.LibReal.coe_sum]; exact Finset.sum_congr rfl fun b _ => hs b
  rw [hsum, Ideal.ofBits_zero_f32, zero_add, ofBits_4096, Ideal.div_coe (y := 4096) (by norm_num), ← EReal.coe_mul,
    hL', ofBits_four, Ideal.div_coe (y := 4) (by norm_num), ← EReal.coe_mul]
  exact congrArg Real.toEReal (by ring)

/-! ## The output array -/

/-- What the 4096 x 1 output array ends holding: at each row, the loss of the row's sequence. -/
def G8 : FVec Ideal S4096x1 .f32 := fun y => Cert.Loss.seqLoss (I m c hpre) (seqOf y)

/-- The block a row tile's last vocabulary tile stores holds the sequence's loss at every index. -/
theorem lossBlock_at (b : Fin 4) (k : S1024x1.Idx) :
    lossBlock (F := Ideal) m c (pt b (24 : Fin 25)) (colsAt (F := Ideal) m c (pt b (24 : Fin 25)).val (pt b (24 : Fin 25)).isLt) k
      = Cert.Loss.seqLoss (I m c hpre) b := by
  have hk : k = ix2 (k 0) (0 : Fin 1) := by
    funext a
    match a with
    | ⟨0, _⟩ => rfl
    | ⟨1, _⟩ => exact (Subsingleton.elim (α := Fin 1) _ _)
  exact (congrArg _ hk).trans (lossBlock_eq m c hpre b (k 0))

/-- The output window's block index, decided over the grid: the row tile, and column block 0. -/
theorem idx8 : ∀ t : Fin cfg0.N, win0_8.index t (0 : Fin 2) = t.val / 25 ∧ win0_8.index t (1 : Fin 2) = 0 :=
  (by decide +kernel : ∀ t : Fin grid0.N, _)

/-- What a row tile's last vocabulary tile writes back is its block of the output array. -/
theorem flushed_pt (b : Fin 4) :
    (dats m 0 c).flushed 8 (pt b (24 : Fin 25)) = ((cfg0.win 8).blk (pt b (24 : Fin 25))).view.read (Elt Ideal) (G8 m c hpre) := by
  show (cfg0.win 8).cut (grid0.coords (pt b (24 : Fin 25))) ((dats m 0 c).after 8 (pt b (24 : Fin 25))) = _
  rw [after8]
  funext j
  rw [View.read_apply]
  show lossBlock (F := Ideal) m c (pt b (24 : Fin 25)) (colsAt (F := Ideal) m c (pt b (24 : Fin 25)).val (pt b (24 : Fin 25)).isLt) ((cfg0.win 8).xinj (grid0.coords (pt b (24 : Fin 25))) j)
    = G8 m c hpre (((cfg0.win 8).blk (pt b (24 : Fin 25))).view.emb j)
  rw [lossBlock_at]
  unfold G8
  refine congrArg _ (Fin.ext ?_).symm
  show (win0_8.index (pt b (24 : Fin 25)) (0 : Fin 2) * 1024 + 1 * (j 0).val) / 1024 = b.val
  have hj : (j 0).val < 1024 := (j 0).isLt
  rw [(idx8 (pt b (24 : Fin 25))).1, pt_val]
  have hb := b.isLt
  omega

/-- So is what any point that writes the output window back writes: such a point is a row tile's last vocabulary tile. -/
theorem flushed_eq (t : Fin cfg0.N) (hf : (cfg0.win 8).flush t = true) :
    (dats m 0 c).flushed 8 t = ((cfg0.win 8).blk t).view.read (Elt Ideal) (G8 m c hpre) := by
  have h24 : t.val % 25 = 24 := (flush0_8 t).mp hf
  have hN : cfg0.N = 100 := N_0
  obtain ⟨b, rfl⟩ : ∃ b : Fin 4, t = pt b (24 : Fin 25) :=
    ⟨⟨t.val / 25, by have := t.isLt; omega⟩, Fin.ext (by rw [pt_val]; show t.val = 25 * (t.val / 25) + 24; omega)⟩
  exact flushed_pt m c hpre b

/-- An index of the output array is in a point's block iff each coordinate is in the block's range on its axis. -/
theorem mem_blk8 (t : Fin cfg0.N) (i : S4096x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v9).slice (win0_8.rect t)).set ↔ _
  rw [View.set_slice_whole, Rect.mem_set_unit]
  exact Iff.rfl

/-- Every row of the output array is in the block its sequence's last vocabulary tile writes back. -/
theorem cover (i : S4096x1.Idx) : ∃ t : Fin cfg0.N, (cfg0.win 8).flush t = true ∧ i ∈ ((cfg0.win 8).blk t).view.set := by
  have h0 : (i 0).val < 4096 := idx2_lt0 i
  have h1 : (i 1).val < 1 := idx2_lt1 i
  have hv : (pt (seqOf i) (24 : Fin 25)).val = 25 * ((i 0).val / 1024) + 24 := rfl
  refine ⟨pt (seqOf i) (24 : Fin 25), (flush0_8 _).mpr (by rw [hv]; omega), ?_⟩
  rw [mem_blk8]
  intro a
  match a with
  | ⟨0, _⟩ =>
    show win0_8.index (pt (seqOf i) (24 : Fin 25)) (0 : Fin 2) * 1024 ≤ (i 0).val ∧ (i 0).val < win0_8.index (pt (seqOf i) (24 : Fin 25)) (0 : Fin 2) * 1024 + 1024
    rw [(idx8 _).1, hv]; omega
  | ⟨1, _⟩ =>
    show win0_8.index (pt (seqOf i) (24 : Fin 25)) (1 : Fin 2) * 1 ≤ (i 1).val ∧ (i 1).val < win0_8.index (pt (seqOf i) (24 : Fin 25)) (1 : Fin 2) * 1 + 1
    rw [(idx8 _).2]; omega

/-- The output array after the region: at each row, the loss of the row's sequence. -/
theorem final : (dats m 0 c).arrAt 8 cfg0.N = G8 m c hpre :=
  (dats m 0 c).arrAt_eq_of_cover 8 (G8 m c hpre) (flushed_eq m c hpre) cover

/-! ## The host operations after the region -/

/-- The result buffer after the host operations that follow the region: the loss. -/
theorem result_eq : Pipeline.afterTail₀ cfgs (dats m) 0 (V0 m) [hostOps1] c main_v11 = fun _ => Cert.Loss.G (I m c hpre) := by
  unfold Pipeline.afterTail₀
  show StableHlo.after hostOps1 _ (Proc.devRef .tc main_v11) = _
  after_results
  have hA : Pipeline.withArrays (cfgs 0).spec c (V0 m c) (fun w => (dats m 0 c).arrAt w (cfgs 0).N) (Proc.devRef .tc main_v9)
      = G8 m c hpre :=
    (Pipeline.withArrays_arr spec0 launch0.win.arr_inj c _ _ 8).trans (final m c hpre)
  rw [hA]
  funext j
  rw [hostDivf_apply, hostReduceAdd_apply, Ideal.hostReduceAdd_total _ (fun b => b.elim0)]
  show Ideal.div (Ideal.ofBits .f32 0x00000000#32 + ∑ i : S4096x1.Idx, Cert.Loss.seqLoss (I m c hpre) (seqOf i)) (Ideal.ofBits .f32 0x45800000#32) = _
  exact mean_rows (fun b => Cert.Loss.seqLoss (I m c hpre) b) (fun b => seqLoss_isReal m c hpre b)

theorem run_value :
    θ_run (defs (F := Ideal)) (onTc (τ := τ) (main (F := Ideal))) ⟨m, fun _ => 0, ρ⟩ (fun r => ∀ c : Dev nD,
      r.2.mem ((c.tc : Thread nD τ).loc main_v11) = (fun _ => Cert.Loss.G (I m c hpre))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨((h c).2 main_v11 (Pipeline.mem_restRefs_of main_v11 (by decide) (by decide))).trans (result_eq m c hpre),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c),
       ((h c).2 main_arg7 (Pipeline.mem_restRefs_of main_arg7 (by decide) (by decide))).trans (W_main_arg7 m (dats m) c)⟩)
    (Tracked.run_main (F := Ideal) m ρ)

end Cert.KernelIdeal.Final

end
-- ==== Proof.ReferenceStages.lean ====
/- The reference's result is its last stage. The fold of the reference's 95 operations over the launch contents, read at the
   result buffer, is `val_main_v41` of the eight arguments: the stages `val_<buffer>` composed in program order.
   The operations are cut into seven stretches; before each cut an invariant says what the buffers still to be read hold,
   as stages of the arguments; a stretch carries one invariant to the next. A buffer written through a typed reference
   holds its stage moved to the buffer's own type (`TRef.toBuf`); reading it back through a typed reference undoes that. -/
import proofs.«404778_j58669253264202_3_alg».proof.Proof.ReferenceRead

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunValue Cert.ReferenceIdeal.Read

/-! ## Typed references: contents moved to the buffer's type and back -/

section Typed

variable {sg : RefSig} {tp : Topo} {Val : EltTy → Type} {T Tx Ty : BufTy}

/-- Contents moved to a typed reference's buffer type and back are the contents. -/
theorem ofBuf_toBuf (x : TRef sg T) (v : T.Contents Val) : x.ofBuf (x.toBuf v) = v := by
  obtain ⟨r, rfl, _, _⟩ := x; rfl

/-- A reshape between typed references: the result buffer holds the operand's contents, read at the operand's
    type, recast to the result's shape, moved to the result buffer's type. -/
theorem tref_reshape_result (x : TRef sg Tx) (y : TRef sg Ty) (he : Tx.elt = Ty.elt) (hn : Tx.shape.ShapeCasts Ty.shape)
    (V : Valuation tp sg Val) :
    (TRef.reshape (τ := tp) (Val := Val) x y he hn).result V (Proc.devRef .tc y.ref)
      = y.toBuf (fun i => he ▸ shapeCast Ty.shape (x.ofBuf (V (Proc.devRef .tc x.ref))) hn i) := by
  obtain ⟨rx, rfl, _, _⟩ := x
  obtain ⟨ry, rfl, _, _⟩ := y
  exact reshape_result rx ry _ _ _ _ V

end Typed

variable {F : FTy → Type} [FloatOps F]

/-! ## The buffers read across the boundary between plain and typed operations

A buffer a plain operation writes and a typed one reads (`ofBuf_`), or the other way round (`toBuf_`): at a literal
reference the buffer's type IS the value's type, and the move is the identity. -/

theorem ofBuf_v5 (v : (⟨S4x1024x32000, .f32⟩ : BufTy).Contents (Elt F)) :
    (TRef.of (T := ⟨S4x1024x32000, .f32⟩) main_v5).ofBuf (Val := Elt F) v = v := cast_eq _ _
theorem ofBuf_v7 (v : (⟨S4x1024x1, .i32⟩ : BufTy).Contents (Elt F)) :
    (TRef.of (T := ⟨S4x1024x1, .i32⟩) main_v7).ofBuf (Val := Elt F) v = v := cast_eq _ _
theorem ofBuf_v11 (v : (⟨S4, .f32⟩ : BufTy).Contents (Elt F)) :
    (TRef.of (T := ⟨S4, .f32⟩) main_v11).ofBuf (Val := Elt F) v = v := cast_eq _ _
theorem ofBuf_cst_1 (v : (⟨S_, .f32⟩ : BufTy).Contents (Elt F)) :
    (TRef.of (T := ⟨S_, .f32⟩) main_cst_1).ofBuf (Val := Elt F) v = v := cast_eq _ _
theorem ofBuf_v20 (v : (⟨S4x1024, .f32⟩ : BufTy).Contents (Elt F)) :
    (TRef.of (T := ⟨S4x1024, .f32⟩) main_v20).ofBuf (Val := Elt F) v = v := cast_eq _ _
theorem ofBuf_cst_3 (v : (⟨S_, .f32⟩ : BufTy).Contents (Elt F)) :
    (TRef.of (T := ⟨S_, .f32⟩) main_cst_3).ofBuf (Val := Elt F) v = v := cast_eq _ _
theorem ofBuf_cst_4 (v : (⟨S_, .f32⟩ : BufTy).Contents (Elt F)) :
    (TRef.of (T := ⟨S_, .f32⟩) main_cst_4).ofBuf (Val := Elt F) v = v := cast_eq _ _
theorem toBuf_v8 (v : (⟨S4x1024x1, .f32⟩ : BufTy).Contents (Elt F)) :
    (TRef.of (T := ⟨S4x1024x1, .f32⟩) main_v8).toBuf (Val := Elt F) v = v := cast_eq _ _
theorem toBuf_v12 (v : (⟨S4, .f32⟩ : BufTy).Contents (Elt F)) :
    (TRef.of (T := ⟨S4, .f32⟩) main_v12).toBuf (Val := Elt F) v = v := cast_eq _ _
theorem toBuf_v21 (v : (⟨S4x1024, .f32⟩ : BufTy).Contents (Elt F)) :
    (TRef.of (T := ⟨S4x1024, .f32⟩) main_v21).toBuf (Val := Elt F) v = v := cast_eq _ _

/-! ## The operations' results, outermost first -/

/-- On a goal `after [operations] W b = …`: each operation's result at its own buffer becomes its function's value, and
    at any other buffer what was there, until only `W` at buffers the stretch does not write is left. -/
local macro "stage_results" : tactic =>
  `(tactic| (simp only [after_cons, after_nil]
             repeat (first
               | rw [tref_reshape_result]
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The seven stretches -/

/-- The fold over a list is the fold over what is left after `k` operations, from the fold over those `k`. -/
theorem after_split (k : Nat) (l : List (HloOp τ sig (Elt F))) (V : Valuation τ sig (Elt F)) :
    after l V = after (l.drop k) (after (l.take k) V) := by
  rw [← after_append, List.take_append_drop]

/-- What is left of the operations after 7, 22, 31, 46, 62 and 77 of them. -/
abbrev rest1 : List (HloOp τ sig (Elt F)) := (ops (F := F)).drop 7
abbrev rest2 : List (HloOp τ sig (Elt F)) := (rest1 (F := F)).drop 15
abbrev rest3 : List (HloOp τ sig (Elt F)) := (rest2 (F := F)).drop 9
abbrev rest4 : List (HloOp τ sig (Elt F)) := (rest3 (F := F)).drop 15
abbrev rest5 : List (HloOp τ sig (Elt F)) := (rest4 (F := F)).drop 16
abbrev rest6 : List (HloOp τ sig (Elt F)) := (rest5 (F := F)).drop 15

/-- Operations 0–6: the projection onto the vocabulary, plus the bias, divided by the temperature (one). -/
abbrev ops0 : List (HloOp τ sig (Elt F)) := (ops (F := F)).take 7
/-- Operations 7–21: the log-softmax over the vocabulary axis. -/
abbrev ops1 : List (HloOp τ sig (Elt F)) := (rest1 (F := F)).take 15
/-- Operations 22–30: the token indices, negative ones wrapped, as gather indices. -/
abbrev ops2 : List (HloOp τ sig (Elt F)) := (rest2 (F := F)).take 9
/-- Operations 31–45: the bounds mask, the gather of the token's log-probability, the select, the reshape. -/
abbrev ops3 : List (HloOp τ sig (Elt F)) := (rest3 (F := F)).take 15
/-- Operations 46–61: the log-ratio to the old policy, the sequence length (the mask's sum, at least one), the
    sequence-level log weight, the importance weight (its exponential, after adding the token's log-probability minus itself). -/
abbrev ops4 : List (HloOp τ sig (Elt F)) := (rest4 (F := F)).take 16
/-- Operations 62–76: the importance weight clipped to [0.8, 1.2], both weights times the advantage, the negated minimum. -/
abbrev ops5 : List (HloOp τ sig (Elt F)) := (rest5 (F := F)).take 15
/-- Operations 77–94: the penalty 0.04 · (exp d − d − 1) for d the reference log-probability minus the token's, the masked
    sum over each sequence divided by its length, the sum over the batch divided by four. -/
abbrev ops6 : List (HloOp τ sig (Elt F)) := rest6 (F := F)

/-! ## What the buffers still to be read hold, before each cut -/

variable (x0 : (⟨S4x1024x2048, .f32⟩ : BufTy).Contents (Elt F)) (x1 : (⟨S32000x2048, .f32⟩ : BufTy).Contents (Elt F))
  (x2 : (⟨S32000, .f32⟩ : BufTy).Contents (Elt F)) (x3 : (⟨S4x1024, .i32⟩ : BufTy).Contents (Elt F))
  (x4 : (⟨S4x1024, .f32⟩ : BufTy).Contents (Elt F)) (x5 : (⟨S4, .f32⟩ : BufTy).Contents (Elt F))
  (x6 x7 : (⟨S4x1024, .f32⟩ : BufTy).Contents (Elt F))

/-- At the start: the eight arguments. -/
structure Cut0 (W : Valuation τ sig (Elt F)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7

/-- Before operation 7: the scaled logits. -/
structure Cut7 (W : Valuation τ sig (Elt F)) : Prop where
  v5 : W (Proc.devRef .tc main_v5) = val_main_v5 x0 x1 x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7

/-- Before operation 22: the log-probabilities. -/
structure Cut22 (W : Valuation τ sig (Elt F)) : Prop where
  v6 : W (Proc.devRef .tc main_v6) = (TRef.of (T := ⟨S4x1024x32000, .f32⟩) main_v6).toBuf (val_main_v6 x0 x1 x2)
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7

/-- Before operation 31: the log-probabilities and the gather indices. -/
structure Cut31 (W : Valuation τ sig (Elt F)) : Prop where
  i5 : W (Proc.devRef .tc main_call1_v5) = (TRef.of (T := ⟨S4x1024x1x1, .i32⟩) main_call1_v5).toBuf (val_main_call1_v5 x3)
  v6 : W (Proc.devRef .tc main_v6) = (TRef.of (T := ⟨S4x1024x32000, .f32⟩) main_v6).toBuf (val_main_v6 x0 x1 x2)
  a4 : W (Proc.devRef .tc main_arg4) = x4
  a5 : W (Proc.devRef .tc main_arg5) = x5
  a6 : W (Proc.devRef .tc main_arg6) = x6
  a7 : W (Proc.devRef .tc main_arg7) = x7

/-- Before operation 46: the token's log-probability. -/
structure Cut46 (W : Valuation τ sig (Elt F)) : Prop where
  v9 : W (Proc.devRef .tc main_v9) = val_main_v9 x0 x1 x2 x3
  a4 : W (Proc.devRef .tc main_arg4) = x4
  a5 : W (Proc.devRef .tc main_arg5) = x5
  a6 : W (Proc.devRef .tc main_arg6) = x6
  a7 : W (Proc.devRef .tc main_arg7) = x7

/-- Before operation 62: the token's log-probability, the sequence length, the importance weight. -/
structure Cut62 (W : Valuation τ sig (Elt F)) : Prop where
  v9 : W (Proc.devRef .tc main_v9) = val_main_v9 x0 x1 x2 x3
  v12 : W (Proc.devRef .tc main_v12) = val_main_v12 x4
  v20 : W (Proc.devRef .tc main_v20) = val_main_v20 x0 x1 x2 x3 x4 x7
  a4 : W (Proc.devRef .tc main_arg4) = x4
  a5 : W (Proc.devRef .tc main_arg5) = x5
  a6 : W (Proc.devRef .tc main_arg6) = x6

/-- Before operation 77: the token's log-probability, the sequence length, the negated minimum of the two weighted advantages. -/
structure Cut77 (W : Valuation τ sig (Elt F)) : Prop where
  v9 : W (Proc.devRef .tc main_v9) = val_main_v9 x0 x1 x2 x3
  v12 : W (Proc.devRef .tc main_v12) = val_main_v12 x4
  v28 : W (Proc.devRef .tc main_v28) = val_main_v28 x0 x1 x2 x3 x4 x5 x7
  a4 : W (Proc.devRef .tc main_arg4) = x4
  a6 : W (Proc.devRef .tc main_arg6) = x6

/-! ## Each stretch carries one invariant to the next -/

set_option maxRecDepth 8192 in
theorem step0 {W : Valuation τ sig (Elt F)} (h : Cut0 x0 x1 x2 x3 x4 x5 x6 x7 W) :
    Cut7 x0 x1 x2 x3 x4 x5 x6 x7 (after ops0 W) := by
  simp only [ops0, ops, List.take_succ_cons, List.take_zero]
  refine ⟨?_, ?_, ?_, ?_, ?_, ?_⟩ <;> stage_results
  · rw [h.a0, h.a1, h.a2]; rfl
  · exact h.a3
  · exact h.a4
  · exact h.a5
  · exact h.a6
  · exact h.a7

set_option maxRecDepth 8192 in
theorem step1 {W : Valuation τ sig (Elt F)} (h : Cut7 x0 x1 x2 x3 x4 x5 x6 x7 W) :
    Cut22 x0 x1 x2 x3 x4 x5 x6 x7 (after ops1 W) := by
  simp only [ops1, rest1, ops, List.drop_succ_cons, List.drop_zero, List.take_succ_cons, List.take_zero]
  refine ⟨?_, ?_, ?_, ?_, ?_, ?_⟩ <;> stage_results
  · rw [h.v5]
    repeat rw [ofBuf_toBuf]
    rw [ofBuf_v5]
    exact congrArg _ rfl
  · exact h.a3
  · exact h.a4
  · exact h.a5
  · exact h.a6
  · exact h.a7

set_option maxRecDepth 8192 in
theorem step2 {W : Valuation τ sig (Elt F)} (h : Cut22 x0 x1 x2 x3 x4 x5 x6 x7 W) :
    Cut31 x0 x1 x2 x3 x4 x5 x6 x7 (after ops2 W) := by
  simp only [ops2, rest2, rest1, ops, List.drop_succ_cons, List.drop_zero, List.take_succ_cons, List.take_zero]
  refine ⟨?_, ?_, ?_, ?_, ?_, ?_⟩ <;> stage_results
  · rw [h.a3]
    repeat rw [ofBuf_toBuf]
    rw [ofBuf_v7]
    exact congrArg _ rfl
  · exact h.v6
  · exact h.a4
  · exact h.a5
  · exact h.a6
  · exact h.a7

set_option maxRecDepth 8192 in
set_option maxHeartbeats 4000000 in
theorem step3 {W : Valuation τ sig (Elt F)} (h : Cut31 x0 x1 x2 x3 x4 x5 x6 x7 W) :
    Cut46 x0 x1 x2 x3 x4 x5 x6 x7 (after ops3 W) := by
  simp only [ops3, rest3, rest2, rest1, ops, List.drop_succ_cons, List.drop_zero, List.take_succ_cons, List.take_zero]
  refine ⟨?_, ?_, ?_, ?_, ?_⟩ <;> stage_results
  · rw [h.i5, h.v6]
    repeat rw [ofBuf_toBuf]
    rw [toBuf_v8]
    rfl
  · exact h.a4
  · exact h.a5
  · exact h.a6
  · exact h.a7

set_option maxRecDepth 8192 in
set_option maxHeartbeats 4000000 in
theorem step4 {W : Valuation τ sig (Elt F)} (h : Cut46 x0 x1 x2 x3 x4 x5 x6 x7 W) :
    Cut62 x0 x1 x2 x3 x4 x5 x6 x7 (after ops4 W) := by
  simp only [ops4, rest4, rest3, rest2, rest1, ops, List.drop_succ_cons, List.drop_zero, List.take_succ_cons, List.take_zero]
  refine ⟨?_, ?_, ?_, ?_, ?_, ?_⟩ <;> stage_results
  · exact h.v9
  · rw [h.a4]
    repeat rw [ofBuf_toBuf]
    rw [ofBuf_cst_1, ofBuf_v11, toBuf_v12]
    rfl
  · rw [h.v9, h.a7, h.a4]
    repeat rw [ofBuf_toBuf]
    rw [ofBuf_cst_1, ofBuf_v11, toBuf_v12]
    rfl
  · exact h.a4
  · exact h.a5
  · exact h.a6

set_option maxRecDepth 8192 in
set_option maxHeartbeats 4000000 in
theorem step5 {W : Valuation τ sig (Elt F)} (h : Cut62 x0 x1 x2 x3 x4 x5 x6 x7 W) :
    Cut77 x0 x1 x2 x3 x4 x5 x6 x7 (after ops5 W) := by
  simp only [ops5, rest5, rest4, rest3, rest2, rest1, ops, List.drop_succ_cons, List.drop_zero, List.take_succ_cons,
    List.take_zero]
  refine ⟨?_, ?_, ?_, ?_, ?_⟩ <;> stage_results
  · exact h.v9
  · exact h.v12
  · rw [h.v20, h.a5]
    repeat rw [ofBuf_toBuf]
    rw [ofBuf_cst_3, ofBuf_cst_4, ofBuf_v20, toBuf_v21]
    rfl
  · exact h.a4
  · exact h.a6

set_option maxRecDepth 8192 in
set_option maxHeartbeats 4000000 in
theorem step6 {W : Valuation τ sig (Elt F)} (h : Cut77 x0 x1 x2 x3 x4 x5 x6 x7 W) :
    after ops6 W (Proc.devRef .tc main_v41) = val_main_v41 x0 x1 x2 x3 x4 x5 x6 x7 := by
  simp only [ops6, rest6, rest5, rest4, rest3, rest2, rest1, ops, List.drop_succ_cons, List.drop_zero]
  stage_results
  rw [h.v9, h.v12, h.v28, h.a4, h.a6]
  rfl

/-! ## The result -/

/-- The fold of the reference's operations over the launch contents, at the result buffer, is the last stage of the
    composed stages of the eight arguments. -/
theorem result_eq_stages (m : (ℓ : Loc nD τ sig) → Buf (Elt F) ℓ) (c : Dev nD) :
    StableHlo.after (ops (F := F)) (launchContents m c) (Proc.devRef .tc main_v41)
      = val_main_v41 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [after_split 7 ops, after_split 15 rest1, after_split 9 rest2, after_split 15 rest3, after_split 16 rest4,
    after_split 15 rest5]
  exact step6 _ _ _ _ _ _ _ _ (step5 _ _ _ _ _ _ _ _ (step4 _ _ _ _ _ _ _ _ (step3 _ _ _ _ _ _ _ _
    (step2 _ _ _ _ _ _ _ _ (step1 _ _ _ _ _ _ _ _ (step0 _ _ _ _ _ _ _ _ ⟨rfl, rfl, rfl, rfl, rfl, rfl, rfl, rfl⟩))))))

end Cert.ReferenceIdeal.Stages

end
-- ==== Proof.RefGather.lean ====
/-
  The reference's gather of the log-softmax at the selected token ids.

  `take_along_axis` first replaces a negative id by id + 32000, then tests `0 ≤ id ≤ 31999`, gathers the operand at
  `[b, s, id]` (a batched gather: axes 0 and 1 are batch axes) and selects the gathered value where the test passes,
  a not-a-number fill elsewhere. With every id non-negative and below 32000 nothing is replaced, the test passes,
  and the result at `[b, s]` is the operand at `[b, s, id]`.
-/
import proofs.«404778_j58669253264202_3_alg».proof.Proof.ReferenceRead
import proofs.«404778_j58669253264202_3_alg».proof.Proof.Inputs
import Idealize.ShloMosaic.Lib.ValueIdx
import Idealize.ShloMosaic.Lib.Pipeline.Value
import Idealize.ShloMosaic.Lib.ReduceAll
import Idealize.ShloMosaic.Lib.StableHlo.Predicate

set_option maxRecDepth 16384

noncomputable section

namespace Cert.ReferenceIdeal.RefGather

open Idealize.ShloMosaic Idealize.ShloMosaic.ValueIdx Cert.ReferenceIdeal Cert.ReferenceIdeal.Read

variable [Cert.ReferenceIdeal.Facts] [Cert.Pre_finite_inputs.Facts]

/-! ## Words and selects -/

/-- A select on the condition word 1 takes its first branch. -/
theorem select_one {α : Type} (a b : α) : Scalar.select 1#1 a b = a := if_pos rfl

/-- A select on a condition word that is not 1 takes its second branch. -/
theorem select_of_ne {α : Type} (c : BitVec 1) (h : ¬c = 1#1) (a b : α) : Scalar.select c a b = b := if_neg h

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- An and-reduce from 1 of an array of ones is 1 at every index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x _ fun n _ => hx n

/-! ## The ids through the callee -/

/-- No id is negative, so none is replaced: the callee's ids are the argument's. -/
theorem ids_kept (a3 : IVec Cert.Pre_finite_inputs.S4x1024 32) (h0 : ∀ i, 0 ≤ (a3 i).toInt) (q : S4x1024x1.Idx) :
    val_main_call1_v4 (F := Ideal) a3 q = a3 (idx_main_v7 q) := by
  rw [val_main_call1_v4_apply, val_main_call1_v1_apply, val_main_call1_v0_apply, val_main_call1_c_apply, val_main_v7_apply]
  refine select_of_ne _ ?_ _ _
  rw [IntOp.cmpi_slt]
  have h := h0 (idx_main_v7 q)
  have z : (0#32 : BitVec 32).toInt = 0 := by decide
  omega

/-- The reshaped ids, at any index, are an id of the argument. -/
theorem ids_at (a3 : IVec Cert.Pre_finite_inputs.S4x1024 32) (h0 : ∀ i, 0 ≤ (a3 i).toInt) (k : S4x1024x1x1.Idx) :
    val_main_call1_v5 (F := Ideal) a3 k = a3 (idx_main_v7 (idx_main_call1_v5 k)) := by
  rw [val_main_call1_v5_apply, ids_kept a3 h0]

/-- Every id is in `[0, 31999]`: the callee's range test passes everywhere. -/
theorem test_passes (a3 : IVec Cert.Pre_finite_inputs.S4x1024 32) (h0 : ∀ i, 0 ≤ (a3 i).toInt) (h1 : ∀ i, (a3 i).toInt < 32000)
    (k : S4x1024x1x1.Idx) : val_main_call1_v11 (F := Ideal) a3 k = 1#1 := by
  rw [val_main_call1_v11_apply, val_main_call1_v7_apply, val_main_call1_v10_apply, ids_at a3 h0, val_main_call1_v6_apply,
    val_main_call1_c_2_apply, val_main_call1_v9_apply, val_main_call1_v8_apply, val_main_call1_c_1_apply,
    IntOp.andi_eq_one, IntOp.cmpi_sge, IntOp.cmpi_sle]
  have h := h0 (idx_main_v7 (idx_main_call1_v5 k))
  have h' := h1 (idx_main_v7 (idx_main_call1_v5 k))
  have z0 : (0#32 : BitVec 32).toInt = 0 := by decide
  have z1 : (31999#32 : BitVec 32).toInt = 31999 := by decide
  omega

/-- So its reduction over the last axis is 1 at every index. -/
theorem test_all (a3 : IVec Cert.Pre_finite_inputs.S4x1024 32) (h0 : ∀ i, 0 ≤ (a3 i).toInt) (h1 : ∀ i, (a3 i).toInt < 32000)
    (i : S4x1024x1.Idx) : val_main_call1_v12 (F := Ideal) a3 i = 1#1 := by
  unfold val_main_call1_v12
  exact reduce_andi_ones _ _ _ _ _ (test_passes a3 h0 h1) rfl

/-! ## The batched gather, axis by axis -/

/-- Axis 0 of the operand is a batch axis: the result's first coordinate. -/
theorem gather_axis0 (j : S4x1024x1.Idx) (idx : IVec S4x1024x1x1 32) :
    (gather_S4x1024x32000_S4x1024x1x1_S4x1024x1_n_2_01_01_2_3_111.operandIdx j idx 0).val = (j 0).val := by
  show gather_S4x1024x32000_S4x1024x1x1_S4x1024x1_n_2_01_01_2_3_111.start j idx 0 + gather_S4x1024x32000_S4x1024x1x1_S4x1024x1_n_2_01_01_2_3_111.batchCoord j 0 + gather_S4x1024x32000_S4x1024x1x1_S4x1024x1_n_2_01_01_2_3_111.offCoord j 0 = _
  rw [GatherDims.start_batching _ j idx 0 (by decide), GatherDims.offCoord_eq_zero _ j 0 (by decide)]
  unfold GatherDims.batchCoord
  rw [dif_pos (show (0 : Fin S4x1024x32000.rank) ∈ gather_S4x1024x32000_S4x1024x1x1_S4x1024x1_n_2_01_01_2_3_111.operandBatchingDims by decide)]
  simp only [Nat.zero_add, Nat.add_zero]
  rfl

/-- Axis 1 of the operand is a batch axis: the result's second coordinate. -/
theorem gather_axis1 (j : S4x1024x1.Idx) (idx : IVec S4x1024x1x1 32) :
    (gather_S4x1024x32000_S4x1024x1x1_S4x1024x1_n_2_01_01_2_3_111.operandIdx j idx 1).val = (j 1).val := by
  show gather_S4x1024x32000_S4x1024x1x1_S4x1024x1_n_2_01_01_2_3_111.start j idx 1 + gather_S4x1024x32000_S4x1024x1x1_S4x1024x1_n_2_01_01_2_3_111.batchCoord j 1 + gather_S4x1024x32000_S4x1024x1x1_S4x1024x1_n_2_01_01_2_3_111.offCoord j 1 = _
  rw [GatherDims.start_batching _ j idx 1 (by decide), GatherDims.offCoord_eq_zero _ j 1 (by decide)]
  unfold GatherDims.batchCoord
  rw [dif_pos (show (1 : Fin S4x1024x32000.rank) ∈ gather_S4x1024x32000_S4x1024x1x1_S4x1024x1_n_2_01_01_2_3_111.operandBatchingDims by decide)]
  simp only [Nat.zero_add, Nat.add_zero]
  rfl

/-- Axis 2 of the operand is the collapsed, start-indexed one: the start index read signed at the result's coordinates,
    clamped into the vocabulary. -/
theorem gather_axis2 (j : S4x1024x1.Idx) (idx : IVec S4x1024x1x1 32) (k : S4x1024x1x1.Idx)
    (hk0 : (k 0).val = (j 0).val) (hk1 : (k 1).val = (j 1).val) (hk2 : (k 2).val = (j 2).val) (hk3 : (k 3).val = 0) :
    (gather_S4x1024x32000_S4x1024x1x1_S4x1024x1_n_2_01_01_2_3_111.operandIdx j idx 2).val = min (idx k).toInt.toNat 31999 := by
  show gather_S4x1024x32000_S4x1024x1x1_S4x1024x1_n_2_01_01_2_3_111.start j idx 2 + gather_S4x1024x32000_S4x1024x1x1_S4x1024x1_n_2_01_01_2_3_111.batchCoord j 2 + gather_S4x1024x32000_S4x1024x1x1_S4x1024x1_n_2_01_01_2_3_111.offCoord j 2 = _
  rw [GatherDims.batchCoord_eq_zero _ j 2 (by decide), GatherDims.offCoord_eq_zero _ j 2 (by decide)]
  simp only [Nat.add_zero]
  unfold GatherDims.start
  rw [dif_pos (show (2 : Fin S4x1024x32000.rank) ∈ gather_S4x1024x32000_S4x1024x1x1_S4x1024x1_n_2_01_01_2_3_111.startIndexMap by decide)]
  have hsi : gather_S4x1024x32000_S4x1024x1x1_S4x1024x1_n_2_01_01_2_3_111.siIdx j ⟨List.idxOf (2 : Fin S4x1024x32000.rank) gather_S4x1024x32000_S4x1024x1x1_S4x1024x1_n_2_01_01_2_3_111.startIndexMap,
      List.idxOf_lt_length_iff.2 (by decide)⟩ = k := by
    funext b; refine Fin.ext ?_
    match b with
    | ⟨0, _⟩ => exact hk0.symm
    | ⟨1, _⟩ => exact hk1.symm
    | ⟨2, _⟩ => exact hk2.symm
    | ⟨3, _⟩ => exact hk3.symm
  rw [hsi]
  rfl

theorem gather_eq (a0 : FVec Ideal Cert.Pre_finite_inputs.S4x1024x2048 .f32) (a1 : FVec Ideal Cert.Pre_finite_inputs.S32000x2048 .f32)
    (a2 : FVec Ideal Cert.Pre_finite_inputs.S32000 .f32) (a3 : IVec Cert.Pre_finite_inputs.S4x1024 32)
    (h0 : ∀ i, 0 ≤ (a3 i).toInt) (h1 : ∀ i, (a3 i).toInt < 32000) (b : Fin 4) (s : Fin 1024) :
    val_main_v9 (F := Ideal) a0 a1 a2 a3 (ix2 b s)
      = val_main_v6 (F := Ideal) a0 a1 a2 (ix3 b s (Cert.Inputs.tokOf a3 h0 h1 b s)) := by
  rw [val_main_v9_apply, val_main_v8_apply, test_all a3 h0 h1, select_one]
  unfold val_main_call1_v13 Host.gather
  refine congrArg (val_main_v6 (F := Ideal) a0 a1 a2) ?_
  have hb := b.isLt
  have hs := s.isLt
  funext a; refine Fin.ext ?_
  match a with
  | ⟨0, _⟩ =>
    refine (gather_axis0 _ _).trans ?_
    show (b.val * 1024 + s.val) / 1024 = b.val
    omega
  | ⟨1, _⟩ =>
    refine (gather_axis1 _ _).trans ?_
    show (b.val * 1024 + s.val) / 1 % 1024 = s.val
    omega
  | ⟨2, _⟩ =>
    refine (gather_axis2 _ _ (ix4 b s (0 : Fin 1) (0 : Fin 1)) ?_ ?_ rfl rfl).trans ?_
    · show b.val = (b.val * 1024 + s.val) / 1024
      omega
    · show s.val = (b.val * 1024 + s.val) / 1 % 1024
      omega
    · rw [ids_at a3 h0]
      have hi : idx_main_v7 (idx_main_call1_v5 (ix4 b s (0 : Fin 1) (0 : Fin 1))) = ix2 b s := by
        funext c; refine Fin.ext ?_
        match c with
        | ⟨0, _⟩ => show (((b.val * 1024 + s.val) * 1 + 0) * 1 + 0) / 1024 = b.val; omega
        | ⟨1, _⟩ => show (((b.val * 1024 + s.val) * 1 + 0) * 1 + 0) / 1 % 1024 = s.val; omega
      rw [hi]
      have h := h1 (ix2 b s)
      have h' := h0 (ix2 b s)
      show min (a3 (ix2 b s)).toInt.toNat 31999 = (a3 (ix2 b s)).toInt.toNat
      omega

end Cert.ReferenceIdeal.RefGather

end
-- ==== Proof.RefValue.lean ====
/-
  The reference's stages, composed, are the loss `G` of the argument arrays.

  The reference forms the logits of every token over the whole vocabulary by one contraction, adds the bias, divides by
  the temperature 1, takes the log-softmax along the vocabulary (maximum, shift, exponential, sum, logarithm, shift),
  gathers it at the selected ids (which the precondition puts in range, so the gather's bounds test passes and no
  negative id is wrapped), and then computes the loss exactly as `G` spells it.
-/
import proofs.«404778_j58669253264202_3_alg».proof.Proof.ReferenceRead
import proofs.«404778_j58669253264202_3_alg».proof.Proof.Inputs
import proofs.«404778_j58669253264202_3_alg».proof.Proof.RefGather
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read

variable [Cert.ReferenceIdeal.Facts] [Cert.Pre_finite_inputs.Facts]

section Stages

variable (a0 : FVec Ideal Cert.Pre_finite_inputs.S4x1024x2048 .f32) (a1 : FVec Ideal Cert.Pre_finite_inputs.S32000x2048 .f32)
    (a2 : FVec Ideal Cert.Pre_finite_inputs.S32000 .f32) (a3 : IVec Cert.Pre_finite_inputs.S4x1024 32)
    (a4 : FVec Ideal Cert.Pre_finite_inputs.S4x1024 .f32) (a5 : FVec Ideal Cert.Pre_finite_inputs.S4 .f32)
    (a6 a7 : FVec Ideal Cert.Pre_finite_inputs.S4x1024 .f32) (hg : Cert.Domain.Good a0 a1 a2 a3 a4 a5 a6 a7)

local notation "𝕀" => Cert.Inputs.inOf a0 a1 a2 a3 a4 a5 a6 a7 hg

/-! ## The logits -/

/-- The contraction reads the hidden states at `(b, s, k)` and the weights at `(v, k)`. -/
theorem lidx_eq (b : Fin 4) (s : Fin 1024) (v : Fin 32000) (k : Fin 2048) : lidx_main_v0 (ix3 b s v) k = ix3 b s k :=
  funext fun a => Fin.ext (by match a with | ⟨0, _⟩ => rfl | ⟨1, _⟩ => rfl | ⟨2, _⟩ => rfl)
theorem ridx_eq (b : Fin 4) (s : Fin 1024) (v : Fin 32000) (k : Fin 2048) : ridx_main_v0 (ix3 b s v) k = ix2 v k :=
  funext fun a => Fin.ext (by match a with | ⟨0, _⟩ => rfl | ⟨1, _⟩ => rfl)
/-- The bias, broadcast twice, is read at the vocabulary entry. -/
theorem bias_idx_eq (b : Fin 4) (s : Fin 1024) (v : Fin 32000) : idx_main_v1 (idx_main_v2 (ix3 b s v)) = ix1 v :=
  funext fun a => Fin.ext (by match a with | ⟨0, _⟩ => rfl)

/-- The reference's logits are the loss's. -/
theorem logit_eq (b : Fin 4) (s : Fin 1024) (v : Fin 32000) :
    val_main_v5 (F := Ideal) a0 a1 a2 (ix3 b s v) = Cert.Loss.logit 𝕀 b s v := by
  rw [val_main_v5_apply, val_main_v3_apply, val_main_v0_apply, val_main_v2_apply, val_main_v1_apply, val_main_v4_apply,
    val_main_cst_apply]
  simp only [lidx_eq, ridx_eq, bias_idx_eq]
  rfl

/-! ## The log-softmax along the vocabulary -/

/-- A row's index with the vocabulary entry put back. -/
theorem lift_vocab (h : S4x1024x32000.Reduces [2] S4x1024) (b : Fin 4) (s : Fin 1024) (k : Fin 32000) :
    h.lift (ix2 b s) k = ix3 b s k :=
  funext fun c => match c with
    | ⟨0, _⟩ => Fin.ext rfl
    | ⟨1, _⟩ => Fin.ext rfl
    | ⟨2, _⟩ => Fin.ext rfl

/-- The row's maximum: the fold of the maximum from negative infinity over the vocabulary, then the maximum with negative
    infinity once more, is the supremum of the row's logits. -/
theorem rowMax_eq (b : Fin 4) (s : Fin 1024) :
    val_main_call0_v2 (F := Ideal) a0 a1 a2 (ix2 b s) = Cert.Loss.rowMax 𝕀 b s := by
  have hR : S4x1024x32000.Reduces [2] S4x1024 := by decide
  rw [val_main_call0_v2_apply, val_main_call0_v1_apply, val_main_call0_cst_0_apply]
  unfold val_main_call0_v0
  rw [Host.reduce_eq_fold_single FloatOps.maximumf _ _ Gen.reducesTo_S4x1024x32000_S4x1024_d2 hR Gen.h_S_]
  have hl : (val_main_v5 (F := Ideal) a0 a1 a2 ∘ hR.lift (ix2 b s)) = fun k : Fin 32000 => Cert.Loss.logit 𝕀 b s k :=
    funext fun k => by
      show val_main_v5 (F := Ideal) a0 a1 a2 (hR.lift (ix2 b s) k) = _
      rw [lift_vocab hR b s k]
      exact logit_eq a0 a1 a2 a3 a4 a5 a6 a7 hg b s k
  rw [hl]
  show max (Ideal.ofBits .f32 0xFF800000#32)
    (Finset.fold max (Ideal.ofBits .f32 0xFF800000#32) (fun k : Fin 32000 => Cert.Loss.logit 𝕀 b s k) Finset.univ) = _
  rw [Cert.LibReal.ofBits_negInf_f32]
  refine (max_eq_right bot_le).trans ?_
  rfl

/-- The row's maximum, broadcast back along the vocabulary, is read at the row. -/
theorem rowMax_idx_eq (b : Fin 4) (s : Fin 1024) (v : Fin 32000) : idx_main_call0_v3 (idx_main_call0_v4 (ix3 b s v)) = ix2 b s :=
  funext fun a => Fin.ext (by match a with | ⟨0, _⟩ => rfl | ⟨1, _⟩ => rfl)

/-- The shifted logits. -/
theorem shifted_eq (b : Fin 4) (s : Fin 1024) (v : Fin 32000) :
    val_main_call0_v5 (F := Ideal) a0 a1 a2 (ix3 b s v) = Cert.Loss.shifted 𝕀 b s v := by
  rw [val_main_call0_v5_apply, val_main_call0_v4_apply, val_main_call0_v3_apply, rowMax_idx_eq,
    logit_eq a0 a1 a2 a3 a4 a5 a6 a7 hg, rowMax_eq a0 a1 a2 a3 a4 a5 a6 a7 hg]
  rfl

/-- The sum over the vocabulary reads the row's entries. -/
theorem sumExp_idx_eq (b : Fin 4) (s : Fin 1024) (k : Fin 32000) : idx_main_call0_v7 (ix2 b s) k = ix3 b s k :=
  funext fun a => Fin.ext (by match a with | ⟨0, _⟩ => rfl | ⟨1, _⟩ => rfl | ⟨2, _⟩ => rfl)
theorem logSum_idx_eq (b : Fin 4) (s : Fin 1024) (z : Fin 1) : idx_main_call0_v8 (ix3 b s z) = ix2 b s :=
  funext fun a => Fin.ext (by match a with | ⟨0, _⟩ => rfl | ⟨1, _⟩ => rfl)

/-- The logarithm of the sum of the exponentials of the shifted logits (the sum starts from the word of zero). -/
theorem logSumExp_eq (b : Fin 4) (s : Fin 1024) (z : Fin 1) :
    val_main_call0_v9 (F := Ideal) a0 a1 a2 (ix3 b s z) = Cert.Loss.logSumExp 𝕀 b s := by
  rw [val_main_call0_v9_apply, val_main_call0_v8_apply, logSum_idx_eq, val_main_call0_v7_apply, val_main_call0_cst_1_apply]
  simp only [sumExp_idx_eq, val_main_call0_v6_apply, shifted_eq a0 a1 a2 a3 a4 a5 a6 a7 hg, Ideal.hostUnary_log_def,
    Ideal.hostUnary_exp_def, Ideal.ofBits_def, Ideal.ofBits_zero_f32, zero_add]
  rfl

theorem logSoftmax_idx_eq (b : Fin 4) (s : Fin 1024) (v : Fin 32000) : idx_main_call0_v10 (ix3 b s v) = ix3 b s (0 : Fin 1) :=
  funext fun a => Fin.ext (by match a with | ⟨0, _⟩ => rfl | ⟨1, _⟩ => rfl | ⟨2, _⟩ => rfl)

/-- The log-softmax at a vocabulary entry. -/
theorem logSoftmax_eq (b : Fin 4) (s : Fin 1024) (v : Fin 32000) :
    val_main_v6 (F := Ideal) a0 a1 a2 (ix3 b s v) = Cert.Loss.shifted 𝕀 b s v - Cert.Loss.logSumExp 𝕀 b s := by
  rw [val_main_v6_apply, val_main_call0_v10_apply, logSoftmax_idx_eq, shifted_eq a0 a1 a2 a3 a4 a5 a6 a7 hg,
    logSumExp_eq a0 a1 a2 a3 a4 a5 a6 a7 hg]
  rfl

/-! ## The selected token's log-probability -/

/-- The token's log-probability. -/
theorem logp_eq (b : Fin 4) (s : Fin 1024) :
    val_main_v9 (F := Ideal) a0 a1 a2 a3 (ix2 b s) = Cert.Loss.logp 𝕀 b s := by
  rw [Cert.ReferenceIdeal.RefGather.gather_eq a0 a1 a2 a3 hg.id_nonneg hg.id_lt, logSoftmax_eq a0 a1 a2 a3 a4 a5 a6 a7 hg]
  rfl

/-! ## The sequence's weight -/

/-- A sum along a sequence reads the sequence's tokens. -/
theorem seq_idx11_eq (b : Fin 4) (k : Fin 1024) : idx_main_v11 (ix1 b) k = ix2 b k :=
  funext fun a => Fin.ext (by match a with | ⟨0, _⟩ => rfl | ⟨1, _⟩ => rfl)
theorem seq_idx14_eq (b : Fin 4) (k : Fin 1024) : idx_main_v14 (ix1 b) k = ix2 b k :=
  funext fun a => Fin.ext (by match a with | ⟨0, _⟩ => rfl | ⟨1, _⟩ => rfl)
theorem seq_idx38_eq (b : Fin 4) (k : Fin 1024) : idx_main_v38 (ix1 b) k = ix2 b k :=
  funext fun a => Fin.ext (by match a with | ⟨0, _⟩ => rfl | ⟨1, _⟩ => rfl)

/-- The sequence's length, at least one (the sum starts from the word of zero). -/
theorem seqLen_eq (b : Fin 4) : val_main_v12 (F := Ideal) a4 (ix1 b) = Cert.Loss.seqLen 𝕀 b := by
  rw [val_main_v12_apply, val_main_call2_v1_apply, val_main_call2_v0_apply, val_main_cst_1_apply, val_main_v11_apply,
    val_main_cst_0_apply]
  simp only [seq_idx11_eq, Ideal.maximumf_def, Ideal.ofBits_def, Ideal.ofBits_zero_f32, zero_add]
  rfl

/-- The sequence's log importance weight. -/
theorem seqWeight_eq (b : Fin 4) : val_main_v15 (F := Ideal) a0 a1 a2 a3 a4 a7 (ix1 b) = Cert.Loss.seqWeight 𝕀 b := by
  rw [val_main_v15_apply, val_main_v14_apply, val_main_cst_2_apply, seqLen_eq a0 a1 a2 a3 a4 a5 a6 a7 hg]
  simp only [seq_idx14_eq, val_main_v13_apply, val_main_v10_apply, logp_eq a0 a1 a2 a3 a4 a5 a6 a7 hg, Ideal.hostDivf_def, Ideal.mulf_def,
    Ideal.subf_def, Ideal.ofBits_def, Ideal.ofBits_zero_f32, zero_add]
  rfl

/-- The sequence's weight, broadcast along the sequence, is read at the sequence. -/
theorem weight_idx_eq (b : Fin 4) (s : Fin 1024) : idx_main_v16 (idx_main_v18 (ix2 b s)) = ix1 b :=
  funext fun a => Fin.ext (by match a with | ⟨0, _⟩ => rfl)

/-- The importance weight at a token. -/
theorem coef_eq (b : Fin 4) (s : Fin 1024) : val_main_v20 (F := Ideal) a0 a1 a2 a3 a4 a7 (ix2 b s) = Cert.Loss.coef 𝕀 b s := by
  rw [val_main_v20_apply, val_main_v19_apply, val_main_v17_apply, val_main_v18_apply, val_main_v16_apply, weight_idx_eq,
    seqWeight_eq a0 a1 a2 a3 a4 a5 a6 a7 hg, logp_eq a0 a1 a2 a3 a4 a5 a6 a7 hg]
  rfl

/-- The weight clipped. -/
theorem coefClipped_eq (b : Fin 4) (s : Fin 1024) :
    val_main_v21 (F := Ideal) a0 a1 a2 a3 a4 a7 (ix2 b s) = Cert.Loss.coefClipped 𝕀 b s := by
  rw [val_main_v21_apply, val_main_call3_v4_apply, val_main_call3_v3_apply, val_main_cst_4_apply, val_main_call3_v2_apply,
    val_main_call3_v1_apply, val_main_call3_v0_apply, val_main_cst_3_apply, coef_eq a0 a1 a2 a3 a4 a5 a6 a7 hg]
  rfl

/-! ## The loss -/

/-- The k3 penalty at a token. -/
theorem penalty_eq (b : Fin 4) (s : Fin 1024) : val_main_v33 (F := Ideal) a0 a1 a2 a3 a6 (ix2 b s) = Cert.Loss.penalty 𝕀 b s := by
  rw [val_main_v33_apply, val_main_v31_apply, val_main_v30_apply, val_main_v29_apply, val_main_v32_apply, val_main_cst_5_apply,
    logp_eq a0 a1 a2 a3 a4 a5 a6 a7 hg]
  rfl

/-- The advantages, broadcast along the sequence, are read at the sequence. -/
theorem adv_idx23_eq (b : Fin 4) (s : Fin 1024) : idx_main_v22 (idx_main_v23 (ix2 b s)) = ix1 b :=
  funext fun a => Fin.ext (by match a with | ⟨0, _⟩ => rfl)
theorem adv_idx25_eq (b : Fin 4) (s : Fin 1024) : idx_main_v22 (idx_main_v25 (ix2 b s)) = ix1 b :=
  funext fun a => Fin.ext (by match a with | ⟨0, _⟩ => rfl)

/-- The per-token loss. -/
theorem tokenLoss_eq (b : Fin 4) (s : Fin 1024) :
    val_main_v36 (F := Ideal) a0 a1 a2 a3 a4 a5 a6 a7 (ix2 b s) = Cert.Loss.tokenLoss 𝕀 b s := by
  rw [val_main_v36_apply, val_main_v28_apply, val_main_v27_apply, val_main_v24_apply, val_main_v23_apply, val_main_v22_apply,
    adv_idx23_eq, val_main_v26_apply, val_main_v25_apply, val_main_v22_apply, adv_idx25_eq, val_main_v35_apply, val_main_v34_apply,
    val_main_cst_6_apply, coef_eq a0 a1 a2 a3 a4 a5 a6 a7 hg, coefClipped_eq a0 a1 a2 a3 a4 a5 a6 a7 hg, penalty_eq a0 a1 a2 a3 a4 a5 a6 a7 hg]
  rfl

/-- The sequence's loss. -/
theorem seqLoss_eq (b : Fin 4) : val_main_v39 (F := Ideal) a0 a1 a2 a3 a4 a5 a6 a7 (ix1 b) = Cert.Loss.seqLoss 𝕀 b := by
  rw [val_main_v39_apply, val_main_v38_apply, val_main_cst_7_apply, seqLen_eq a0 a1 a2 a3 a4 a5 a6 a7 hg]
  simp only [seq_idx38_eq, val_main_v37_apply, tokenLoss_eq a0 a1 a2 a3 a4 a5 a6 a7 hg, Ideal.hostDivf_def, Ideal.mulf_def, Ideal.ofBits_def,
    Ideal.ofBits_zero_f32, zero_add]
  rfl

/-- A rank-one index set is its one coordinate's range, so a sum over it is the sum over the coordinate. -/
def idxEquiv1 {n : Nat} : (⟨1, ![n]⟩ : Shape).Idx ≃ Fin n where
  toFun i := i 0
  invFun := ix1
  left_inv i := (eq_ix1 i).symm
  right_inv _ := rfl
theorem sum_idx1 {M : Type*} [AddCommMonoid M] {n : Nat} (f : (⟨1, ![n]⟩ : Shape).Idx → M) : ∑ i, f i = ∑ a : Fin n, f (ix1 a) := by
  rw [← Equiv.sum_comp (idxEquiv1 (n := n)).symm f]
  rfl

/-- The mean over the four sequences. -/
theorem total_eq (i : S_.Idx) : val_main_v41 (F := Ideal) a0 a1 a2 a3 a4 a5 a6 a7 i = Cert.Loss.G 𝕀 := by
  rw [val_main_v41_apply, val_main_cst_9_apply, val_main_v40_apply, val_main_cst_8_apply, sum_idx1]
  simp only [seqLoss_eq a0 a1 a2 a3 a4 a5 a6 a7 hg, Ideal.hostDivf_def, Ideal.ofBits_def, Ideal.ofBits_zero_f32, zero_add]
  rfl

end Stages

theorem stages_eq_G (a0 : FVec Ideal Cert.Pre_finite_inputs.S4x1024x2048 .f32) (a1 : FVec Ideal Cert.Pre_finite_inputs.S32000x2048 .f32)
    (a2 : FVec Ideal Cert.Pre_finite_inputs.S32000 .f32) (a3 : IVec Cert.Pre_finite_inputs.S4x1024 32)
    (a4 : FVec Ideal Cert.Pre_finite_inputs.S4x1024 .f32) (a5 : FVec Ideal Cert.Pre_finite_inputs.S4 .f32)
    (a6 a7 : FVec Ideal Cert.Pre_finite_inputs.S4x1024 .f32) (hg : Cert.Domain.Good a0 a1 a2 a3 a4 a5 a6 a7) :
    val_main_v41 (F := Ideal) a0 a1 a2 a3 a4 a5 a6 a7 = fun _ => Cert.Loss.G (Cert.Inputs.inOf a0 a1 a2 a3 a4 a5 a6 a7 hg) := by
  funext i
  exact total_eq a0 a1 a2 a3 a4 a5 a6 a7 hg i

end Cert.ReferenceIdeal.RefValue

end
-- ==== Proof.lean ====
/-
  The kernel computes the GSPO loss of a fused linear projection without ever forming the logits matrix: the grid is four
  row tiles (one sequence of 1024 tokens each) by twenty-five vocabulary tiles of 1280 columns; for each token row it
  carries, from one vocabulary tile to the next, the maximum of the logits seen so far, the sum of `exp (logit - maximum)`
  over them (rescaled by `exp (old maximum - new maximum)` whenever the maximum grows) and the logit at the selected token
  id; at a row tile's last vocabulary tile it turns these into the token's log-probability `logit - (maximum + log sum)`,
  and that into the sequence's loss, which it writes into all 1024 rows of the tile's output block; the host then
  averages the 4096 rows. The reference forms all logits, takes their log-softmax `(logit - maximum) - log sum`, gathers
  it at the selected ids and averages the four sequences' losses.

  Over the extended reals, where a change of float format is the identity and every operation is exact, the two are
  the same function `Loss.G` of the argument arrays, provided every float entry is a real number and every selected id is
  an index of the vocabulary, `0 ≤ id < 32000` (outside that range the reference wraps or fills, the kernel selects
  nothing). The carried pair is, after every tile, the maximum and the shifted sum over all columns seen — the
  online-softmax law, proved over the reals, which is where finiteness is used —; the two spellings of the
  log-probability agree over the reals; and the mean over 4096 rows of four values each repeated 1024 times is their
  mean.

  The three programs' frames: the kernel's body, at each of its three kinds of grid point (a row tile's first
  vocabulary tile, which resets the carried columns; its last, which also stores the output block; any other), runs
  from the scratch's three columns as the point before left them to the same columns updated, every input buffer
  unchanged; the pipeline's launch theorem for a tracked scratch does the rest, at the word-level instance and at the
  ideal one alike. The reference is a host program; its run is read off its list of operations.
-/
import proofs.«404778_j58669253264202_3_alg».proof.Defs
import proofs.«404778_j58669253264202_3_alg».proof.Proof.Gen.Kernel
import proofs.«404778_j58669253264202_3_alg».proof.Proof.Gen.KernelIdeal
import proofs.«404778_j58669253264202_3_alg».proof.Proof.Gen.ReferenceIdeal
import proofs.«404778_j58669253264202_3_alg».proof.Proof.Gen.Pre_finite_inputs
import proofs.«404778_j58669253264202_3_alg».proof.Proof.Bits.Tracked
import proofs.«404778_j58669253264202_3_alg».proof.Proof.Tracked
import proofs.«404778_j58669253264202_3_alg».proof.Proof.Final
import proofs.«404778_j58669253264202_3_alg».proof.Proof.ReferenceRun
import proofs.«404778_j58669253264202_3_alg».proof.Proof.ReferenceStages
import proofs.«404778_j58669253264202_3_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Tracked.frame (F := Bits) m ρ

/-- So does the idealized kernel. -/
theorem frame_kernelIdeal : Cert.frame_KernelIdeal := fun m ρ _ => Cert.KernelIdeal.Tracked.frame (F := Ideal) m ρ

/-- So does the reference: its run, with what the result holds left out. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- The ideal pass rewrote nothing: the idealized kernel is the kernel's own text read over the extended reals. -/
theorem preserves : Cert.preserves_Kernel_KernelIdeal := trivial

/-- From memories agreeing on the arguments, under the precondition, the idealized kernel and the reference both run, to
    the same result: the loss `G` of the argument arrays. -/
theorem algebraic : Cert.algebraic_KernelIdeal_ReferenceIdeal := by
  intro m ρ m' ρ' hpre hagree
  refine ⟨fun c => fun _ => Cert.Loss.G (Cert.KernelIdeal.KIn.I m c hpre), Cert.KernelIdeal.Final.run_value m ρ hpre, ?_⟩
  refine (θ_run Cert.ReferenceIdeal.defs _ _).mono (fun _ h c => ⟨?_, (h c).2⟩) (Cert.ReferenceIdeal.RunValue.run (F := Ideal) m' ρ')
  rw [(h c).1, Cert.ReferenceIdeal.Stages.result_eq_stages m' c,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.ReferenceIdeal.RefValue.stages_eq_G _ _ _ _ _ _ _ _ (Cert.KernelIdeal.KIn.good m c hpre)

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves, Cert.Proof.algebraic⟩

end
